-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10x128 : Shape := ⟨3, ![10000, 10, 128]⟩
abbrev S1280x1280 : Shape := ⟨2, ![1280, 1280]⟩
abbrev S1280 : Shape := ⟨1, ![1280]⟩
abbrev S384x1280 : Shape := ⟨2, ![384, 1280]⟩
abbrev S1x384 : Shape := ⟨2, ![1, 384]⟩
abbrev S_ : Shape := ⟨0, ![]⟩

class Facts : Prop where
  bcast_S_S10000x10x128 : S_.BroadcastsInDim S10000x10x128 (![] : Fin 0 → Fin S10000x10x128.rank)
  reducesTo_S10000x10x128_S_d0_1_2 : S10000x10x128.ReducesTo [0, 1, 2] S_
  h_S_ : 0 < S_.numel
  bcast_S_S1280x1280 : S_.BroadcastsInDim S1280x1280 (![] : Fin 0 → Fin S1280x1280.rank)
  reducesTo_S1280x1280_S_d0_1 : S1280x1280.ReducesTo [0, 1] S_
  bcast_S_S1280 : S_.BroadcastsInDim S1280 (![] : Fin 0 → Fin S1280.rank)
  reducesTo_S1280_S_d0 : S1280.ReducesTo [0] S_
  bcast_S_S384x1280 : S_.BroadcastsInDim S384x1280 (![] : Fin 0 → Fin S384x1280.rank)
  reducesTo_S384x1280_S_d0_1 : S384x1280.ReducesTo [0, 1] S_
  bcast_S_S1x384 : S_.BroadcastsInDim S1x384 (![] : Fin 0 → Fin S1x384.rank)
  reducesTo_S1x384_S_d0_1 : S1x384.ReducesTo [0, 1] S_

variable [Facts]

def fn_part1 {F : FTy → Type} [FloatOps F] (main_arg4 : FVec F S384x1280 .f32) (main_arg5 : FVec F S1x384 .f32) (main_v13 : IVec S_ 1) (main_v16 : IVec S1280 1) : IVec S_ 1 :=
  let main_c_5 : IVec S_ 1 := constantI S_ 1 1#1
  let main_v17 : IVec S_ 1 := (fun x v => Host.reduce IntOp.andi x v reducesTo_S1280_S_d0 h_S_) main_v16 main_c_5
  let main_v18 : IVec S_ 1 := andi main_v13 main_v17
  let main_v19 : FVec F S384x1280 .f32 := Host.absf main_arg4
  let main_cst_6 : FVec F S_ .f32 := constant S_ .f32 0x7F800000#32
  let main_v20 : FVec F S384x1280 .f32 := broadcastInDim S384x1280 ![] bcast_S_S384x1280 main_cst_6
  let main_v21 : IVec S384x1280 1 := cmpf .olt main_v19 main_v20
  let main_c_7 : IVec S_ 1 := constantI S_ 1 1#1
  let main_v22 : IVec S_ 1 := (fun x v => Host.reduce IntOp.andi x v reducesTo_S384x1280_S_d0_1 h_S_) main_v21 main_c_7
  let main_v23 : IVec S_ 1 := andi main_v18 main_v22
  let main_v24 : FVec F S1x384 .f32 := Host.absf main_arg5
  let main_cst_8 : FVec F S_ .f32 := constant S_ .f32 0x7F800000#32
  let main_v25 : FVec F S1x384 .f32 := broadcastInDim S1x384 ![] bcast_S_S1x384 main_cst_8
  let main_v26 : IVec S1x384 1 := cmpf .olt main_v24 main_v25
  let main_c_9 : IVec S_ 1 := constantI S_ 1 1#1
  let main_v27 : IVec S_ 1 := (fun x v => Host.reduce IntOp.andi x v reducesTo_S1x384_S_d0_1 h_S_) main_v26 main_c_9
  let main_v28 : IVec S_ 1 := andi main_v23 main_v27
  main_v28

def fn {F : FTy → Type} [FloatOps F] (main_arg0 : FVec F S10000x10x128 .f32) (main_arg1 : FVec F S10000x10x128 .f32) (main_arg2 : FVec F S1280x1280 .f32) (main_arg3 : FVec F S1280 .f32) (main_arg4 : FVec F S384x1280 .f32) (main_arg5 : FVec F S1x384 .f32) : IVec S_ 1 :=
  let main_v0 : FVec F S10000x10x128 .f32 := Host.absf main_arg0
  let main_cst : FVec F S_ .f32 := constant S_ .f32 0x7F800000#32
  let main_v1 : FVec F S10000x10x128 .f32 := broadcastInDim S10000x10x128 ![] bcast_S_S10000x10x128 main_cst
  let main_v2 : IVec S10000x10x128 1 := cmpf .olt main_v0 main_v1
  let main_c : IVec S_ 1 := constantI S_ 1 1#1
  let main_v3 : IVec S_ 1 := (fun x v => Host.reduce IntOp.andi x v reducesTo_S10000x10x128_S_d0_1_2 h_S_) main_v2 main_c
  let main_v4 : FVec F S10000x10x128 .f32 := Host.absf main_arg1
  let main_cst_0 : FVec F S_ .f32 := constant S_ .f32 0x7F800000#32
  let main_v5 : FVec F S10000x10x128 .f32 := broadcastInDim S10000x10x128 ![] bcast_S_S10000x10x128 main_cst_0
  let main_v6 : IVec S10000x10x128 1 := cmpf .olt main_v4 main_v5
  let main_c_1 : IVec S_ 1 := constantI S_ 1 1#1
  let main_v7 : IVec S_ 1 := (fun x v => Host.reduce IntOp.andi x v reducesTo_S10000x10x128_S_d0_1_2 h_S_) main_v6 main_c_1
  let main_v8 : IVec S_ 1 := andi main_v3 main_v7
  let main_v9 : FVec F S1280x1280 .f32 := Host.absf main_arg2
  let main_cst_2 : FVec F S_ .f32 := constant S_ .f32 0x7F800000#32
  let main_v10 : FVec F S1280x1280 .f32 := broadcastInDim S1280x1280 ![] bcast_S_S1280x1280 main_cst_2
  let main_v11 : IVec S1280x1280 1 := cmpf .olt main_v9 main_v10
  let main_c_3 : IVec S_ 1 := constantI S_ 1 1#1
  let main_v12 : IVec S_ 1 := (fun x v => Host.reduce IntOp.andi x v reducesTo_S1280x1280_S_d0_1 h_S_) main_v11 main_c_3
  let main_v13 : IVec S_ 1 := andi main_v8 main_v12
  let main_v14 : FVec F S1280 .f32 := Host.absf main_arg3
  let main_cst_4 : FVec F S_ .f32 := constant S_ .f32 0x7F800000#32
  let main_v15 : FVec F S1280 .f32 := broadcastInDim S1280 ![] bcast_S_S1280 main_cst_4
  let main_v16 : IVec S1280 1 := cmpf .olt main_v14 main_v15
  fn_part1 (F := F) main_arg4 main_arg5 main_v13 main_v16
-- ==== Kernel.lean ====
abbrev S10000x10x128 : Shape := ⟨3, ![10000, 10, 128]⟩
abbrev S1280x1280 : Shape := ⟨2, ![1280, 1280]⟩
abbrev S1280 : Shape := ⟨1, ![1280]⟩
abbrev S384x1280 : Shape := ⟨2, ![384, 1280]⟩
abbrev S1x384 : Shape := ⟨2, ![1, 384]⟩
abbrev S10x10000x128 : Shape := ⟨3, ![10, 10000, 128]⟩
abbrev S1280x384 : Shape := ⟨2, ![1280, 384]⟩
abbrev S1x1280 : Shape := ⟨2, ![1, 1280]⟩
abbrev S10000x128 : Shape := ⟨2, ![10000, 128]⟩
abbrev S5x1000x128 : Shape := ⟨3, ![5, 1000, 128]⟩
abbrev S1000x128 : Shape := ⟨2, ![1000, 128]⟩
abbrev S1000x1280 : Shape := ⟨2, ![1000, 1280]⟩
abbrev S1280x1664 : Shape := ⟨2, ![1280, 1664]⟩
abbrev S1x1000x128 : Shape := ⟨3, ![1, 1000, 128]⟩
abbrev S1000x1664 : Shape := ⟨2, ![1000, 1664]⟩
abbrev S1000x384 : Shape := ⟨2, ![1000, 384]⟩

abbrev nBuf : Space → Nat
  | .hbm => 12
  | .vmem => 18
  | .smem => 0
  | _ => 0

abbrev bufTy : (tb : Table) → Fin (tcTables nBuf tb) → BufTy
  | .hbm, ⟨0, _⟩ => ⟨S10000x10x128, .f32⟩
  | .hbm, ⟨1, _⟩ => ⟨S10000x10x128, .f32⟩
  | .hbm, ⟨2, _⟩ => ⟨S1280x1280, .f32⟩
  | .hbm, ⟨3, _⟩ => ⟨S1280, .f32⟩
  | .hbm, ⟨4, _⟩ => ⟨S384x1280, .f32⟩
  | .hbm, ⟨5, _⟩ => ⟨S1x384, .f32⟩
  | .hbm, ⟨6, _⟩ => ⟨S10x10000x128, .f32⟩
  | .hbm, ⟨7, _⟩ => ⟨S10x10000x128, .f32⟩
  | .hbm, ⟨8, _⟩ => ⟨S1280x384, .f32⟩
  | .hbm, ⟨9, _⟩ => ⟨S1x1280, .f32⟩
  | .hbm, ⟨10, _⟩ => ⟨S10000x128, .f32⟩
  | .hbm, ⟨11, _⟩ => ⟨S10000x128, .f32⟩
  | .local _ .vmem, ⟨0, _⟩ => ⟨S5x1000x128, .f32⟩
  | .local _ .vmem, ⟨1, _⟩ => ⟨S5x1000x128, .f32⟩
  | .local _ .vmem, ⟨2, _⟩ => ⟨S5x1000x128, .f32⟩
  | .local _ .vmem, ⟨3, _⟩ => ⟨S5x1000x128, .f32⟩
  | .local _ .vmem, ⟨4, _⟩ => ⟨S5x1000x128, .f32⟩
  | .local _ .vmem, ⟨5, _⟩ => ⟨S5x1000x128, .f32⟩
  | .local _ .vmem, ⟨6, _⟩ => ⟨S5x1000x128, .f32⟩
  | .local _ .vmem, ⟨7, _⟩ => ⟨S5x1000x128, .f32⟩
  | .local _ .vmem, ⟨8, _⟩ => ⟨S1280x1280, .f32⟩
  | .local _ .vmem, ⟨9, _⟩ => ⟨S1x1280, .f32⟩
  | .local _ .vmem, ⟨10, _⟩ => ⟨S1280x384, .f32⟩
  | .local _ .vmem, ⟨11, _⟩ => ⟨S1x384, .f32⟩
  | .local _ .vmem, ⟨12, _⟩ => ⟨S1000x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x1280, .bf16⟩
  | .local _ .vmem, ⟨17, _⟩ => ⟨S1280x1664, .bf16⟩
  | _, _ => ⟨S10000x10x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5x1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5x1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1280x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S10000x10x128_S10x10000x128_1_0_2 : S10000x10x128.Transposes [1, 0, 2] S10x10000x128
  transposes_S384x1280_S1280x384_1_0 : S384x1280.Transposes [1, 0] S1280x384
  shapeCasts_S1280_S1x1280 : S1280.ShapeCasts S1x1280
  inb_S1280x1280_S1280x1280_0_0 : ∀ a, (![0, 0] : Fin 2 → Nat) a + S1280x1280.size a ≤ S1280x1280.size a
  h_S1280x1280 : 0 < S1280x1280.numel
  bitsLt_bf16_f32 : FTy.bits .bf16 < FTy.bits .f32
  inb_S1280x1664_S1280x1280_0_0 : ∀ a, (![0, 0] : Fin 2 → Nat) a + S1280x1280.size a ≤ S1280x1664.size a
  shapeCasts_S1280x1280_S1280x1280 : S1280x1280.ShapeCasts S1280x1280
  packedbf16_S1280x1664_S1280x1280_0_0 : (Rect.unit (s := S1280x1664) ![0, 0] S1280x1280.size inb_S1280x1664_S1280x1280_0_0).PackedRows (EltTy.packing .bf16)
  inb_S1280x384_S1280x384_0_0 : ∀ a, (![0, 0] : Fin 2 → Nat) a + S1280x384.size a ≤ S1280x384.size a
  h_S1280x384 : 0 < S1280x384.numel
  shapeCasts_S1280x384_S1280x384 : S1280x384.ShapeCasts S1280x384
  inb_S1280x1664_S1280x384_0_1280 : ∀ a, (![0, 1280] : Fin 2 → Nat) a + S1280x384.size a ≤ S1280x1664.size a
  packedbf16_S1280x1664_S1280x384_0_1280 : (Rect.unit (s := S1280x1664) ![0, 1280] S1280x384.size inb_S1280x1664_S1280x384_0_1280).PackedRows (EltTy.packing .bf16)
  inb_S5x1000x128_S1x1000x128_0_0_0 : ∀ a, (![0, 0, 0] : Fin 3 → Nat) a + S1x1000x128.size a ≤ S5x1000x128.size a
  h_S1x1000x128 : 0 < S1x1000x128.numel
  shapeCasts_S1x1000x128_S1000x128 : S1x1000x128.ShapeCasts S1000x128
  inb_S1000x1280_S1000x128_0_0 : ∀ a, (![0, 0] : Fin 2 → Nat) a + S1000x128.size a ≤ S1000x1280.size a
  h_S1000x128 : 0 < S1000x128.numel
  shapeCasts_S1000x128_S1000x128 : S1000x128.ShapeCasts S1000x128
  packedbf16_S1000x1280_S1000x128_0_0 : (Rect.unit (s := S1000x1280) ![0, 0] S1000x128.size inb_S1000x1280_S1000x128_0_0).PackedRows (EltTy.packing .bf16)
  inb_S5x1000x128_S1x1000x128_1_0_0 : ∀ a, (![1, 0, 0] : Fin 3 → Nat) a + S1x1000x128.size a ≤ S5x1000x128.size a
  inb_S1000x1280_S1000x128_0_128 : ∀ a, (![0, 128] : Fin 2 → Nat) a + S1000x128.size a ≤ S1000x1280.size a
  packedbf16_S1000x1280_S1000x128_0_128 : (Rect.unit (s := S1000x1280) ![0, 128] S1000x128.size inb_S1000x1280_S1000x128_0_128).PackedRows (EltTy.packing .bf16)
  inb_S5x1000x128_S1x1000x128_2_0_0 : ∀ a, (![2, 0, 0] : Fin 3 → Nat) a + S1x1000x128.size a ≤ S5x1000x128.size a
  inb_S1000x1280_S1000x128_0_256 : ∀ a, (![0, 256] : Fin 2 → Nat) a + S1000x128.size a ≤ S1000x1280.size a
  packedbf16_S1000x1280_S1000x128_0_256 : (Rect.unit (s := S1000x1280) ![0, 256] S1000x128.size inb_S1000x1280_S1000x128_0_256).PackedRows (EltTy.packing .bf16)
  inb_S5x1000x128_S1x1000x128_3_0_0 : ∀ a, (![3, 0, 0] : Fin 3 → Nat) a + S1x1000x128.size a ≤ S5x1000x128.size a
  inb_S1000x1280_S1000x128_0_384 : ∀ a, (![0, 384] : Fin 2 → Nat) a + S1000x128.size a ≤ S1000x1280.size a
  packedbf16_S1000x1280_S1000x128_0_384 : (Rect.unit (s := S1000x1280) ![0, 384] S1000x128.size inb_S1000x1280_S1000x128_0_384).PackedRows (EltTy.packing .bf16)
  inb_S5x1000x128_S1x1000x128_4_0_0 : ∀ a, (![4, 0, 0] : Fin 3 → Nat) a + S1x1000x128.size a ≤ S5x1000x128.size a
  inb_S1000x1280_S1000x128_0_512 : ∀ a, (![0, 512] : Fin 2 → Nat) a + S1000x128.size a ≤ S1000x1280.size a
  packedbf16_S1000x1280_S1000x128_0_512 : (Rect.unit (s := S1000x1280) ![0, 512] S1000x128.size inb_S1000x1280_S1000x128_0_512).PackedRows (EltTy.packing .bf16)
  inb_S1000x1280_S1000x128_0_640 : ∀ a, (![0, 640] : Fin 2 → Nat) a + S1000x128.size a ≤ S1000x1280.size a
  packedbf16_S1000x1280_S1000x128_0_640 : (Rect.unit (s := S1000x1280) ![0, 640] S1000x128.size inb_S1000x1280_S1000x128_0_640).PackedRows (EltTy.packing .bf16)
  inb_S1000x1280_S1000x128_0_768 : ∀ a, (![0, 768] : Fin 2 → Nat) a + S1000x128.size a ≤ S1000x1280.size a
  packedbf16_S1000x1280_S1000x128_0_768 : (Rect.unit (s := S1000x1280) ![0, 768] S1000x128.size inb_S1000x1280_S1000x128_0_768).PackedRows (EltTy.packing .bf16)
  inb_S1000x1280_S1000x128_0_896 : ∀ a, (![0, 896] : Fin 2 → Nat) a + S1000x128.size a ≤ S1000x1280.size a
  packedbf16_S1000x1280_S1000x128_0_896 : (Rect.unit (s := S1000x1280) ![0, 896] S1000x128.size inb_S1000x1280_S1000x128_0_896).PackedRows (EltTy.packing .bf16)
  inb_S1000x1280_S1000x128_0_1024 : ∀ a, (![0, 1024] : Fin 2 → Nat) a + S1000x128.size a ≤ S1000x1280.size a
  packedbf16_S1000x1280_S1000x128_0_1024 : (Rect.unit (s := S1000x1280) ![0, 1024] S1000x128.size inb_S1000x1280_S1000x128_0_1024).PackedRows (EltTy.packing .bf16)
  inb_S1000x1280_S1000x128_0_1152 : ∀ a, (![0, 1152] : Fin 2 → Nat) a + S1000x128.size a ≤ S1000x1280.size a
  packedbf16_S1000x1280_S1000x128_0_1152 : (Rect.unit (s := S1000x1280) ![0, 1152] S1000x128.size inb_S1000x1280_S1000x128_0_1152).PackedRows (EltTy.packing .bf16)
  inb_S1000x1280_S1000x1280_0_0 : ∀ a, (![0, 0] : Fin 2 → Nat) a + S1000x1280.size a ≤ S1000x1280.size a
  h_S1000x1280 : 0 < S1000x1280.numel
  inb_S1280x1664_S1280x1664_0_0 : ∀ a, (![0, 0] : Fin 2 → Nat) a + S1280x1664.size a ≤ S1280x1664.size a
  h_S1280x1664 : 0 < S1280x1664.numel
  slices_S1000x1664_o0_0_S1000x1280 : S1000x1664.Slices ![0, 0] S1000x1280
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S1000x1280 : S1x1280.Broadcasts S1000x1280
  slices_S1000x1664_o0_1280_S1000x384 : S1000x1664.Slices ![0, 1280] S1000x384
  slices_S1000x1280_o0_0_S1000x128 : S1000x1280.Slices ![0, 0] S1000x128
  slices_S1000x1280_o0_128_S1000x128 : S1000x1280.Slices ![0, 128] S1000x128
  slices_S1000x1280_o0_256_S1000x128 : S1000x1280.Slices ![0, 256] S1000x128
  slices_S1000x1280_o0_384_S1000x128 : S1000x1280.Slices ![0, 384] S1000x128
  slices_S1000x1280_o0_512_S1000x128 : S1000x1280.Slices ![0, 512] S1000x128
  slices_S1000x1280_o0_640_S1000x128 : S1000x1280.Slices ![0, 640] S1000x128
  slices_S1000x1280_o0_768_S1000x128 : S1000x1280.Slices ![0, 768] S1000x128
  slices_S1000x1280_o0_896_S1000x128 : S1000x1280.Slices ![0, 896] S1000x128
  slices_S1000x1280_o0_1024_S1000x128 : S1000x1280.Slices ![0, 1024] S1000x128
  slices_S1000x1280_o0_1152_S1000x128 : S1000x1280.Slices ![0, 1152] S1000x128
  inb_S1x384_S1x384_0_0 : ∀ a, (![0, 0] : Fin 2 → Nat) a + S1x384.size a ≤ S1x384.size a
  h_S1x384 : 0 < S1x384.numel
  broadcasts_S1x384_S1000x384 : S1x384.Broadcasts S1000x384
  slices_S1000x384_o0_0_S1000x128 : S1000x384.Slices ![0, 0] S1000x128
  slices_S1000x384_o0_128_S1000x128 : S1000x384.Slices ![0, 128] S1000x128
  slices_S1000x384_o0_256_S1000x128 : S1000x384.Slices ![0, 256] S1000x128
  inb_S1000x128_S1000x128_0_0 : ∀ a, (![0, 0] : Fin 2 → Nat) a + S1000x128.size a ≤ S1000x128.size a
  dot_S1000x1280_S1280x1664_S1000x1664_1_0_0_1_n_n_wf : DotDims.WF S1000x1280 S1280x1664 S1000x1664 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x1000x128.size a ≤ S10x10000x128.size a
  hwx0_0 : ∀ i : grid0.Coords, EltTy.bits .f32 = 32 ∨ (Rect.block (s := S10x10000x128) S5x1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x1000x128.size a ≤ S10x10000x128.size a
  hwx0_1 : ∀ i : grid0.Coords, EltTy.bits .f32 = 32 ∨ (Rect.block (s := S10x10000x128) S5x1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x1000x128.size a ≤ S10x10000x128.size a
  hwx0_2 : ∀ i : grid0.Coords, EltTy.bits .f32 = 32 ∨ (Rect.block (s := S10x10000x128) S5x1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x1000x128.size a ≤ S10x10000x128.size a
  hwx0_3 : ∀ i : grid0.Coords, EltTy.bits .f32 = 32 ∨ (Rect.block (s := S10x10000x128) S5x1000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1280x1280.size a ≤ S1280x1280.size a
  hwx0_4 : ∀ i : grid0.Coords, EltTy.bits .f32 = 32 ∨ (Rect.block (s := S1280x1280) S1280x1280.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1280.size a ≤ S1x1280.size a
  hwx0_5 : ∀ i : grid0.Coords, EltTy.bits .f32 = 32 ∨ (Rect.block (s := S1x1280) S1x1280.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1280x384.size a ≤ S1280x384.size a
  hwx0_6 : ∀ i : grid0.Coords, EltTy.bits .f32 = 32 ∨ (Rect.block (s := S1280x384) S1280x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x128.size a ≤ S10000x128.size a
  hwx0_8 : ∀ i : grid0.Coords, EltTy.bits .f32 = 32 ∨ (Rect.block (s := S10000x128) S1000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S10000x128.size a
  hwx0_9 : ∀ i : grid0.Coords, EltTy.bits .f32 = 32 ∨ (Rect.block (s := S10000x128) S1000x128.size (cc0_transform_9 i) (hinb0_9 i)).WholeWords (EltTy.packing .f32)

variable [Facts₀]

def dot_S1000x1280_S1280x1664_S1000x1664_1_0_0_1_n_n : DotDims S1000x1280 S1280x1664 S1000x1664 where
  lhsContracting := [1]
  rhsContracting := [0]
  lhsNonContracting := [0]
  rhsNonContracting := [1]
  lhsBatch := []
  rhsBatch := []
  wf := dot_S1000x1280_S1280x1664_S1000x1664_1_0_0_1_n_n_wf

abbrev win0_0 : Pipeline.Window sig grid0 :=
  Pipeline.Window.ofSpec (Memref.whole main_call0_v0) S5x1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S5x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S5x1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S5x1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1280x1280.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x1280.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v2) S1280x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000x10x128 : Shape := ⟨3, ![10000, 10, 128]⟩
abbrev S1280x1280 : Shape := ⟨2, ![1280, 1280]⟩
abbrev S1280 : Shape := ⟨1, ![1280]⟩
abbrev S384x1280 : Shape := ⟨2, ![384, 1280]⟩
abbrev S1x384 : Shape := ⟨2, ![1, 384]⟩
abbrev S10000x1280 : Shape := ⟨2, ![10000, 1280]⟩
abbrev S1x1280 : Shape := ⟨2, ![1, 1280]⟩
abbrev S_ : Shape := ⟨0, ![]⟩
abbrev S10000x128 : Shape := ⟨2, ![10000, 128]⟩
abbrev S1280x384 : Shape := ⟨2, ![1280, 384]⟩
abbrev S10000x384 : Shape := ⟨2, ![10000, 384]⟩

abbrev nBuf : Space → Nat
  | .hbm => 51
  | .vmem => 0
  | .smem => 0
  | _ => 0

abbrev bufTy : (tb : Table) → Fin (tcTables nBuf tb) → BufTy
  | .hbm, ⟨0, _⟩ => ⟨S10000x10x128, .f32⟩
  | .hbm, ⟨1, _⟩ => ⟨S10000x10x128, .f32⟩
  | .hbm, ⟨2, _⟩ => ⟨S1280x1280, .f32⟩
  | .hbm, ⟨3, _⟩ => ⟨S1280, .f32⟩
  | .hbm, ⟨4, _⟩ => ⟨S384x1280, .f32⟩
  | .hbm, ⟨5, _⟩ => ⟨S1x384, .f32⟩
  | .hbm, ⟨6, _⟩ => ⟨S10000x1280, .f32⟩
  | .hbm, ⟨7, _⟩ => ⟨S10000x1280, .f32⟩
  | .hbm, ⟨8, _⟩ => ⟨S1x1280, .f32⟩
  | .hbm, ⟨9, _⟩ => ⟨S10000x1280, .f32⟩
  | .hbm, ⟨10, _⟩ => ⟨S10000x1280, .f32⟩
  | .hbm, ⟨11, _⟩ => ⟨S10000x1280, .f32⟩
  | .hbm, ⟨12, _⟩ => ⟨S10000x1280, .f32⟩
  | .hbm, ⟨13, _⟩ => ⟨S_, .f32⟩
  | .hbm, ⟨14, _⟩ => ⟨S10000x1280, .f32⟩
  | .hbm, ⟨15, _⟩ => ⟨S10000x1280, .f32⟩
  | .hbm, ⟨16, _⟩ => ⟨S_, .f32⟩
  | .hbm, ⟨17, _⟩ => ⟨S10000x1280, .f32⟩
  | .hbm, ⟨18, _⟩ => ⟨S10000x1280, .f32⟩
  | .hbm, ⟨19, _⟩ => ⟨S10000x10x128, .f32⟩
  | .hbm, ⟨20, _⟩ => ⟨S10000x10x128, .f32⟩
  | .hbm, ⟨21, _⟩ => ⟨S_, .f32⟩
  | .hbm, ⟨22, _⟩ => ⟨S10000x128, .f32⟩
  | .hbm, ⟨23, _⟩ => ⟨S1280x384, .f32⟩
  | .hbm, ⟨24, _⟩ => ⟨S10000x384, .f32⟩
  | .hbm, ⟨25, _⟩ => ⟨S10000x384, .f32⟩
  | .hbm, ⟨26, _⟩ => ⟨S10000x384, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S_, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S10000x128, .f32⟩
  | .hbm, ⟨50, _⟩ => ⟨S10000x128, .f32⟩
  | _, _ => ⟨S10000x10x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  shapeCasts_S10000x10x128_S10000x1280 : S10000x10x128.ShapeCasts S10000x1280
  bcast_S1280_S1x1280_1 : S1280.BroadcastsInDim S1x1280 (![1] : Fin 1 → Fin S1x1280.rank)
  bcast_S1x1280_S10000x1280_0_1 : S1x1280.BroadcastsInDim S10000x1280 (![0, 1] : Fin 2 → Fin S10000x1280.rank)
  bcast_S_S10000x1280 : S_.BroadcastsInDim S10000x1280 (![] : Fin 0 → Fin S10000x1280.rank)
  shapeCasts_S10000x1280_S10000x10x128 : S10000x1280.ShapeCasts S10000x10x128
  reducesTo_S10000x10x128_S10000x128_d1 : S10000x10x128.ReducesTo [1] S10000x128
  h_S_ : 0 < S_.numel
  transposes_S384x1280_S1280x384_1_0 : S384x1280.Transposes [1, 0] S1280x384
  bcast_S1x384_S10000x384_0_1 : S1x384.BroadcastsInDim S10000x384 (![0, 1] : Fin 2 → Fin S10000x384.rank)
  slices_S10000x384_S10000x128_0_0 : S10000x384.Slices ![0, 0] S10000x128
  slices_S10000x384_S10000x128_0_128 : S10000x384.Slices ![0, 128] S10000x128
  slices_S10000x384_S10000x128_0_256 : S10000x384.Slices ![0, 256] S10000x128
  bcast_S_S10000x128 : S_.BroadcastsInDim S10000x128 (![] : Fin 0 → Fin S10000x128.rank)
  dot_S10000x1280_S1280x1280_S10000x1280_1_0_0_1_n_n_wf : DotDims.WF S10000x1280 S1280x1280 S10000x1280 [1] [0] [0] [1] [] []
  dot_S10000x1280_S1280x384_S10000x384_1_0_0_1_n_n_wf : DotDims.WF S10000x1280 S1280x384 S10000x384 [1] [0] [0] [1] [] []

variable [Facts₀]

def dot_S10000x1280_S1280x1280_S10000x1280_1_0_0_1_n_n : DotDims S10000x1280 S1280x1280 S10000x1280 where
  lhsContracting := [1]
  rhsContracting := [0]
  lhsNonContracting := [0]
  rhsNonContracting := [1]
  lhsBatch := []
  rhsBatch := []
  wf := dot_S10000x1280_S1280x1280_S10000x1280_1_0_0_1_n_n_wf
def dot_S10000x1280_S1280x384_S10000x384_1_0_0_1_n_n : DotDims S10000x1280 S1280x384 S10000x384 where
  lhsContracting := [1]
  rhsContracting := [0]
  lhsNonContracting := [0]
  rhsNonContracting := [1]
  lhsBatch := []
  rhsBatch := []
  wf := dot_S10000x1280_S1280x384_S10000x384_1_0_0_1_n_n_wf

class Facts : Prop extends Facts₀ where

variable [Facts]
-- ==== Proof.KernelBase.lean ====
/-
  The frame of `Kernel`: what its proof is stated over.
  @main is four layout operations on the host (the two mailboxes with their child axis moved to the front, the
  transposed input-output-update weights, the forget bias as a row) and then the one region, on a grid of ten
  points. The region's windows: 0 and 1 read children 0-4 and 5-9 of the moved hidden mailbox at the point's
  thousand nodes, 2 and 3 the same of the moved cell mailbox, 4-7 the two weight matrices and the two biases
  whole (fetched once), 8 and 9 write the new hidden and cell states of those thousand nodes.
  Here: the arrays as the region finds them; each input window's buffer holds its block at every point, fetched
  there or not; the body's one branch is taken at the first point only; and the two scratch buffers named.
-/
import proofs.«181788_g52183852646691_cont_8to1_c_618_27_alg».proof.Proof.Gen.Kernel.Launch
import proofs.«181788_g52183852646691_cont_8to1_c_618_27_alg».proof.Proof.Gen.Kernel.Skeleton
import proofs.«181788_g52183852646691_cont_8to1_c_618_27_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the four layout operations. -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is the layout operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The layout operations write their own results only: the six arguments are as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, for any proof data whose array is the
    region-entry contents and whose body leaves the block in place: where the window is not fetched its block index
    has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`, from the grid coordinate. -/
abbrev isFirst (i : grid0.Coords) : Prop := (Scalar.cmpi .ne (Scalar.extui (Scalar.cmpi .eq (BitVec.ofNat 32 (i 0).val) 0#32)) 0#32) = 1#1
/-- It holds at the first point only. -/
theorem isFirst_iff : ∀ t : Fin cfg0.N, isFirst (grid0.coords t) ↔ t.val = 0 :=
  (by decide +kernel : ∀ t : Fin grid0.N, isFirst (grid0.coords t) ↔ t.val = 0)

/-! ## The memrefs the body is called with -/

abbrev ms0 (t : Fin cfg0.N) : Memref sig .tc .vmem S5x1000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5x1000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5x1000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5x1000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1280x1280 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1280 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1280x384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x384 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1000x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1000x128 .f32 := win0_9.stage (cfg0.slots t 9)
abbrev hs9 (t : Fin cfg0.N) : (ms9 t).IsWhole := hstage0_9 ((cfg0.slots t 9).cast nbuf0_9)
/-- The scratch where the body lays the ten children's hidden states side by side, -/
abbrev scH : Memref sig .tc .vmem S1000x1280 .bf16 := Memref.whole cc0_scratch0
/-- and the scratch that holds the two weight matrices side by side from the first point on. -/
abbrev scW : Memref sig .tc .vmem S1280x1664 .bf16 := Memref.whole cc0_scratch1
/-- One staging buffer of each output window, through which its contents are stated. -/
abbrev VO8 : View sig .tc .vmem S1000x128 .f32 := (Memref.whole cc0_stg8_0 : Memref sig .tc .vmem S1000x128 .f32).view
abbrev VO9 : View sig .tc .vmem S1000x128 .f32 := (Memref.whole cc0_stg9_0 : Memref sig .tc .vmem S1000x128 .f32).view

/-- The class invariant with the two scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scW fullShare d)) ∗ (∃ r, prngReg c r)) := by
  unfold Pipeline.ΦA; rw [scopedRest0_eq]; simp only [scH, scW, owns_whole]; try rfl

end Cert.Kernel.Cell

end
-- ==== Proof.KernelRunFirst.lean ====
/-
  The body at the grid's first point, where its branch is taken: on whole memrefs — the eight inputs' at their
  contents, the two outputs' and the two scratch buffers' at anything — it runs to the end and leaves the inputs as
  they were and each of the other four written by a list of pieces, which the run finds: the weight scratch by the
  two matrices side by side, the children scratch by ten column bands, each output by one whole block.
-/
import proofs.«181788_g52183852646691_cont_8to1_c_618_27_alg».proof.Proof.KernelBase

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i)
    (x0 x1 x2 x3 : Vec F S5x1000x128 .f32) (x4 : Vec F S1280x1280 .f32) (x5 : Vec F S1x1280 .f32) (x6 : Vec F S1280x384 .f32) (x7 : Vec F S1x384 .f32) :
    Σ' (L8 L9 : List (View.Piece (Elt F) S1000x128 .f32)) (LH : List (View.Piece (Elt F) S1000x1280 .bf16)), { LW : List (View.Piece (Elt F) S1280x1664 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LH)
                ∗ (∃ f, arg12.view.loc (c : Thread nD τ) ↦[arg12.view.set]{fullShare} arg12.view.writes (Elt F) f LW)) -∗ K ⟨⟩))
          ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__cell_kernel_eq_skeleton]; unfold cc0__cell_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%dH, %fH, -, HH⟩, ⟨%dW, %fW, -, HW⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HH]; · iexists _; iexact HH
    iexists _; iexact HW

end Cert.Kernel.Cell

end
-- ==== Proof.KernelRunRest.lean ====
/-
  The body at a later point of the grid, where its branch is not taken: on whole memrefs — the eight inputs' at
  their contents, the weight scratch at the contents the first point left in it, the two outputs' and the children
  scratch at anything — it runs to the end and leaves the inputs and the weight scratch as they were and each of
  the other three written by a list of pieces, which the run finds.
-/
import proofs.«181788_g52183852646691_cont_8to1_c_618_27_alg».proof.Proof.KernelBase

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runRest (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i)
    (x0 x1 x2 x3 : Vec F S5x1000x128 .f32) (x4 : Vec F S1280x1280 .f32) (x5 : Vec F S1x1280 .f32) (x6 : Vec F S1280x384 .f32) (x7 : Vec F S1x384 .f32) (xw : Vec F S1280x1664 .bf16) :
    Σ' (L8 L9 : List (View.Piece (Elt F) S1000x128 .f32)), { LH : List (View.Piece (Elt F) S1000x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (∃ d, owns (c : Thread nD τ) arg11 fullShare d) ∗ owns (c : Thread nD τ) arg12 fullShare xw
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LH)
                ∗ owns (c : Thread nD τ) arg12 fullShare xw) -∗ K ⟨⟩))
          ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__cell_kernel_eq_skeleton]; unfold cc0__cell_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%dH, %fH, -, HH⟩, ⟨%fW, %hfW, HW⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg12.eq_unread hfW
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HH]; · iexists _; iexact HH
    iexists _; isplitr; · ipureintro; exact harg12.read_unread _
    iexact HW

end Cert.Kernel.Cell

end
-- ==== Proof.LibFrameShared.lean ====
/-
  A frame run where several INPUT windows read one array, each at a share of it.

  The frame run of a pipeline kernel says: from any launch memory every weakly fair execution of @main terminates,
  every array of the pipeline ends at what the proof data compute for it (an input at its entry contents, an output
  at those overwritten by what the body left at each write-back), and every other unscoped buffer ends as it was at
  the region's entry. The library states it for windows on pairwise DISTINCT arrays: there each array is held whole,
  at the full share, by its one window.

  When one array is handed to the kernel through several input windows, no window can hold it whole. The buffer
  behind the array, held whole at the region's entry, is divided among the windows that read it: window `w` holds
  the array at the share `q w` the proof data name, the shares of the windows on one array composing to the full
  share. A points-to at a fraction of the full share still lets its holder read, and forbids every other holder a
  write; so the windows' fetches, which only read the array, go through at any positive share, and the array's
  contents cannot change under them. How the whole buffers divide into the windows' shares is the one thing that
  depends on the kernel (`hsplit`); the rest of the frame run is the same as for distinct arrays: the generator
  register and the scratch buffers enter the body's invariant at point 0 and leave it after the last point, the
  bypassing buffers are read back unchanged, and the final memory is read window by window, each at its share.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- THE FRAME RUN with a tracking invariant for a pipeline whose input windows may SHARE arrays. As the frame run for
    distinct arrays, with the layout facts that do not ask the arrays to be distinct (`hw`, `hne`, `harr`, `hstage`)
    and, in place of "every window lends the full share" and "the data's entry arrays are the entry contents", the
    entailment `hsplit`: the buffers behind the arrays, each whole at the full share at the region's entry contents
    `V c`, yield the proof data's `arrays` at entry — an array read by several input windows divided among them, each
    window at the share the data name. `hbody` is the body obligation at every point, `howed` says the data owe
    nothing, `hmain` is the program's shape up to the region, and the data's invariant is entered from the class
    invariant at point 0 (`hin`) and returned to it after the last point (`hout`). Concludes `FramePost`: every
    window's array holds the data's `arrAt w N` (windows on one array the same contents, each its own `arrAt`), every
    bypassing buffer what it held at the region's entry. -/
theorem θ_run_frame_track_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ) (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end FrameShared

end Pipeline

end Idealize.ShloMosaic

end
-- ==== Proof.KernelSplit.lean ====
/-
  How the buffers behind the ten windows' arrays divide into the windows' shares.

  The kernel is handed the children's hidden states twice and the children's cell states twice: windows 0 and 1 read
  one array, windows 2 and 3 another, each through an index map of its own. The four remaining inputs and the two
  outputs have an array each. At the region's entry the eight distinct buffers behind the arrays are held whole, at
  the full share. The full share is the composition of its left and right halves, and a points-to at a composed share
  is the two points-tos at the parts, at the same contents: so each of the two shared buffers divides into a left
  half, held by the first window on it, and a right half, held by the second; every other window keeps its buffer
  whole. Every array is a whole memory reference, so "the array at its element set" is "the buffer at every element",
  and before the first point an array holds its entry contents.
-/
import proofs.«181788_g52183852646691_cont_8to1_c_618_27_alg».proof.Proof.Gen.Kernel.Launch

noncomputable section

namespace Cert.Kernel.Gen

open Idealize.ShloMosaic Idealize.ShloMosaic.TcCoe
open Idealize.SL Idealize.SL.RA Idealize.SL.BI
open scoped Idealize.SL.BI
open Idealize.SL.BI.BIBase Idealize.SL.Sem Idealize.SL.ProofMode

variable {F : FTy → Type} [FloatOps F]

/-- The share each window holds of its array: the two windows on one array its left and right halves, every other
    window the whole. -/
def shareOf : Fin 10 → PosShare TreeShare
  | 0 => fullShare.left
  | 1 => fullShare.right
  | 2 => fullShare.left
  | 3 => fullShare.right
  | 4 => fullShare
  | 5 => fullShare
  | 6 => fullShare
  | 7 => fullShare
  | 8 => fullShare
  | 9 => fullShare
  | ⟨_ + 10, h⟩ => absurd h (Nat.not_lt.2 (Nat.le_add_left _ _))

section General

variable {nD' : Nat} {τ' : Topo} {sig' : RefSig} {Val : EltTy → Type} {Λ' : Idealize.SL.Sem.Labels}
variable {Ix : Type} [DecidableEq Ix] {Name : Type} [DecidableEq Name] {U : Type} [URA U] {Lvl : Type}

/-- One window's term of the proof data's `arrays` at entry, for a window whose array is a whole memory reference
    holding the entry contents `V`: the buffer behind the array at every element, at the window's share. -/
theorem arr_entry_eq {cfg : Pipeline.Cfg sig' Λ'} {c : Dev nD'} (dat : Pipeline.Dat τ' Val Ix Name U Lvl cfg c)
    (V : (b : Ref sig' .tc) → Buf Val ((c.tc : Thread nD' τ').loc b)) (w : Fin cfg.W)
    (harr : (cfg.spec w).arr.IsWhole) (hA : dat.A w = V (Pipeline.arrRef cfg.spec w)) (q : PosShare TreeShare) (hq : dat.share w = q) :
    ((cfg.win w).arr.view.loc (c.tc : Thread nD' τ') ↦[(cfg.win w).arr.view.set]{dat.share w} dat.arrAt w 0 : sProp (MT nD' τ' sig' Ix Val Name U Lvl))
      = (((c.tc : Thread nD' τ').loc (Pipeline.arrRef cfg.spec w)) ↦{q} V (Pipeline.arrRef cfg.spec w)) := by
  rw [harr.set_eq_univ, hq, show dat.arrAt w 0 = dat.A w from rfl, hA]

end General

/-- The share the proof data hold each window's array at, once their input shares are `shareOf`: an output's is the
    full share, which is what `shareOf` says of windows 8 and 9. -/
theorem share_eq {c : Dev nD} (dat : Pipeline.Dat τ (Elt F) Unit ℕ (UR sig nD τ) ℕ cfg0 c) (hq : dat.q = shareOf) :
    ∀ w : Fin 10, dat.share w = shareOf w
  | 0 => by unfold Pipeline.Dat.share; rw [hq]; rfl
  | 1 => by unfold Pipeline.Dat.share; rw [hq]; rfl
  | 2 => by unfold Pipeline.Dat.share; rw [hq]; rfl
  | 3 => by unfold Pipeline.Dat.share; rw [hq]; rfl
  | 4 => by unfold Pipeline.Dat.share; rw [hq]; rfl
  | 5 => by unfold Pipeline.Dat.share; rw [hq]; rfl
  | 6 => by unfold Pipeline.Dat.share; rw [hq]; rfl
  | 7 => by unfold Pipeline.Dat.share; rw [hq]; rfl
  | 8 => by unfold Pipeline.Dat.share; rw [hq]; rfl
  | 9 => by unfold Pipeline.Dat.share; rw [hq]; rfl
  | ⟨_ + 10, h⟩ => absurd h (Nat.not_lt.2 (Nat.le_add_left _ _))

/-- The distinct buffers behind the ten windows' arrays, listed. -/
theorem arrRefs0_eq : Finset.univ.image (Pipeline.arrRef spec0)
    = [main_call0_v0, main_call0_v1, main_arg2, main_call0_v3, main_call0_v2, main_arg5, main_v0_0, main_v0_1].toFinset := by decide

/-- The buffers behind the windows' arrays, each whole at contents `V`, one by one. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp (MT nD τ sig Unit (Elt F) ℕ (UR sig nD τ) ℕ))
      = iprop((((c.tc : Thread nD τ).loc main_call0_v0) ↦{fullShare} V main_call0_v0) ∗ (((c.tc : Thread nD τ).loc main_call0_v1) ↦{fullShare} V main_call0_v1)
          ∗ (((c.tc : Thread nD τ).loc main_arg2) ↦{fullShare} V main_arg2) ∗ (((c.tc : Thread nD τ).loc main_call0_v3) ↦{fullShare} V main_call0_v3)
          ∗ (((c.tc : Thread nD τ).loc main_call0_v2) ↦{fullShare} V main_call0_v2) ∗ (((c.tc : Thread nD τ).loc main_arg5) ↦{fullShare} V main_arg5)
          ∗ (((c.tc : Thread nD τ).loc main_v0_0) ↦{fullShare} V main_v0_0) ∗ (((c.tc : Thread nD τ).loc main_v0_1) ↦{fullShare} V main_v0_1)) := by
  unfold Pipeline.arrBufs
  exact bigSep_eq_bigSepL_of_eq [main_call0_v0, main_call0_v1, main_arg2, main_call0_v3, main_call0_v2, main_arg5, main_v0_0, main_v0_1] arrRefs0_eq (by decide) _

/-- The launch's `hsplit` for this kernel: the eight buffers behind the windows' arrays, whole at the entry contents
    `V`, yield the proof data's `arrays` at entry when the data hold the inputs at `shareOf`. -/
theorem arrays_split_shared {c : Dev nD} (dat : Pipeline.Dat τ (Elt F) Unit ℕ (UR sig nD τ) ℕ cfg0 c)
    (V : (b : Ref sig .tc) → Buf (Elt F) ((c.tc : Thread nD τ).loc b))
    (hA : ∀ w, dat.A w = V (Pipeline.arrRef spec0 w)) (hq : dat.q = shareOf) :
    Pipeline.arrBufs spec0 c V ⊢ dat.arrays (dat.arrAt · 0) := by
  unfold Pipeline.Dat.arrays
  rw [arrBufs0_eq, bigSep_W0,
    arr_entry_eq dat V (0 : Fin 10) (arr_whole0 0) (hA 0) _ (share_eq dat hq 0),
    arr_entry_eq dat V (1 : Fin 10) (arr_whole0 1) (hA 1) _ (share_eq dat hq 1),
    arr_entry_eq dat V (2 : Fin 10) (arr_whole0 2) (hA 2) _ (share_eq dat hq 2),
    arr_entry_eq dat V (3 : Fin 10) (arr_whole0 3) (hA 3) _ (share_eq dat hq 3),
    arr_entry_eq dat V (4 : Fin 10) (arr_whole0 4) (hA 4) _ (share_eq dat hq 4),
    arr_entry_eq dat V (5 : Fin 10) (arr_whole0 5) (hA 5) _ (share_eq dat hq 5),
    arr_entry_eq dat V (6 : Fin 10) (arr_whole0 6) (hA 6) _ (share_eq dat hq 6),
    arr_entry_eq dat V (7 : Fin 10) (arr_whole0 7) (hA 7) _ (share_eq dat hq 7),
    arr_entry_eq dat V (8 : Fin 10) (arr_whole0 8) (hA 8) _ (share_eq dat hq 8),
    arr_entry_eq dat V (9 : Fin 10) (arr_whole0 9) (hA 9) _ (share_eq dat hq 9)]
  iintro ⟨H0, H2, H4, H5, H6, H7, H8, H9⟩
  -- each shared buffer in halves: the left for the first window on it, the right for the second
  ihave H0 := (pointsTo_share (PosShare.mem_left_op_right fullShare)).1 $$ H0
  icases H0 with ⟨H0, H1⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Gen

end
-- ==== Proof.KernelFrame.lean ====
/-
  The frame run of `Kernel`.
  What the body leaves: at the first point the first run's pieces, at every later point the later run's pieces
  over the weight contents the first point left (that scratch is written once and only read afterwards, so nothing
  accumulates from point to point). The region's invariant is the class's before the first point and names the
  weight scratch's contents from then on. Windows 0, 1 read one array and so do windows 2, 3: each pair holds its
  array by halves. Then the body's obligation at every point, the run, and the frame claim.
-/
import proofs.«181788_g52183852646691_cont_8to1_c_618_27_alg».proof.Proof.KernelRunFirst
import proofs.«181788_g52183852646691_cont_8to1_c_618_27_alg».proof.Proof.KernelRunRest
import proofs.«181788_g52183852646691_cont_8to1_c_618_27_alg».proof.Proof.LibFrameShared
import proofs.«181788_g52183852646691_cont_8to1_c_618_27_alg».proof.Proof.KernelSplit

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover what they are written into -/

theorem cover8_first (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec F S5x1000x128 .f32) (x4 : Vec F S1280x1280 .f32) (x5 : Vec F S1x1280 .f32) (x6 : Vec F S1280x384 .f32) (x7 : Vec F S1x384 .f32) (y : S1000x128.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).1, y ∈ pc.1.set :=
  View.cover_of_tiledL _ S1000x128.size (by sl_kernel_rfl) y
theorem cover9_first (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec F S5x1000x128 .f32) (x4 : Vec F S1280x1280 .f32) (x5 : Vec F S1x1280 .f32) (x6 : Vec F S1280x384 .f32) (x7 : Vec F S1x384 .f32) (y : S1000x128.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).2.1, y ∈ pc.1.set :=
  View.cover_of_tiledL _ S1000x128.size (by sl_kernel_rfl) y
theorem coverW_first (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec F S5x1000x128 .f32) (x4 : Vec F S1280x1280 .f32) (x5 : Vec F S1x1280 .f32) (x6 : Vec F S1280x384 .f32) (x7 : Vec F S1x384 .f32) (y : S1280x1664.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).2.2.2.1, y ∈ pc.1.set :=
  View.cover_of_tiledBy _ ![1280, 128] (by sl_kernel_rfl) y
theorem cover8_rest (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i) (x0 x1 x2 x3 : Vec F S5x1000x128 .f32) (x4 : Vec F S1280x1280 .f32) (x5 : Vec F S1x1280 .f32) (x6 : Vec F S1280x384 .f32) (x7 : Vec F S1x384 .f32) (xw : Vec F S1280x1664 .bf16) (y : S1000x128.Idx) :
    ∃ pc ∈ (runRest (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw).1, y ∈ pc.1.set :=
  View.cover_of_tiledL _ S1000x128.size (by sl_kernel_rfl) y
theorem cover9_rest (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i) (x0 x1 x2 x3 : Vec F S5x1000x128 .f32) (x4 : Vec F S1280x1280 .f32) (x5 : Vec F S1x1280 .f32) (x6 : Vec F S1280x384 .f32) (x7 : Vec F S1x384 .f32) (xw : Vec F S1280x1664 .bf16) (y : S1000x128.Idx) :
    ∃ pc ∈ (runRest (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw).2.1, y ∈ pc.1.set :=
  View.cover_of_tiledL _ S1000x128.size (by sl_kernel_rfl) y

/-! ## What each point leaves -/

/-- The grid's first point. -/
abbrev tZ : Fin cfg0.N := ⟨0, by decide⟩

/-- The first run on the memrefs and blocks of point `t`, which is the first point. -/
abbrev firstAt (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scW (Memref.isWhole_whole _) ((isFirst_iff t).mpr h) (iblk m c 0 t) (iblk m c 1 t) (iblk m c 2 t) (iblk m c 3 t) (iblk m c 4 t) (iblk m c 5 t) (iblk m c 6 t) (iblk m c 7 t)
/-- The later run on the memrefs and blocks of a later point `t`, the weight scratch at `xw`. -/
abbrev restAt (c : Dev nD) (t : Fin cfg0.N) (h : ¬t.val = 0) (xw : Vec F S1280x1664 .bf16) :=
  runRest (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scW (Memref.isWhole_whole _) (fun hh => h ((isFirst_iff t).mp hh)) (iblk m c 0 t) (iblk m c 1 t) (iblk m c 2 t) (iblk m c 3 t) (iblk m c 4 t) (iblk m c 5 t) (iblk m c 6 t) (iblk m c 7 t) xw

/-- What the first point leaves in the weight scratch. -/
def Wc (c : Dev nD) : Vec F S1280x1664 .bf16 :=
  scW.view.read (Elt F) (scW.view.writes (Elt F) scW.view.junk (firstAt m c tZ rfl).2.2.2.1)

/-- What point `t` leaves in the two outputs' buffers (new hidden state, new cell state). -/
def outs (c : Dev nD) (t : Fin cfg0.N) : Vec F S1000x128 .f32 × Vec F S1000x128 .f32 :=
  if h : t.val = 0 then
    (VO8.read (Elt F) (VO8.writes (Elt F) VO8.junk (firstAt m c t h).1), VO9.read (Elt F) (VO9.writes (Elt F) VO9.junk (firstAt m c t h).2.1))
  else
    (VO8.read (Elt F) (VO8.writes (Elt F) VO8.junk (restAt m c t h (Wc m c)).1), VO9.read (Elt F) (VO9.writes (Elt F) VO9.junk (restAt m c t h (Wc m c)).2.1))

theorem outs_first (c : Dev nD) (t : Fin cfg0.N) (h : t.val = 0) : outs m c t =
    (VO8.read (Elt F) (VO8.writes (Elt F) VO8.junk (firstAt m c t h).1), VO9.read (Elt F) (VO9.writes (Elt F) VO9.junk (firstAt m c t h).2.1)) := dif_pos h
theorem outs_rest (c : Dev nD) (t : Fin cfg0.N) (h : ¬t.val = 0) : outs m c t =
    (VO8.read (Elt F) (VO8.writes (Elt F) VO8.junk (restAt m c t h (Wc m c)).1), VO9.read (Elt F) (VO9.writes (Elt F) VO9.junk (restAt m c t h (Wc m c)).2.1)) := dif_neg h

/-! ## The invariant and the proof data -/

/-- Before the first point the class's invariant; afterwards the children scratch at anything, the weight scratch at
    what the first point left, the generator register at some state. -/
def PhiS (c : Dev nD) : ℕ → sProp 𝕄
  | 0 => Pipeline.ΦA spec0 c
  | _ + 1 => iprop(iprop((∃ d, owns (c : Thread nD τ) scH fullShare d) ∗ owns (c : Thread nD τ) scW fullShare (Wc m c)) ∗ (∃ r, prngReg c r))

theorem PhiS_pos (c : Dev nD) (n : ℕ) (hz : n ≠ 0) :
    PhiS m c n = iprop(iprop((∃ d, owns (c : Thread nD τ) scH fullShare d) ∗ owns (c : Thread nD τ) scW fullShare (Wc m c)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t).1
    | ⟨9, _⟩ => (outs m c t).2
  Φ t := PhiS m c t.val
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t).1 := by dsimp only [dats]
theorem after9 (c : Dev nD) (t : Fin cfg0.N) : (dats m 0 c).after 9 t = (outs m c t).2 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, after0, after1, after2, after3, after4, after5, after6, after7, after8, after9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_pos m c (t.val + 1) (Nat.succ_ne_zero _)]
  by_cases hz : t.val = 0
  · rw [outs_first m c t hz]; dsimp only
    obtain rfl : t = tZ := Fin.ext hz
    rw [show PhiS m c (tZ : Fin cfg0.N).val = Pipeline.ΦA spec0 c from rfl, PhiA_eq]
    iintro ⟨⟨⟨HSH, HSW⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((firstAt m c tZ hz).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HSH]; · iexact HSH
    isplitl [HSW]; · iexact HSW
    iintro ⟨H0, H1, H2, H3, H4, H5, H6, H7, ⟨%e8, H8⟩, ⟨%e9, H9⟩, ⟨%eH, HH⟩, ⟨%eW, HW⟩⟩
    isplitl [HH HW Hg]
    · isplitl [HH HW]
      · isplitl [HH]
        · iexists (scH.view.read (Elt F) _); unfold owns; iexists _; isplitr
          swap; · iexact HH
          ipureintro; rfl
        · unfold owns; iexists _; isplitr
          swap; · iexact HW
          ipureintro; exact View.read_writes_of_cover _ _ _ _ _ (coverW_first c _ _ _ _ _ _ _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8_first c _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover9_first c _ _ _ _ _ _ _ _ _ _ _ _ _ _ _ _ _ _ _ _ _ _ _ _ _ _ _ _ _ _ _ _ _ _)
  · rw [outs_rest m c t hz]; dsimp only
    rw [PhiS_pos m c t.val hz]
    iintro ⟨⟨⟨HSH, HSW⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((restAt m c t hz (Wc m c)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HSH]; · iexact HSH
    isplitl [HSW]; · iexact HSW
    iintro ⟨H0, H1, H2, H3, H4, H5, H6, H7, ⟨%e8, H8⟩, ⟨%e9, H9⟩, ⟨%eH, HH⟩, HW⟩
    isplitl [HH HW Hg]
    · isplitl [HH HW]
      · isplitl [HH]
        · iexists (scH.view.read (Elt F) _); unfold owns; iexists _; isplitr
          swap; · iexact HH
          ipureintro; rfl
        · iexact HW
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8_rest c _ _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover9_rest c _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (9 + 1) from rfl, PhiS_pos m c (9 + 1) (Nat.succ_ne_zero _), PhiA_eq]
  iintro ⟨⟨HSH, HSW⟩, Hg⟩
  isplitl [HSH HSW]
  · isplitl [HSH]; · iexact HSH
    iexists _; iexact HSW
  iexact Hg

/-- Each pair of windows on one array holds it by halves. -/
theorem hsplit (c : Dev nD) : Pipeline.arrBufs spec0 c (V m c) ⊢ (dats m 0 c).arrays ((dats m 0 c).arrAt · 0) :=
  arrays_split_shared (dats m 0 c) (V m c) (fun w => A_eq m c w) rfl

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (fun c => (body_obligation m c).loose) (fun _ _ => rfl) (V m) (hmain m Variants.none) (hsplit m) (hin m) (hout m)

/-- info: 'Cert.Kernel.Cell.run_main' depends on axioms: [propext, Classical.choice, Quot.sound] -/
#guard_msgs in #print axioms run_main

/-- The six argument arrays end as launched: two are windows' arrays the region only reads, four bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 rfl (by decide))).trans (V_main_arg0 m c),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).1 7).trans (((dats m 0 c).arrAt_in 7 rfl _).trans ((A_eq m c 7).trans (V_main_arg5 m c)))⟩) (run_main m ρ)

end Cert.Kernel.Cell

end
-- ==== Proof.IdealBase.lean ====
/-
  The frame of `KernelIdeal`: what its proof is stated over.
  @main is four layout operations on the host (the two mailboxes with their child axis moved to the front, the
  transposed input-output-update weights, the forget bias as a row) and then the one region, on a grid of ten
  points. The region's windows: 0 and 1 read children 0-4 and 5-9 of the moved hidden mailbox at the point's
  thousand nodes, 2 and 3 the same of the moved cell mailbox, 4-7 the two weight matrices and the two biases
  whole (fetched once), 8 and 9 write the new hidden and cell states of those thousand nodes.
  Here: the arrays as the region finds them; each input window's buffer holds its block at every point, fetched
  there or not; the body's one branch is taken at the first point only; and the two scratch buffers named.
-/
import proofs.«181788_g52183852646691_cont_8to1_c_618_27_alg».proof.Proof.Gen.KernelIdeal.Launch
import proofs.«181788_g52183852646691_cont_8to1_c_618_27_alg».proof.Proof.Gen.KernelIdeal.Skeleton
import proofs.«181788_g52183852646691_cont_8to1_c_618_27_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: the launch contents after the four layout operations. -/
abbrev V (c : Dev nD) (b : Ref sig .tc) : Buf (Elt F) ((c : Thread nD τ).loc b) :=
  StableHlo.after hostOps0 (fun b => m (c, b)) (Proc.devRef .tc b)

theorem hostOps0_fresh : (hostOps0 : List (HloOp τ sig (Elt F))).Forall fun op => op.fresh = ∅ := by
  simp only [List.Forall]; repeat' constructor

/-- @main is the layout operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The layout operations write their own results only: the six arguments are as launched. -/
theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current buffer holds its block at every point, for any proof data whose array is the
    region-entry contents and whose body leaves the block in place: where the window is not fetched its block index
    has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one `scf.if`, from the grid coordinate. -/
abbrev isFirst (i : grid0.Coords) : Prop := (Scalar.cmpi .ne (Scalar.extui (Scalar.cmpi .eq (BitVec.ofNat 32 (i 0).val) 0#32)) 0#32) = 1#1
/-- It holds at the first point only. -/
theorem isFirst_iff : ∀ t : Fin cfg0.N, isFirst (grid0.coords t) ↔ t.val = 0 :=
  (by decide +kernel : ∀ t : Fin grid0.N, isFirst (grid0.coords t) ↔ t.val = 0)

/-! ## The memrefs the body is called with -/

abbrev ms0 (t : Fin cfg0.N) : Memref sig .tc .vmem S5x1000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S5x1000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S5x1000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S5x1000x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1280x1280 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1280 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1280x384 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x384 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1000x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1000x128 .f32 := win0_9.stage (cfg0.slots t 9)
abbrev hs9 (t : Fin cfg0.N) : (ms9 t).IsWhole := hstage0_9 ((cfg0.slots t 9).cast nbuf0_9)
/-- The scratch where the body lays the ten children's hidden states side by side, -/
abbrev scH : Memref sig .tc .vmem S1000x1280 .bf16 := Memref.whole cc0_scratch0
/-- and the scratch that holds the two weight matrices side by side from the first point on. -/
abbrev scW : Memref sig .tc .vmem S1280x1664 .bf16 := Memref.whole cc0_scratch1
/-- One staging buffer of each output window, through which its contents are stated. -/
abbrev VO8 : View sig .tc .vmem S1000x128 .f32 := (Memref.whole cc0_stg8_0 : Memref sig .tc .vmem S1000x128 .f32).view
abbrev VO9 : View sig .tc .vmem S1000x128 .f32 := (Memref.whole cc0_stg9_0 : Memref sig .tc .vmem S1000x128 .f32).view

/-- The class invariant with the two scratch buffers as memrefs owned at some contents. -/
theorem PhiA_eq (c : Dev nD) :
    (Pipeline.ΦA spec0 c : sProp 𝕄)
      = iprop(iprop((∃ d, owns (c : Thread nD τ) scH fullShare d) ∗ (∃ d, owns (c : Thread nD τ) scW fullShare d)) ∗ (∃ r, prngReg c r)) := by
  unfold Pipeline.ΦA; rw [scopedRest0_eq]; simp only [scH, scW, owns_whole]; try rfl

end Cert.KernelIdeal.Cell

end
-- ==== Proof.IdealRunFirst.lean ====
/-
  The body at the grid's first point, where its branch is taken: on whole memrefs — the eight inputs' at their
  contents, the two outputs' and the two scratch buffers' at anything — it runs to the end and leaves the inputs as
  they were and each of the other four written by a list of pieces, which the run finds: the weight scratch by the
  two matrices side by side, the children scratch by ten column bands, each output by one whole block.
-/
import proofs.«181788_g52183852646691_cont_8to1_c_618_27_alg».proof.Proof.IdealBase

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i)
    (x0 x1 x2 x3 : Vec F S5x1000x128 .f32) (x4 : Vec F S1280x1280 .f32) (x5 : Vec F S1x1280 .f32) (x6 : Vec F S1280x384 .f32) (x7 : Vec F S1x384 .f32) :
    Σ' (L8 L9 : List (View.Piece (Elt F) S1000x128 .f32)) (LH : List (View.Piece (Elt F) S1000x1280 .bf16)), { LW : List (View.Piece (Elt F) S1280x1664 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LH)
                ∗ (∃ f, arg12.view.loc (c : Thread nD τ) ↦[arg12.view.set]{fullShare} arg12.view.writes (Elt F) f LW)) -∗ K ⟨⟩))
          ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0__cell_kernel_eq_skeleton]; unfold cc0__cell_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%dH, %fH, -, HH⟩, ⟨%dW, %fW, -, HW⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HH]; · iexists _; iexact HH
    iexists _; iexact HW

end Cert.KernelIdeal.Cell

end
-- ==== Proof.IdealRunRest.lean ====
/-
  The body at a later point of the grid, where its branch is not taken: on whole memrefs — the eight inputs' at
  their contents, the weight scratch at the contents the first point left in it, the two outputs' and the children
  scratch at anything — it runs to the end and leaves the inputs and the weight scratch as they were and each of
  the other three written by a list of pieces, which the run finds.
-/
import proofs.«181788_g52183852646691_cont_8to1_c_618_27_alg».proof.Proof.IdealBase

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runRest (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i)
    (x0 x1 x2 x3 : Vec F S5x1000x128 .f32) (x4 : Vec F S1280x1280 .f32) (x5 : Vec F S1x1280 .f32) (x6 : Vec F S1280x384 .f32) (x7 : Vec F S1x384 .f32) (xw : Vec F S1280x1664 .bf16) :
    Σ' (L8 L9 : List (View.Piece (Elt F) S1000x128 .f32)), { LH : List (View.Piece (Elt F) S1000x1280 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ (∃ d, owns (c : Thread nD τ) arg9 fullShare d) ∗ (∃ d, owns (c : Thread nD τ) arg10 fullShare d)
            ∗ (∃ d, owns (c : Thread nD τ) arg11 fullShare d) ∗ owns (c : Thread nD τ) arg12 fullShare xw
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} arg11.view.writes (Elt F) f LH)
                ∗ owns (c : Thread nD τ) arg12 fullShare xw) -∗ K ⟨⟩))
          ⊢ wp frame (wpE (defs₀ (F := F)) Variants.none c none) E (cc0__cell_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__cell_kernel_eq_skeleton]; unfold cc0__cell_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%dH, %fH, -, HH⟩, ⟨%fW, %hfW, HW⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    obtain rfl := harg12.eq_unread hfW
    sl_exec (disch := exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [HH]; · iexists _; iexact HH
    iexists _; isplitr; · ipureintro; exact harg12.read_unread _
    iexact HW

end Cert.KernelIdeal.Cell

end
-- ==== Proof.FrameSplit.lean ====
/-
  How the buffers behind the ten windows' arrays divide into the windows' shares.

  The kernel is handed the children's hidden states twice and the children's cell states twice: windows 0 and 1 read
  one array, windows 2 and 3 another, each through an index map of its own. The four remaining inputs and the two
  outputs have an array each. At the region's entry the eight distinct buffers behind the arrays are held whole, at
  the full share. The full share is the composition of its left and right halves, and a points-to at a composed share
  is the two points-tos at the parts, at the same contents: so each of the two shared buffers divides into a left
  half, held by the first window on it, and a right half, held by the second; every other window keeps its buffer
  whole. Every array is a whole memory reference, so "the array at its element set" is "the buffer at every element",
  and before the first point an array holds its entry contents.
-/
import proofs.«181788_g52183852646691_cont_8to1_c_618_27_alg».proof.Proof.Gen.KernelIdeal.Launch

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem Idealize.SL.ProofMode

variable {F : FTy → Type} [FloatOps F]

/-- The share each window holds of its array: the two windows on one array its left and right halves, every other
    window the whole. -/
def shareOf : Fin 10 → PosShare TreeShare
  | 0 => fullShare.left
  | 1 => fullShare.right
  | 2 => fullShare.left
  | 3 => fullShare.right
  | 4 => fullShare
  | 5 => fullShare
  | 6 => fullShare
  | 7 => fullShare
  | 8 => fullShare
  | 9 => fullShare
  | ⟨_ + 10, h⟩ => absurd h (Nat.not_lt.2 (Nat.le_add_left _ _))

section General

variable {nD' : Nat} {τ' : Topo} {sig' : RefSig} {Val : EltTy → Type} {Λ' : Idealize.SL.Sem.Labels}
variable {Ix : Type} [DecidableEq Ix] {Name : Type} [DecidableEq Name] {U : Type} [URA U] {Lvl : Type}

/-- One window's term of the proof data's `arrays` at entry, for a window whose array is a whole memory reference
    holding the entry contents `V`: the buffer behind the array at every element, at the window's share. -/
theorem arr_entry_eq {cfg : Pipeline.Cfg sig' Λ'} {c : Dev nD'} (dat : Pipeline.Dat τ' Val Ix Name U Lvl cfg c)
    (V : (b : Ref sig' .tc) → Buf Val ((c.tc : Thread nD' τ').loc b)) (w : Fin cfg.W)
    (harr : (cfg.spec w).arr.IsWhole) (hA : dat.A w = V (Pipeline.arrRef cfg.spec w)) (q : PosShare TreeShare) (hq : dat.share w = q) :
    ((cfg.win w).arr.view.loc (c.tc : Thread nD' τ') ↦[(cfg.win w).arr.view.set]{dat.share w} dat.arrAt w 0 : sProp (MT nD' τ' sig' Ix Val Name U Lvl))
      = (((c.tc : Thread nD' τ').loc (Pipeline.arrRef cfg.spec w)) ↦{q} V (Pipeline.arrRef cfg.spec w)) := by
  rw [harr.set_eq_univ, hq, show dat.arrAt w 0 = dat.A w from rfl, hA]

end General

/-- The share the proof data hold each window's array at, once their input shares are `shareOf`: an output's is the
    full share, which is what `shareOf` says of windows 8 and 9. -/
theorem share_eq {c : Dev nD} (dat : Pipeline.Dat τ (Elt F) Unit ℕ (UR sig nD τ) ℕ cfg0 c) (hq : dat.q = shareOf) :
    ∀ w : Fin 10, dat.share w = shareOf w
  | 0 => by unfold Pipeline.Dat.share; rw [hq]; rfl
  | 1 => by unfold Pipeline.Dat.share; rw [hq]; rfl
  | 2 => by unfold Pipeline.Dat.share; rw [hq]; rfl
  | 3 => by unfold Pipeline.Dat.share; rw [hq]; rfl
  | 4 => by unfold Pipeline.Dat.share; rw [hq]; rfl
  | 5 => by unfold Pipeline.Dat.share; rw [hq]; rfl
  | 6 => by unfold Pipeline.Dat.share; rw [hq]; rfl
  | 7 => by unfold Pipeline.Dat.share; rw [hq]; rfl
  | 8 => by unfold Pipeline.Dat.share; rw [hq]; rfl
  | 9 => by unfold Pipeline.Dat.share; rw [hq]; rfl
  | ⟨_ + 10, h⟩ => absurd h (Nat.not_lt.2 (Nat.le_add_left _ _))

/-- The distinct buffers behind the ten windows' arrays, listed. -/
theorem arrRefs0_eq : Finset.univ.image (Pipeline.arrRef spec0)
    = [main_call0_v0, main_call0_v1, main_arg2, main_call0_v3, main_call0_v2, main_arg5, main_v0_0, main_v0_1].toFinset := by decide

/-- The buffers behind the windows' arrays, each whole at contents `V`, one by one. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp (MT nD τ sig Unit (Elt F) ℕ (UR sig nD τ) ℕ))
      = iprop((((c.tc : Thread nD τ).loc main_call0_v0) ↦{fullShare} V main_call0_v0) ∗ (((c.tc : Thread nD τ).loc main_call0_v1) ↦{fullShare} V main_call0_v1)
          ∗ (((c.tc : Thread nD τ).loc main_arg2) ↦{fullShare} V main_arg2) ∗ (((c.tc : Thread nD τ).loc main_call0_v3) ↦{fullShare} V main_call0_v3)
          ∗ (((c.tc : Thread nD τ).loc main_call0_v2) ↦{fullShare} V main_call0_v2) ∗ (((c.tc : Thread nD τ).loc main_arg5) ↦{fullShare} V main_arg5)
          ∗ (((c.tc : Thread nD τ).loc main_v0_0) ↦{fullShare} V main_v0_0) ∗ (((c.tc : Thread nD τ).loc main_v0_1) ↦{fullShare} V main_v0_1)) := by
  unfold Pipeline.arrBufs
  exact bigSep_eq_bigSepL_of_eq [main_call0_v0, main_call0_v1, main_arg2, main_call0_v3, main_call0_v2, main_arg5, main_v0_0, main_v0_1] arrRefs0_eq (by decide) _

/-- The launch's `hsplit` for this kernel: the eight buffers behind the windows' arrays, whole at the entry contents
    `V`, yield the proof data's `arrays` at entry when the data hold the inputs at `shareOf`. -/
theorem arrays_split_shared {c : Dev nD} (dat : Pipeline.Dat τ (Elt F) Unit ℕ (UR sig nD τ) ℕ cfg0 c)
    (V : (b : Ref sig .tc) → Buf (Elt F) ((c.tc : Thread nD τ).loc b))
    (hA : ∀ w, dat.A w = V (Pipeline.arrRef spec0 w)) (hq : dat.q = shareOf) :
    Pipeline.arrBufs spec0 c V ⊢ dat.arrays (dat.arrAt · 0) := by
  unfold Pipeline.Dat.arrays
  rw [arrBufs0_eq, bigSep_W0,
    arr_entry_eq dat V (0 : Fin 10) (arr_whole0 0) (hA 0) _ (share_eq dat hq 0),
    arr_entry_eq dat V (1 : Fin 10) (arr_whole0 1) (hA 1) _ (share_eq dat hq 1),
    arr_entry_eq dat V (2 : Fin 10) (arr_whole0 2) (hA 2) _ (share_eq dat hq 2),
    arr_entry_eq dat V (3 : Fin 10) (arr_whole0 3) (hA 3) _ (share_eq dat hq 3),
    arr_entry_eq dat V (4 : Fin 10) (arr_whole0 4) (hA 4) _ (share_eq dat hq 4),
    arr_entry_eq dat V (5 : Fin 10) (arr_whole0 5) (hA 5) _ (share_eq dat hq 5),
    arr_entry_eq dat V (6 : Fin 10) (arr_whole0 6) (hA 6) _ (share_eq dat hq 6),
    arr_entry_eq dat V (7 : Fin 10) (arr_whole0 7) (hA 7) _ (share_eq dat hq 7),
    arr_entry_eq dat V (8 : Fin 10) (arr_whole0 8) (hA 8) _ (share_eq dat hq 8),
    arr_entry_eq dat V (9 : Fin 10) (arr_whole0 9) (hA 9) _ (share_eq dat hq 9)]
  iintro ⟨H0, H2, H4, H5, H6, H7, H8, H9⟩
  -- each shared buffer in halves: the left for the first window on it, the right for the second
  ihave H0 := (pointsTo_share (PosShare.mem_left_op_right fullShare)).1 $$ H0
  icases H0 with ⟨H0, H1⟩
  ihave H2 := (pointsTo_share (PosShare.mem_left_op_right fullShare)).1 $$ H2
  icases H2 with ⟨H2, H3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Gen

end
-- ==== Proof.IdealFrame.lean ====
/-
  The frame run of `KernelIdeal`.
  What the body leaves: at the first point the first run's pieces, at every later point the later run's pieces
  over the weight contents the first point left (that scratch is written once and only read afterwards, so nothing
  accumulates from point to point). The region's invariant is the class's before the first point and names the
  weight scratch's contents from then on. Windows 0, 1 read one array and so do windows 2, 3: each pair holds its
  array by halves. Then the body's obligation at every point, the run, and the frame claim.
-/
import proofs.«181788_g52183852646691_cont_8to1_c_618_27_alg».proof.Proof.IdealRunFirst
import proofs.«181788_g52183852646691_cont_8to1_c_618_27_alg».proof.Proof.IdealRunRest
import proofs.«181788_g52183852646691_cont_8to1_c_618_27_alg».proof.Proof.LibFrameShared
import proofs.«181788_g52183852646691_cont_8to1_c_618_27_alg».proof.Proof.FrameSplit

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pieces cover what they are written into -/

theorem cover8_first (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec F S5x1000x128 .f32) (x4 : Vec F S1280x1280 .f32) (x5 : Vec F S1x1280 .f32) (x6 : Vec F S1280x384 .f32) (x7 : Vec F S1x384 .f32) (y : S1000x128.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).1, y ∈ pc.1.set :=
  View.cover_of_tiledL _ S1000x128.size (by sl_kernel_rfl) y
theorem cover9_first (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec F S5x1000x128 .f32) (x4 : Vec F S1280x1280 .f32) (x5 : Vec F S1x1280 .f32) (x6 : Vec F S1280x384 .f32) (x7 : Vec F S1x384 .f32) (y : S1000x128.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).2.1, y ∈ pc.1.set :=
  View.cover_of_tiledL _ S1000x128.size (by sl_kernel_rfl) y
theorem coverW_first (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec F S5x1000x128 .f32) (x4 : Vec F S1280x1280 .f32) (x5 : Vec F S1x1280 .f32) (x6 : Vec F S1280x384 .f32) (x7 : Vec F S1x384 .f32) (y : S1280x1664.Idx) :
    ∃ pc ∈ (runFirst (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).2.2.2.1, y ∈ pc.1.set :=
  View.cover_of_tiledBy _ ![1280, 128] (by sl_kernel_rfl) y
theorem cover8_rest (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i) (x0 x1 x2 x3 : Vec F S5x1000x128 .f32) (x4 : Vec F S1280x1280 .f32) (x5 : Vec F S1x1280 .f32) (x6 : Vec F S1280x384 .f32) (x7 : Vec F S1x384 .f32) (xw : Vec F S1280x1664 .bf16) (y : S1000x128.Idx) :
    ∃ pc ∈ (runRest (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw).1, y ∈ pc.1.set :=
  View.cover_of_tiledL _ S1000x128.size (by sl_kernel_rfl) y
theorem cover9_rest (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i) (x0 x1 x2 x3 : Vec F S5x1000x128 .f32) (x4 : Vec F S1280x1280 .f32) (x5 : Vec F S1x1280 .f32) (x6 : Vec F S1280x384 .f32) (x7 : Vec F S1x384 .f32) (xw : Vec F S1280x1664 .bf16) (y : S1000x128.Idx) :
    ∃ pc ∈ (runRest (F := F) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw).2.1, y ∈ pc.1.set :=
  View.cover_of_tiledL _ S1000x128.size (by sl_kernel_rfl) y

/-! ## What each point leaves -/

/-- The grid's first point. -/
abbrev tZ : Fin cfg0.N := ⟨0, by decide⟩

/-- The first run on the memrefs and blocks of point `t`, which is the first point. -/
abbrev firstAt (c : Dev nD) (t : Fin cfg0.N) (h : t.val = 0) :=
  runFirst (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scW (Memref.isWhole_whole _) ((isFirst_iff t).mpr h) (iblk m c 0 t) (iblk m c 1 t) (iblk m c 2 t) (iblk m c 3 t) (iblk m c 4 t) (iblk m c 5 t) (iblk m c 6 t) (iblk m c 7 t)
/-- The later run on the memrefs and blocks of a later point `t`, the weight scratch at `xw`. -/
abbrev restAt (c : Dev nD) (t : Fin cfg0.N) (h : ¬t.val = 0) (xw : Vec F S1280x1664 .bf16) :=
  runRest (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scH (Memref.isWhole_whole _) scW (Memref.isWhole_whole _) (fun hh => h ((isFirst_iff t).mp hh)) (iblk m c 0 t) (iblk m c 1 t) (iblk m c 2 t) (iblk m c 3 t) (iblk m c 4 t) (iblk m c 5 t) (iblk m c 6 t) (iblk m c 7 t) xw

/-- What the first point leaves in the weight scratch. -/
def Wc (c : Dev nD) : Vec F S1280x1664 .bf16 :=
  scW.view.read (Elt F) (scW.view.writes (Elt F) scW.view.junk (firstAt m c tZ rfl).2.2.2.1)

/-- What point `t` leaves in the two outputs' buffers (new hidden state, new cell state). -/
def outs (c : Dev nD) (t : Fin cfg0.N) : Vec F S1000x128 .f32 × Vec F S1000x128 .f32 :=
  if h : t.val = 0 then
    (VO8.read (Elt F) (VO8.writes (Elt F) VO8.junk (firstAt m c t h).1), VO9.read (Elt F) (VO9.writes (Elt F) VO9.junk (firstAt m c t h).2.1))
  else
    (VO8.read (Elt F) (VO8.writes (Elt F) VO8.junk (restAt m c t h (Wc m c)).1), VO9.read (Elt F) (VO9.writes (Elt F) VO9.junk (restAt m c t h (Wc m c)).2.1))

theorem outs_first (c : Dev nD) (t : Fin cfg0.N) (h : t.val = 0) : outs m c t =
    (VO8.read (Elt F) (VO8.writes (Elt F) VO8.junk (firstAt m c t h).1), VO9.read (Elt F) (VO9.writes (Elt F) VO9.junk (firstAt m c t h).2.1)) := dif_pos h
theorem outs_rest (c : Dev nD) (t : Fin cfg0.N) (h : ¬t.val = 0) : outs m c t =
    (VO8.read (Elt F) (VO8.writes (Elt F) VO8.junk (restAt m c t h (Wc m c)).1), VO9.read (Elt F) (VO9.writes (Elt F) VO9.junk (restAt m c t h (Wc m c)).2.1)) := dif_neg h

/-! ## The invariant and the proof data -/

/-- Before the first point the class's invariant; afterwards the children scratch at anything, the weight scratch at
    what the first point left, the generator register at some state. -/
def PhiS (c : Dev nD) : ℕ → sProp 𝕄
  | 0 => Pipeline.ΦA spec0 c
  | _ + 1 => iprop(iprop((∃ d, owns (c : Thread nD τ) scH fullShare d) ∗ owns (c : Thread nD τ) scW fullShare (Wc m c)) ∗ (∃ r, prngReg c r))

theorem PhiS_pos (c : Dev nD) (n : ℕ) (hz : n ≠ 0) :
    PhiS m c n = iprop(iprop((∃ d, owns (c : Thread nD τ) scH fullShare d) ∗ owns (c : Thread nD τ) scW fullShare (Wc m c)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t).1
    | ⟨9, _⟩ => (outs m c t).2
  Φ t := PhiS m c t.val
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outs m c t).1 := by dsimp only [dats]
theorem after9 (c : Dev nD) (t : Fin cfg0.N) : (dats m 0 c).after 9 t = (outs m c t).2 := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, after0, after1, after2, after3, after4, after5, after6, after7, after8, after9]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl, PhiS_pos m c (t.val + 1) (Nat.succ_ne_zero _)]
  by_cases hz : t.val = 0
  · rw [outs_first m c t hz]; dsimp only
    obtain rfl : t = tZ := Fin.ext hz
    rw [show PhiS m c (tZ : Fin cfg0.N).val = Pipeline.ΦA spec0 c from rfl, PhiA_eq]
    iintro ⟨⟨⟨HSH, HSW⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((firstAt m c tZ hz).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HSH]; · iexact HSH
    isplitl [HSW]; · iexact HSW
    iintro ⟨H0, H1, H2, H3, H4, H5, H6, H7, ⟨%e8, H8⟩, ⟨%e9, H9⟩, ⟨%eH, HH⟩, ⟨%eW, HW⟩⟩
    isplitl [HH HW Hg]
    · isplitl [HH HW]
      · isplitl [HH]
        · iexists (scH.view.read (Elt F) _); unfold owns; iexists _; isplitr
          swap; · iexact HH
          ipureintro; rfl
        · unfold owns; iexists _; isplitr
          swap; · iexact HW
          ipureintro; exact View.read_writes_of_cover _ _ _ _ _ (coverW_first c _ _ _ _ _ _ _ _ _ _ _ _ _ _ _ _ _ _ _ _ _ _ _ _ _ _ _ _ _ _ _ _ _ _)
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8_first c _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover9_first c _ _ _ _ _ _ _ _ _ _ _ _ _ _ _ _ _ _ _ _ _ _ _ _ _ _ _ _ _ _ _ _ _ _)
  · rw [outs_rest m c t hz]; dsimp only
    rw [PhiS_pos m c t.val hz]
    iintro ⟨⟨⟨HSH, HSW⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((restAt m c t hz (Wc m c)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HSH]; · iexact HSH
    isplitl [HSW]; · iexact HSW
    iintro ⟨H0, H1, H2, H3, H4, H5, H6, H7, ⟨%e8, H8⟩, ⟨%e9, H9⟩, ⟨%eH, HH⟩, HW⟩
    isplitl [HH HW Hg]
    · isplitl [HH HW]
      · isplitl [HH]
        · iexists (scH.view.read (Elt F) _); unfold owns; iexists _; isplitr
          swap; · iexact HH
          ipureintro; rfl
        · iexact HW
      · iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover8_rest c _ _ _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover9_rest c _ _ _ _ _ _ _ _ _ _ _ _ _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (9 + 1) from rfl, PhiS_pos m c (9 + 1) (Nat.succ_ne_zero _), PhiA_eq]
  iintro ⟨⟨HSH, HSW⟩, Hg⟩
  isplitl [HSH HSW]
  · isplitl [HSH]; · iexact HSH
    iexists _; iexact HSW
  iexact Hg

/-- Each pair of windows on one array holds it by halves. -/
theorem hsplit (c : Dev nD) : Pipeline.arrBufs spec0 c (V m c) ⊢ (dats m 0 c).arrays ((dats m 0 c).arrAt · 0) :=
  arrays_split_shared (dats m 0 c) (V m c) (fun w => A_eq m c w) rfl

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (fun c => (body_obligation m c).loose) (fun _ _ => rfl) (V m) (hmain m Variants.none) (hsplit m) (hin m) (hout m)

/-- info: 'Cert.KernelIdeal.Cell.run_main' depends on axioms: [propext, Classical.choice, Quot.sound] -/
#guard_msgs in #print axioms run_main

/-- The six argument arrays end as launched: two are windows' arrays the region only reads, four bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 rfl (by decide))).trans (V_main_arg0 m c),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).1 7).trans (((dats m 0 c).arrAt_in 7 rfl _).trans ((A_eq m c 7).trans (V_main_arg5 m c)))⟩) (run_main m ρ)

end Cert.KernelIdeal.Cell

end
-- ==== Proof.IdealBlocks.lean ====
/-
  The input windows' blocks of `KernelIdeal`, read at an index, as entries of the six argument arrays.
  A block's element sits in its array, on each axis, at the block index times the block's size plus the coordinate
  inside the block. Windows 0 and 1 (2 and 3) are blocks (0, t, 0) and (1, t, 0) of the hidden (cell) mailbox with its
  child axis moved to the front, in blocks of 5 x 1000 x 128: element (k, r, j) of the block at point t is child k
  (resp. 5 + k) of node 1000 t + r, feature j. Windows 4 to 7 are whole arrays: the forget weights as given, the
  forget bias as a row, the input-output-update weights transposed, and their bias as given.
-/
import proofs.«181788_g52183852646691_cont_8to1_c_618_27_alg».proof.Proof.IdealBase
import Idealize.ShloMosaic.Lib.Pipeline.Value
import Idealize.ShloMosaic.Lib.ValueIdx
import Idealize.ShloMosaic.Lib.StableHlo.Run

set_option maxRecDepth 16384

noncomputable section

namespace Cert.KernelIdeal.Cell

open Cert.KernelIdeal Cert.KernelIdeal.Gen
open Idealize.ShloMosaic Idealize.ShloMosaic.TcCoe Idealize.ShloMosaic.Tactic Idealize.ShloMosaic.ValueIdx
open Idealize.SL.Sem
open Idealize.ShloMosaic.StableHlo

variable {F : FTy → Type} [FloatOps F]

variable (m : (ℓ : Loc nD τ sig) → Buf (Elt F) ℓ)

/-! ## The blocks, by name -/

/-- Children 0-4 of the hidden mailbox at point `t`'s thousand nodes. -/
abbrev hLo (c : Dev nD) (t : Fin cfg0.N) : Vec F S5x1000x128 .f32 := iblk m c 0 t
/-- Children 5-9 of the hidden mailbox at those nodes. -/
abbrev hHi (c : Dev nD) (t : Fin cfg0.N) : Vec F S5x1000x128 .f32 := iblk m c 1 t
/-- Children 0-4 of the cell mailbox at those nodes. -/
abbrev cLo (c : Dev nD) (t : Fin cfg0.N) : Vec F S5x1000x128 .f32 := iblk m c 2 t
/-- Children 5-9 of the cell mailbox at those nodes. -/
abbrev cHi (c : Dev nD) (t : Fin cfg0.N) : Vec F S5x1000x128 .f32 := iblk m c 3 t
/-- The forget weights. -/
abbrev wF (c : Dev nD) (t : Fin cfg0.N) : Vec F S1280x1280 .f32 := iblk m c 4 t
/-- The forget bias, as a row. -/
abbrev bF (c : Dev nD) (t : Fin cfg0.N) : Vec F S1x1280 .f32 := iblk m c 5 t
/-- The input-output-update weights, transposed. -/
abbrev wI (c : Dev nD) (t : Fin cfg0.N) : Vec F S1280x384 .f32 := iblk m c 6 t
/-- The input-output-update bias. -/
abbrev bI (c : Dev nD) (t : Fin cfg0.N) : Vec F S1x384 .f32 := iblk m c 7 t

/-! ## The block indices -/

/-- The block index of each input window at point `t`: (0, t, 0) and (1, t, 0) for the mailbox windows, zero on every
    axis for the whole-array windows. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 1 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 1 ∧ win0_3.index t (1 : Fin 3) = t.val ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-! ## The arrays the layout operations wrote -/

/-- The moved hidden mailbox is the transpose (child, node, feature) of the hidden mailbox. -/
theorem V_v0 (c : Dev nD) : (V m c main_call0_v0 : S10x10000x128.Idx → Elt F .f32)
    = transpose S10x10000x128 [1, 0, 2] (m ((c : Thread nD τ).loc main_arg0)) Facts₀.transposes_S10000x10x128_S10x10000x128_1_0_2 := by
  show StableHlo.after hostOps0 (fun b => m (c, b)) (Proc.devRef .tc main_call0_v0) = _
  after_results
  rfl

/-- The moved cell mailbox is the transpose (child, node, feature) of the cell mailbox. -/
theorem V_v1 (c : Dev nD) : (V m c main_call0_v1 : S10x10000x128.Idx → Elt F .f32)
    = transpose S10x10000x128 [1, 0, 2] (m ((c : Thread nD τ).loc main_arg1)) Facts₀.transposes_S10000x10x128_S10x10000x128_1_0_2 := by
  show StableHlo.after hostOps0 (fun b => m (c, b)) (Proc.devRef .tc main_call0_v1) = _
  after_results
  rfl

/-- The moved weights are the transpose of the input-output-update weights. -/
theorem V_v2 (c : Dev nD) : (V m c main_call0_v2 : S1280x384.Idx → Elt F .f32)
    = transpose S1280x384 [1, 0] (m ((c : Thread nD τ).loc main_arg4)) Facts₀.transposes_S384x1280_S1280x384_1_0 := by
  show StableHlo.after hostOps0 (fun b => m (c, b)) (Proc.devRef .tc main_call0_v2) = _
  after_results
  rfl

/-- The bias row is the forget bias reshaped to 1 x 1280. -/
theorem V_v3 (c : Dev nD) : (V m c main_call0_v3 : S1x1280.Idx → Elt F .f32)
    = shapeCast S1x1280 (m ((c : Thread nD τ).loc main_arg3)) Facts₀.shapeCasts_S1280_S1x1280 := by
  show StableHlo.after hostOps0 (fun b => m (c, b)) (Proc.devRef .tc main_call0_v3) = _
  after_results
  rfl

/-- The grid has ten points. -/
theorem t_lt (t : Fin cfg0.N) : t.val < 10 := lt_of_lt_of_eq (b := grid0.N) t.isLt N_0

/-! ## The blocks at an index -/

/-- Element (k, r, j) of the low hidden block at point `t` is the hidden mailbox at (1000 t + r, k, j). -/
theorem hLo_apply (c : Dev nD) (t : Fin cfg0.N) (k : Fin 5) (r : Fin 1000) (j : Fin 128) :
    hLo m c t (ix3 k r j) = m ((c : Thread nD τ).loc main_arg0)
      (ix3 (⟨1000 * t.val + r.val, by have := t_lt t; have := r.isLt; omega⟩ : Fin 10000) (⟨k.val, by have := k.isLt; omega⟩ : Fin 10) j) := by
  obtain ⟨e0, e1, e2, -⟩ := idx_facts t
  show V m c main_call0_v0 (((cfg0.win 0).blk t).view.emb (ix3 k r j)) = _
  rw [V_v0]
  refine transpose_apply [1, 0, 2] _ _ _ _ (fun b => ?_)
  match b with
  | ⟨0, _⟩ => show k.val = win0_0.index t (0 : Fin 3) * 5 + 1 * k.val; omega
  | ⟨1, _⟩ => show 1000 * t.val + r.val = win0_0.index t (1 : Fin 3) * 1000 + 1 * r.val; omega
  | ⟨2, _⟩ => show j.val = win0_0.index t (2 : Fin 3) * 128 + 1 * j.val; omega

/-- Element (k, r, j) of the high hidden block at point `t` is the hidden mailbox at (1000 t + r, 5 + k, j). -/
theorem hHi_apply (c : Dev nD) (t : Fin cfg0.N) (k : Fin 5) (r : Fin 1000) (j : Fin 128) :
    hHi m c t (ix3 k r j) = m ((c : Thread nD τ).loc main_arg0)
      (ix3 (⟨1000 * t.val + r.val, by have := t_lt t; have := r.isLt; omega⟩ : Fin 10000) (⟨5 + k.val, by have := k.isLt; omega⟩ : Fin 10) j) := by
  obtain ⟨-, -, -, e0, e1, e2, -⟩ := idx_facts t
  show V m c main_call0_v0 (((cfg0.win 1).blk t).view.emb (ix3 k r j)) = _
  rw [V_v0]
  refine transpose_apply [1, 0, 2] _ _ _ _ (fun b => ?_)
  match b with
  | ⟨0, _⟩ => show 5 + k.val = win0_1.index t (0 : Fin 3) * 5 + 1 * k.val; omega
  | ⟨1, _⟩ => show 1000 * t.val + r.val = win0_1.index t (1 : Fin 3) * 1000 + 1 * r.val; omega
  | ⟨2, _⟩ => show j.val = win0_1.index t (2 : Fin 3) * 128 + 1 * j.val; omega

/-- Element (k, r, j) of the low cell block at point `t` is the cell mailbox at (1000 t + r, k, j). -/
theorem cLo_apply (c : Dev nD) (t : Fin cfg0.N) (k : Fin 5) (r : Fin 1000) (j : Fin 128) :
    cLo m c t (ix3 k r j) = m ((c : Thread nD τ).loc main_arg1)
      (ix3 (⟨1000 * t.val + r.val, by have := t_lt t; have := r.isLt; omega⟩ : Fin 10000) (⟨k.val, by have := k.isLt; omega⟩ : Fin 10) j) := by
  obtain ⟨-, -, -, -, -, -, e0, e1, e2, -⟩ := idx_facts t
  show V m c main_call0_v1 (((cfg0.win 2).blk t).view.emb (ix3 k r j)) = _
  rw [V_v1]
  refine transpose_apply [1, 0, 2] _ _ _ _ (fun b => ?_)
  match b with
  | ⟨0, _⟩ => show k.val = win0_2.index t (0 : Fin 3) * 5 + 1 * k.val; omega
  | ⟨1, _⟩ => show 1000 * t.val + r.val = win0_2.index t (1 : Fin 3) * 1000 + 1 * r.val; omega
  | ⟨2, _⟩ => show j.val = win0_2.index t (2 : Fin 3) * 128 + 1 * j.val; omega

/-- Element (k, r, j) of the high cell block at point `t` is the cell mailbox at (1000 t + r, 5 + k, j). -/
theorem cHi_apply (c : Dev nD) (t : Fin cfg0.N) (k : Fin 5) (r : Fin 1000) (j : Fin 128) :
    cHi m c t (ix3 k r j) = m ((c : Thread nD τ).loc main_arg1)
      (ix3 (⟨1000 * t.val + r.val, by have := t_lt t; have := r.isLt; omega⟩ : Fin 10000) (⟨5 + k.val, by have := k.isLt; omega⟩ : Fin 10) j) := by
  obtain ⟨-, -, -, -, -, -, -, -, -, e0, e1, e2, -⟩ := idx_facts t
  show V m c main_call0_v1 (((cfg0.win 3).blk t).view.emb (ix3 k r j)) = _
  rw [V_v1]
  refine transpose_apply [1, 0, 2] _ _ _ _ (fun b => ?_)
  match b with
  | ⟨0, _⟩ => show 5 + k.val = win0_3.index t (0 : Fin 3) * 5 + 1 * k.val; omega
  | ⟨1, _⟩ => show 1000 * t.val + r.val = win0_3.index t (1 : Fin 3) * 1000 + 1 * r.val; omega
  | ⟨2, _⟩ => show j.val = win0_3.index t (2 : Fin 3) * 128 + 1 * j.val; omega

/-- The forget-weight block is the forget weights, entry by entry. -/
theorem wF_apply (c : Dev nD) (t : Fin cfg0.N) (a b : Fin 1280) :
    wF m c t (ix2 a b) = m ((c : Thread nD τ).loc main_arg2) (ix2 a b) := by
  obtain ⟨-, -, -, -, -, -, -, -, -, -, -, -, e0, e1, -⟩ := idx_facts t
  show V m c main_arg2 (((cfg0.win 4).blk t).view.emb (ix2 a b)) = _
  rw [V_main_arg2]
  refine congrArg (m ((c : Thread nD τ).loc main_arg2)) (funext fun d => Fin.ext ?_)
  match d with
  | ⟨0, _⟩ => show win0_4.index t (0 : Fin 2) * 1280 + 1 * a.val = a.val; omega
  | ⟨1, _⟩ => show win0_4.index t (1 : Fin 2) * 1280 + 1 * b.val = b.val; omega

/-- The bias row at (0, b) is the forget bias at b: both sit at row-major position b. -/
theorem bF_apply (c : Dev nD) (t : Fin cfg0.N) (b : Fin 1280) :
    bF m c t (ix2 (0 : Fin 1) b) = m ((c : Thread nD τ).loc main_arg3) (ix1 b) := by
  obtain ⟨-, -, -, -, -, -, -, -, -, -, -, -, -, -, e0, e1, -⟩ := idx_facts t
  show V m c main_call0_v3 (((cfg0.win 5).blk t).view.emb (ix2 (0 : Fin 1) b)) = _
  rw [V_v3]
  refine shapeCast_apply _ _ _ (ix1 b) ?_
  show (S1280.rowMajor (ix1 b)).val = (S1x1280.rowMajor (((cfg0.win 5).blk t).view.emb (ix2 (0 : Fin 1) b))).val
  rw [Shape.rowMajor_val_one, Shape.rowMajor_val_two]
  show b.val = (win0_5.index t (0 : Fin 2) * 1 + 1 * 0) * 1280 + (win0_5.index t (1 : Fin 2) * 1280 + 1 * b.val)
  omega

/-- The moved-weight block at (a, b) is the input-output-update weights at (b, a). -/
theorem wI_apply (c : Dev nD) (t : Fin cfg0.N) (a : Fin 1280) (b : Fin 384) :
    wI m c t (ix2 a b) = m ((c : Thread nD τ).loc main_arg4) (ix2 b a) := by
  obtain ⟨-, -, -, -, -, -, -, -, -, -, -, -, -, -, -, -, e0, e1, -⟩ := idx_facts t
  show V m c main_call0_v2 (((cfg0.win 6).blk t).view.emb (ix2 a b)) = _
  rw [V_v2]
  refine transpose_apply [1, 0] _ _ _ _ (fun d => ?_)
  match d with
  | ⟨0, _⟩ => show a.val = win0_6.index t (0 : Fin 2) * 1280 + 1 * a.val; omega
  | ⟨1, _⟩ => show b.val = win0_6.index t (1 : Fin 2) * 384 + 1 * b.val; omega

/-- The bias block is the input-output-update bias, entry by entry. -/
theorem bI_apply (c : Dev nD) (t : Fin cfg0.N) (b : Fin 384) :
    bI m c t (ix2 (0 : Fin 1) b) = m ((c : Thread nD τ).loc main_arg5) (ix2 (0 : Fin 1) b) := by
  obtain ⟨-, -, -, -, -, -, -, -, -, -, -, -, -, -, -, -, -, -, e0, e1⟩ := idx_facts t
  show V m c main_arg5 (((cfg0.win 7).blk t).view.emb (ix2 (0 : Fin 1) b)) = _
  rw [V_main_arg5]
  refine congrArg (m ((c : Thread nD τ).loc main_arg5)) (funext fun d => Fin.ext ?_)
  match d with
  | ⟨0, _⟩ => show win0_7.index t (0 : Fin 2) * 1 + 1 * 0 = 0; omega
  | ⟨1, _⟩ => show win0_7.index t (1 : Fin 2) * 384 + 1 * b.val = b.val; omega

end Cert.KernelIdeal.Cell

end
-- ==== Proof.CellSpec.lean ====
/-
  The child-sum TreeLSTM cell over pre-gathered mailboxes, as functions of the six argument arrays on the
  extended reals, index by index. For a node n with its ten children's states laid side by side,
    hcat n (128 k + j) = mailbox_h (n, k, j),
  the forget gates are  f n col = σ (Σ_κ hcat n κ · U_f (κ, col) + b_f col)  (one gate per child and feature),
  the gated child sum is  cred n j = Σ_k f n (128 k + j) · mailbox_c (n, k, j),
  the input, output and update pre-activations are  iou n col = Σ_κ hcat n κ · U_iou (col, κ) + b_iou (0, col),
  and the new states are
    c n j = σ (iou n j) · tanh (iou n (256 + j)) + cred n j,      h n j = σ (iou n (128 + j)) · tanh (c n j).
  Here σ is the logistic function and every sum and product is the one of the extended reals.
-/
import Idealize.ShloMosaic.PureOps.Ideal
import Idealize.ShloMosaic.Lib.ValueIdx

noncomputable section

namespace Cert.CellSpec

open Idealize.ShloMosaic Idealize.ShloMosaic.ValueIdx

/-- Column `128 k + j` of the flattened children. -/
abbrev col (k : Fin 10) (j : Fin 128) : Fin 1280 := ⟨128 * k.val + j.val, by have := k.isLt; have := j.isLt; omega⟩
/-- The child a flattened column belongs to, and its feature. -/
abbrev childOf (κ : Fin 1280) : Fin 10 := ⟨κ.val / 128, by have := κ.isLt; omega⟩
abbrev featOf (κ : Fin 1280) : Fin 128 := ⟨κ.val % 128, Nat.mod_lt _ (by decide)⟩
/-- Columns of the three gate groups of `iou`. -/
abbrev colI (j : Fin 128) : Fin 384 := ⟨j.val, by have := j.isLt; omega⟩
abbrev colO (j : Fin 128) : Fin 384 := ⟨128 + j.val, by have := j.isLt; omega⟩
abbrev colU (j : Fin 128) : Fin 384 := ⟨256 + j.val, by have := j.isLt; omega⟩

variable (mh mc : (⟨3, ![10000, 10, 128]⟩ : Shape).Idx → EReal) (Uf : (⟨2, ![1280, 1280]⟩ : Shape).Idx → EReal)
  (bf : (⟨1, ![1280]⟩ : Shape).Idx → EReal) (Ui : (⟨2, ![384, 1280]⟩ : Shape).Idx → EReal) (bi : (⟨2, ![1, 384]⟩ : Shape).Idx → EReal)

/-- The children's hidden states of node `n`, flattened. -/
def hcat (n : Fin 10000) (κ : Fin 1280) : EReal := mh (ix3 n (childOf κ) (featOf κ))

/-- The forget gate of node `n` at flattened column `c`. -/
def fgate (n : Fin 10000) (c : Fin 1280) : EReal :=
  Ideal.logistic ((∑ κ : Fin 1280, hcat mh n κ * Uf (ix2 κ c)) + bf (ix1 c))

/-- The gated sum of the children's cell states. -/
def cred (n : Fin 10000) (j : Fin 128) : EReal := ∑ k : Fin 10, fgate mh Uf bf n (col k j) * mc (ix3 n k j)

/-- The input / output / update pre-activations. -/
def iou (n : Fin 10000) (c : Fin 384) : EReal := (∑ κ : Fin 1280, hcat mh n κ * Ui (ix2 c κ)) + bi (ix2 (0 : Fin 1) c)

/-- The new cell state. -/
def cellC (i : (⟨2, ![10000, 128]⟩ : Shape).Idx) : EReal :=
  Ideal.logistic (iou mh Ui bi (i 0) (colI (i 1))) * Ideal.tanh (iou mh Ui bi (i 0) (colU (i 1))) + cred mh mc Uf bf (i 0) (i 1)

/-- The new hidden state. -/
def cellH (i : (⟨2, ![10000, 128]⟩ : Shape).Idx) : EReal :=
  Ideal.logistic (iou mh Ui bi (i 0) (colO (i 1))) * Ideal.tanh (cellC mh mc Uf bf Ui bi i)

end Cert.CellSpec

end
-- ==== Proof.CellPayload.lean ====
/-
  The kernel body's arithmetic read at one index, at the ideal values.

  The body multiplies the flattened children's hidden states `a` (1000 × 1280) by the merged weights `w`
  (1280 × 1664, the forget weights in columns 0..1279 and the input / output / update weights in columns
  1280..1663) in one product. Write  dotAt a w r c = Σ_κ a (r, κ) · w (κ, c)  for its entry. Then, with σ the
  logistic function, the forget gate at column c is  σ (dotAt a w r c + b_f c),  the pre-activation of gate column c
  is  dotAt a w r (1280 + c) + b_iou c,  and the two values the body stores are, at row r and feature j,
    c' (r, j) = σ (pre (j)) · tanh (pre (256 + j)) + Σ_{k < 10} σ (dotAt a w r (128 k + j) + b_f (128 k + j)) · c_k (0, r, j),
    h' (r, j) = σ (pre (128 + j)) · tanh (c' (r, j)).
  The body accumulates the ten products from the left, four in one stretch and six in the next; addition on the
  extended reals is associative, so the accumulation is the sum over k. Each layout operation (a band of columns, a
  row broadcast over the rows, a dropped unit axis) is read at the index by its coordinates.
-/
import proofs.«181788_g52183852646691_cont_8to1_c_618_27_alg».proof.Proof.Gen.KernelIdeal.Skeleton
import proofs.«181788_g52183852646691_cont_8to1_c_618_27_alg».proof.Proof.CellSpec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.CellPayload

open Cert.KernelIdeal Cert.KernelIdeal.Gen Idealize.ShloMosaic Idealize.ShloMosaic.ValueIdx

/-- One entry of the merged product: row `r` of the left factor against column `c` of the right one. -/
def dotAt (a : Vec Ideal S1000x1280 .bf16) (w : Vec Ideal S1280x1664 .bf16) (r : Fin 1000) (c : Fin 1664) : EReal :=
  ∑ κ : Fin 1280, a (ix2 r κ) * w (ix2 κ c)

/-! ## The product's operand indices, axis by axis -/

theorem lhs_dot_0 (i : S1000x1664.Idx) (q : dot_S1000x1280_S1280x1664_S1000x1664_1_0_0_1_n_n.contr.Idx) :
    (dot_S1000x1280_S1280x1664_S1000x1664_1_0_0_1_n_n.lhsIdx i q 0).val = (i 0).val := by
  unfold DotDims.lhsIdx
  rw [dif_neg (show ¬(0 : Fin S1000x1280.rank) ∈ dot_S1000x1280_S1280x1664_S1000x1664_1_0_0_1_n_n.lhsBatch by decide), dif_pos (show (0 : Fin S1000x1280.rank) ∈ dot_S1000x1280_S1280x1664_S1000x1664_1_0_0_1_n_n.lhsNonContracting by decide)]
  rfl
theorem lhs_dot_1 (i : S1000x1664.Idx) (q : dot_S1000x1280_S1280x1664_S1000x1664_1_0_0_1_n_n.contr.Idx) :
    (dot_S1000x1280_S1280x1664_S1000x1664_1_0_0_1_n_n.lhsIdx i q 1).val = (q ⟨0, by decide⟩).val :=
  dot_S1000x1280_S1280x1664_S1000x1664_1_0_0_1_n_n.lhsIdx_val_of_single rfl i q
theorem rhs_dot_0 (i : S1000x1664.Idx) (q : dot_S1000x1280_S1280x1664_S1000x1664_1_0_0_1_n_n.contr.Idx) :
    (dot_S1000x1280_S1280x1664_S1000x1664_1_0_0_1_n_n.rhsIdx i q 0).val = (q ⟨0, by decide⟩).val :=
  dot_S1000x1280_S1280x1664_S1000x1664_1_0_0_1_n_n.rhsIdx_val_of_single rfl i q
theorem rhs_dot_1 (i : S1000x1664.Idx) (q : dot_S1000x1280_S1280x1664_S1000x1664_1_0_0_1_n_n.contr.Idx) :
    (dot_S1000x1280_S1280x1664_S1000x1664_1_0_0_1_n_n.rhsIdx i q 1).val = (i 1).val := by
  unfold DotDims.rhsIdx
  rw [dif_neg (show ¬(1 : Fin S1280x1664.rank) ∈ dot_S1000x1280_S1280x1664_S1000x1664_1_0_0_1_n_n.rhsBatch by decide), dif_pos (show (1 : Fin S1280x1664.rank) ∈ dot_S1000x1280_S1280x1664_S1000x1664_1_0_0_1_n_n.rhsNonContracting by decide)]
  rfl

/-- The product into the zero accumulator, read at `(r, c)`, is the sum over the contracted axis. -/
theorem pay16_apply (a : Vec Ideal S1000x1280 .bf16) (w : Vec Ideal S1280x1664 .bf16) (r : Fin 1000) (c : Fin 1664) :
    k0_pay16 (F := Ideal) a w (ix2 r c) = dotAt a w r c := by
  unfold k0_pay16 dotAt
  show FloatOps.matmul dot_S1000x1280_S1280x1664_S1000x1664_1_0_0_1_n_n none a w (constant (F := Ideal) S1000x1664 .f32 0x00000000#32) (ix2 r c) = _
  rw [Ideal.matmul_constant_zero_apply, ← Equiv.sum_comp (ValueIdx.contrEquiv1 dot_S1000x1280_S1280x1664_S1000x1664_1_0_0_1_n_n 1280 rfl rfl).symm]
  refine Finset.sum_congr rfl fun k _ => ?_
  have hk := ValueIdx.contrEquiv1_symm_val dot_S1000x1280_S1280x1664_S1000x1664_1_0_0_1_n_n 1280 rfl rfl k
  have el : dot_S1000x1280_S1280x1664_S1000x1664_1_0_0_1_n_n.lhsIdx (ix2 r c) ((ValueIdx.contrEquiv1 dot_S1000x1280_S1280x1664_S1000x1664_1_0_0_1_n_n 1280 rfl rfl).symm k) = ix2 r k := funext fun ax => Fin.ext (by
    match ax with
    | ⟨0, _⟩ => exact lhs_dot_0 _ _
    | ⟨1, _⟩ => exact (lhs_dot_1 _ _).trans hk)
  have er : dot_S1000x1280_S1280x1664_S1000x1664_1_0_0_1_n_n.rhsIdx (ix2 r c) ((ValueIdx.contrEquiv1 dot_S1000x1280_S1280x1664_S1000x1664_1_0_0_1_n_n 1280 rfl rfl).symm k) = ix2 k c := funext fun ax => Fin.ext (by
    match ax with
    | ⟨0, _⟩ => exact (rhs_dot_0 _ _).trans hk
    | ⟨1, _⟩ => exact rhs_dot_1 _ _)
  rw [el, er]

/-! ## The bands of the product, with their bias rows -/

/-- The forget gate at `(r, c)`: the logistic of column `c` of the product plus the forget bias. -/
def fAt (a : Vec Ideal S1000x1280 .bf16) (w : Vec Ideal S1280x1664 .bf16) (bfv : Vec Ideal S1x1280 .f32)
    (r : Fin 1000) (c : Fin 1280) : EReal :=
  Ideal.logistic (dotAt a w r ⟨c.val, by have := c.isLt; omega⟩ + bfv (ix2 (0 : Fin 1) c))

/-- The input / output / update pre-activation at `(r, c)`: column `1280 + c` of the product plus the bias. -/
def gAt (a : Vec Ideal S1000x1280 .bf16) (w : Vec Ideal S1280x1664 .bf16) (biv : Vec Ideal S1x384 .f32)
    (r : Fin 1000) (c : Fin 384) : EReal :=
  dotAt a w r ⟨1280 + c.val, by have := c.isLt; omega⟩ + biv (ix2 (0 : Fin 1) c)

/-- Columns `0..1279` of the product, plus the bias row broadcast over the rows, through the logistic. -/
theorem pay17_apply (a : Vec Ideal S1000x1280 .bf16) (w : Vec Ideal S1280x1664 .bf16) (bfv : Vec Ideal S1x1280 .f32)
    (r : Fin 1000) (c : Fin 1280) : k0_pay17 (F := Ideal) a w bfv (ix2 r c) = fAt a w bfv r c := by
  unfold k0_pay17 fAt
  show FloatOps.logistic (FloatOps.addf
      (extractStridedSlice S1000x1280 ![0, 0] (k0_pay16 (F := Ideal) a w) slices_S1000x1664_o0_0_S1000x1280 (ix2 r c))
      (broadcastTo S1000x1280 (shapeCast S1x1280 bfv shapeCasts_S1x1280_S1x1280) broadcasts_S1x1280_S1000x1280 (ix2 r c))) = _
  rw [Ideal.logistic_def, Ideal.addf_def,
    slice2_axis1_apply 0 (k0_pay16 (F := Ideal) a w) slices_S1000x1664_o0_0_S1000x1280 r c
      ⟨c.val, by have := c.isLt; omega⟩ (Nat.zero_add _).symm,
    broadcastTo_1b_ab_apply, shapeCast_self, pay16_apply]

/-- Columns `1280..1663` of the product. -/
theorem pay18_apply (a : Vec Ideal S1000x1280 .bf16) (w : Vec Ideal S1280x1664 .bf16) (r : Fin 1000) (c : Fin 384) :
    k0_pay18 (F := Ideal) a w (ix2 r c) = dotAt a w r ⟨1280 + c.val, by have := c.isLt; omega⟩ := by
  unfold k0_pay18
  rw [slice2_axis1_eq, pay16_apply]

/-- Those columns plus the bias row broadcast over the rows. -/
theorem pay21_apply (a : Vec Ideal S1000x1280 .bf16) (w : Vec Ideal S1280x1664 .bf16) (biv : Vec Ideal S1x384 .f32)
    (r : Fin 1000) (c : Fin 384) : k0_pay21 (F := Ideal) (k0_pay18 a w) biv (ix2 r c) = gAt a w biv r c := by
  unfold k0_pay21 gAt
  show FloatOps.addf (k0_pay18 (F := Ideal) a w (ix2 r c)) (broadcastTo S1000x384 biv broadcasts_S1x384_S1000x384 (ix2 r c)) = _
  rw [Ideal.addf_def, pay18_apply, broadcastTo_1b_ab_apply]

/-- A 128-column band of the forget gates, read at `(r, j)`. -/
theorem fband_apply (a : Vec Ideal S1000x1280 .bf16) (w : Vec Ideal S1280x1664 .bf16) (bfv : Vec Ideal S1x1280 .f32)
    (o : Nat) (h : S1000x1280.Slices ![0, o] S1000x128) (r : Fin 1000) (j : Fin 128) (c : Fin 1280) (hc : c.val = o + j.val) :
    extractStridedSlice S1000x128 ![0, o] (k0_pay17 (F := Ideal) a w bfv) h (ix2 r j) = fAt a w bfv r c := by
  rw [slice2_axis1_apply o _ h r j c hc, pay17_apply]

/-- A 128-column band of the pre-activations, read at `(r, j)`. -/
theorem gband_apply (a : Vec Ideal S1000x1280 .bf16) (w : Vec Ideal S1280x1664 .bf16) (biv : Vec Ideal S1x384 .f32)
    (o : Nat) (h : S1000x384.Slices ![0, o] S1000x128) (r : Fin 1000) (j : Fin 128) (c : Fin 384) (hc : c.val = o + j.val) :
    extractStridedSlice S1000x128 ![0, o] (k0_pay21 (F := Ideal) (k0_pay18 a w) biv) h (ix2 r j) = gAt a w biv r c := by
  rw [slice2_axis1_apply o _ h r j c hc, pay21_apply]

/-- A child's slab of cell states with its unit axis dropped, read at `(r, j)`. -/
theorem slab_apply (v : Vec Ideal S1x1000x128 .f32) (r : Fin 1000) (j : Fin 128) :
    shapeCast S1000x128 v shapeCasts_S1x1000x128_S1000x128 (ix2 r j) = v (ix3 (0 : Fin 1) r j) :=
  shapeCast_1ab_ab_apply v shapeCasts_S1x1000x128_S1000x128 r j

/-! ## The gated child sum and the two stored states -/

open Cert.CellSpec (col colI colO colU)

/-- The first four children's gated cell states, accumulated from the left. -/
theorem pay19_apply (a : Vec Ideal S1000x1280 .bf16) (w : Vec Ideal S1280x1664 .bf16) (bfv : Vec Ideal S1x1280 .f32)
    (c0 c1 c2 c3 : Vec Ideal S1x1000x128 .f32) (r : Fin 1000) (j : Fin 128) :
    k0_pay19 (F := Ideal) a w bfv c0 c1 c2 c3 (ix2 r j)
      = fAt a w bfv r (col 0 j) * c0 (ix3 (0 : Fin 1) r j) + fAt a w bfv r (col 1 j) * c1 (ix3 (0 : Fin 1) r j)
        + fAt a w bfv r (col 2 j) * c2 (ix3 (0 : Fin 1) r j) + fAt a w bfv r (col 3 j) * c3 (ix3 (0 : Fin 1) r j) := by
  unfold k0_pay19
  simp only [addf_apply, mulf_apply]
  rw [fband_apply a w bfv 0 _ r j (col 0 j) rfl, fband_apply a w bfv 128 _ r j (col 1 j) rfl,
    fband_apply a w bfv 256 _ r j (col 2 j) rfl, fband_apply a w bfv 384 _ r j (col 3 j) rfl,
    slab_apply c0, slab_apply c1, slab_apply c2, slab_apply c3]

/-- The fifth child's band of forget gates. -/
theorem pay20_apply (a : Vec Ideal S1000x1280 .bf16) (w : Vec Ideal S1280x1664 .bf16) (bfv : Vec Ideal S1x1280 .f32)
    (r : Fin 1000) (j : Fin 128) : k0_pay20 (F := Ideal) a w bfv (ix2 r j) = fAt a w bfv r (col 4 j) := by
  unfold k0_pay20
  exact fband_apply a w bfv 512 _ r j (col 4 j) rfl

/-- The output gate. -/
theorem pay22_apply (a : Vec Ideal S1000x1280 .bf16) (w : Vec Ideal S1280x1664 .bf16) (biv : Vec Ideal S1x384 .f32)
    (r : Fin 1000) (j : Fin 128) :
    k0_pay22 (F := Ideal) (k0_pay18 a w) biv (ix2 r j) = Ideal.logistic (gAt a w biv r (colO j)) := by
  unfold k0_pay22
  show FloatOps.logistic (extractStridedSlice S1000x128 ![0, 128] (k0_pay21 (F := Ideal) (k0_pay18 a w) biv) slices_S1000x384_o0_128_S1000x128 (ix2 r j)) = _
  rw [Ideal.logistic_def, gband_apply a w biv 128 _ r j (colO j) rfl]

/-- The ten-term sum written out, accumulated from the left. -/
theorem sum_fin10 (f : Fin 10 → EReal) :
    ∑ k, f k = f 0 + f 1 + f 2 + f 3 + f 4 + f 5 + f 6 + f 7 + f 8 + f 9 := by
  rw [Fin.sum_univ_castSucc, Fin.sum_univ_castSucc, Fin.sum_univ_eight]
  rfl

/-- The new cell state over abstract incoming values: the input gate times the update, plus the first four
    children's sum continued through the other six. -/
theorem pay23_apply (a : Vec Ideal S1000x1280 .bf16) (w : Vec Ideal S1280x1664 .bf16) (bfv : Vec Ideal S1x1280 .f32)
    (biv : Vec Ideal S1x384 .f32) (v91 : FVec Ideal S1000x128 .f32)
    (c4 c5 c6 c7 c8 c9 : Vec Ideal S1x1000x128 .f32) (r : Fin 1000) (j : Fin 128) :
    k0_pay23 (F := Ideal) (k0_pay17 a w bfv) (k0_pay18 a w) v91 (k0_pay20 a w bfv) c4 c5 c6 c7 c8 c9 biv (ix2 r j)
      = Ideal.logistic (gAt a w biv r (colI j)) * Ideal.tanh (gAt a w biv r (colU j))
        + (v91 (ix2 r j) + fAt a w bfv r (col 4 j) * c4 (ix3 (0 : Fin 1) r j) + fAt a w bfv r (col 5 j) * c5 (ix3 (0 : Fin 1) r j)
          + fAt a w bfv r (col 6 j) * c6 (ix3 (0 : Fin 1) r j) + fAt a w bfv r (col 7 j) * c7 (ix3 (0 : Fin 1) r j)
          + fAt a w bfv r (col 8 j) * c8 (ix3 (0 : Fin 1) r j) + fAt a w bfv r (col 9 j) * c9 (ix3 (0 : Fin 1) r j)) := by
  unfold k0_pay23
  simp only [addf_apply, mulf_apply]
  show FloatOps.logistic (extractStridedSlice S1000x128 ![0, 0] (k0_pay21 (F := Ideal) (k0_pay18 a w) biv) slices_S1000x384_o0_0_S1000x128 (ix2 r j))
      * FloatOps.tanh (extractStridedSlice S1000x128 ![0, 256] (k0_pay21 (F := Ideal) (k0_pay18 a w) biv) slices_S1000x384_o0_256_S1000x128 (ix2 r j)) + _ = _
  rw [Ideal.logistic_def, Ideal.tanh_def, gband_apply a w biv 0 _ r j (colI j) (Nat.zero_add _).symm,
    gband_apply a w biv 256 _ r j (colU j) rfl, pay20_apply,
    fband_apply a w bfv 640 _ r j (col 5 j) rfl, fband_apply a w bfv 768 _ r j (col 6 j) rfl,
    fband_apply a w bfv 896 _ r j (col 7 j) rfl, fband_apply a w bfv 1024 _ r j (col 8 j) rfl,
    fband_apply a w bfv 1152 _ r j (col 9 j) rfl,
    slab_apply c4, slab_apply c5, slab_apply c6, slab_apply c7, slab_apply c8, slab_apply c9]

/-- The product's entry depends on its column only through the column's number. -/
theorem dotAt_congr (a : Vec Ideal S1000x1280 .bf16) (w : Vec Ideal S1280x1664 .bf16) (r : Fin 1000) {c c' : Fin 1664}
    (h : c.val = c'.val) : dotAt a w r c = dotAt a w r c' := by rw [Fin.ext h]

/-- THE NEW CELL STATE at `(r, j)`: the input gate times the update, plus the sum over the ten children `k` of the
    forget gate at column `128 k + j` times the child's cell state. The children's slabs are taken as the family
    `![c0, …, c9]`. -/
theorem payC_apply (a : Vec Ideal S1000x1280 .bf16) (w : Vec Ideal S1280x1664 .bf16) (bfv : Vec Ideal S1x1280 .f32)
    (biv : Vec Ideal S1x384 .f32) (c0 c1 c2 c3 c4 c5 c6 c7 c8 c9 : Vec Ideal S1x1000x128 .f32) (r : Fin 1000) (j : Fin 128) :
    k0_pay23 (F := Ideal) (k0_pay17 a w bfv) (k0_pay18 a w) (k0_pay19 a w bfv c0 c1 c2 c3) (k0_pay20 a w bfv)
        c4 c5 c6 c7 c8 c9 biv (ix2 r j)
      = Ideal.logistic (dotAt a w r ⟨1280 + j.val, by have := j.isLt; omega⟩
            + biv (ix2 (0 : Fin 1) ⟨j.val, by have := j.isLt; omega⟩))
          * Ideal.tanh (dotAt a w r ⟨1280 + 256 + j.val, by have := j.isLt; omega⟩
            + biv (ix2 (0 : Fin 1) ⟨256 + j.val, by have := j.isLt; omega⟩))
        + ∑ k : Fin 10, Ideal.logistic (dotAt a w r ⟨128 * k.val + j.val, by have := j.isLt; have := k.isLt; omega⟩
            + bfv (ix2 (0 : Fin 1) ⟨128 * k.val + j.val, by have := j.isLt; have := k.isLt; omega⟩))
          * (![c0, c1, c2, c3, c4, c5, c6, c7, c8, c9] k) (ix3 (0 : Fin 1) r j) := by
  rw [pay23_apply, pay19_apply, sum_fin10]
  unfold gAt fAt
  rw [dotAt_congr a w r (c := ⟨1280 + (256 + j.val), by have := j.isLt; omega⟩)
    (c' := ⟨1280 + 256 + j.val, by have := j.isLt; omega⟩) (Nat.add_assoc _ _ _).symm]
  rfl

/-- THE NEW HIDDEN STATE at `(r, j)`: the output gate times the hyperbolic tangent of the cell state it is given. -/
theorem payH_apply (a : Vec Ideal S1000x1280 .bf16) (w : Vec Ideal S1280x1664 .bf16) (biv : Vec Ideal S1x384 .f32)
    (vc : FVec Ideal S1000x128 .f32) (r : Fin 1000) (j : Fin 128) :
    k0_pay1 (F := Ideal) (k0_pay22 (k0_pay18 a w) biv) vc (ix2 r j)
      = Ideal.logistic (dotAt a w r ⟨1280 + 128 + j.val, by have := j.isLt; omega⟩
            + biv (ix2 (0 : Fin 1) ⟨128 + j.val, by have := j.isLt; omega⟩))
          * Ideal.tanh (vc (ix2 r j)) := by
  unfold k0_pay1
  show FloatOps.mulf (k0_pay22 (F := Ideal) (k0_pay18 a w) biv (ix2 r j)) (FloatOps.tanh (vc (ix2 r j))) = _
  rw [Ideal.mulf_def, Ideal.tanh_def, pay22_apply]
  unfold gAt
  rw [dotAt_congr a w r (c := ⟨1280 + (128 + j.val), by have := j.isLt; omega⟩)
    (c' := ⟨1280 + 128 + j.val, by have := j.isLt; omega⟩) (Nat.add_assoc _ _ _).symm]

end Cert.KernelIdeal.CellPayload

end
-- ==== Proof.CellBlock.lean ====
/-
  One block of the cell. At a grid point the kernel sees a thousand nodes: their children's hidden states as a
  1000 x 1280 matrix, the two weight matrices side by side as a 1280 x 1664 matrix, the two bias rows, and the
  children's cell states. `blkC` and `blkH` are the new cell and hidden states of row `r`, feature `j` of the
  block as functions of those entries; the kernel's two stored values are these (`payC_of`, `payH_of`), and at
  the entries the block really holds — rows 1000 t .. 1000 t + 999 of the argument arrays — they are the
  specification's cell and hidden states of node 1000 t + r (`blkC_eq`, `blkH_eq`).
-/
import proofs.«181788_g52183852646691_cont_8to1_c_618_27_alg».proof.Proof.CellPayload
import proofs.«181788_g52183852646691_cont_8to1_c_618_27_alg».proof.Proof.CellSpec

noncomputable section

namespace Cert.KernelIdeal.CellBlock

open Cert.KernelIdeal Cert.KernelIdeal.Gen Cert.KernelIdeal.CellPayload Cert.CellSpec
open Idealize.ShloMosaic Idealize.ShloMosaic.ValueIdx

/-- Columns of the merged product: the forget gates' columns first, then the input, output and update groups. -/
abbrev mcolF (k : Fin 10) (j : Fin 128) : Fin 1664 := ⟨128 * k.val + j.val, by have := j.isLt; have := k.isLt; omega⟩
abbrev mcolI (j : Fin 128) : Fin 1664 := ⟨1280 + j.val, by have := j.isLt; omega⟩
abbrev mcolO (j : Fin 128) : Fin 1664 := ⟨1280 + 128 + j.val, by have := j.isLt; omega⟩
abbrev mcolU (j : Fin 128) : Fin 1664 := ⟨1280 + 256 + j.val, by have := j.isLt; omega⟩

/-- The new cell state of row `r`, feature `j` of a block. -/
def blkC (a : Fin 1000 → Fin 1280 → EReal) (w : Fin 1280 → Fin 1664 → EReal) (bf : Fin 1280 → EReal) (bi : Fin 384 → EReal)
    (cc : Fin 10 → Fin 1000 → Fin 128 → EReal) (r : Fin 1000) (j : Fin 128) : EReal :=
  Ideal.logistic ((∑ κ : Fin 1280, a r κ * w κ (mcolI j)) + bi (colI j)) * Ideal.tanh ((∑ κ : Fin 1280, a r κ * w κ (mcolU j)) + bi (colU j))
    + ∑ k : Fin 10, Ideal.logistic ((∑ κ : Fin 1280, a r κ * w κ (mcolF k j)) + bf (col k j)) * cc k r j

/-- The new hidden state of row `r`, feature `j` of a block, from the new cell state `vc` there. -/
def blkH (a : Fin 1000 → Fin 1280 → EReal) (w : Fin 1280 → Fin 1664 → EReal) (bi : Fin 384 → EReal) (vc : EReal) (r : Fin 1000) (j : Fin 128) : EReal :=
  Ideal.logistic ((∑ κ : Fin 1280, a r κ * w κ (mcolO j)) + bi (colO j)) * Ideal.tanh vc

/-- The kernel's stored cell state, for operands known entry by entry. -/
theorem payC_of (av : Vec Ideal S1000x1280 .bf16) (wv : Vec Ideal S1280x1664 .bf16) (bfv : Vec Ideal S1x1280 .f32) (biv : Vec Ideal S1x384 .f32)
    (c0 c1 c2 c3 c4 c5 c6 c7 c8 c9 : Vec Ideal S1x1000x128 .f32)
    (a : Fin 1000 → Fin 1280 → EReal) (w : Fin 1280 → Fin 1664 → EReal) (bf : Fin 1280 → EReal) (bi : Fin 384 → EReal) (cc : Fin 10 → Fin 1000 → Fin 128 → EReal)
    (ha : ∀ r κ, av (ix2 r κ) = a r κ) (hw : ∀ κ c, wv (ix2 κ c) = w κ c) (hbf : ∀ c, bfv (ix2 (0 : Fin 1) c) = bf c) (hbi : ∀ c, biv (ix2 (0 : Fin 1) c) = bi c)
    (hc : ∀ k r j, (![c0, c1, c2, c3, c4, c5, c6, c7, c8, c9] k) (ix3 (0 : Fin 1) r j) = cc k r j) (r : Fin 1000) (j : Fin 128) :
    k0_pay23 (F := Ideal) (k0_pay17 av wv bfv) (k0_pay18 av wv) (k0_pay19 av wv bfv c0 c1 c2 c3) (k0_pay20 av wv bfv) c4 c5 c6 c7 c8 c9 biv (ix2 r j)
      = blkC a w bf bi cc r j := by
  rw [payC_apply]
  unfold dotAt blkC
  simp only [ha, hw, hbf, hbi, hc]

/-- The kernel's stored hidden state, likewise. -/
theorem payH_of (av : Vec Ideal S1000x1280 .bf16) (wv : Vec Ideal S1280x1664 .bf16) (biv : Vec Ideal S1x384 .f32) (vcv : FVec Ideal S1000x128 .f32)
    (a : Fin 1000 → Fin 1280 → EReal) (w : Fin 1280 → Fin 1664 → EReal) (bi : Fin 384 → EReal)
    (ha : ∀ r κ, av (ix2 r κ) = a r κ) (hw : ∀ κ c, wv (ix2 κ c) = w κ c) (hbi : ∀ c, biv (ix2 (0 : Fin 1) c) = bi c) (r : Fin 1000) (j : Fin 128) :
    k0_pay1 (F := Ideal) (k0_pay22 (k0_pay18 av wv) biv) vcv (ix2 r j) = blkH a w bi (vcv (ix2 r j)) r j := by
  rw [payH_apply]
  unfold dotAt blkH
  simp only [ha, hw, hbi]

section AtTheArrays

variable (mh mc : (⟨3, ![10000, 10, 128]⟩ : Shape).Idx → EReal) (Uf : (⟨2, ![1280, 1280]⟩ : Shape).Idx → EReal)
  (bfa : (⟨1, ![1280]⟩ : Shape).Idx → EReal) (Ui : (⟨2, ![384, 1280]⟩ : Shape).Idx → EReal) (bia : (⟨2, ![1, 384]⟩ : Shape).Idx → EReal)

/-- Node `1000 t + r`. -/
abbrev node (t : Fin 10) (r : Fin 1000) : Fin 10000 := ⟨1000 * t.val + r.val, by have := t.isLt; have := r.isLt; omega⟩

/-- The two weight matrices side by side: column `c < 1280` is column `c` of the forget weights, column `1280 + b` is
    row `b` of the input-output-update weights. -/
def wcat (κ : Fin 1280) (c : Fin 1664) : EReal :=
  if h : c.val < 1280 then Uf (ix2 κ ⟨c.val, h⟩) else Ui (ix2 (⟨c.val - 1280, by have := c.isLt; omega⟩ : Fin 384) κ)

/-- The forget gates' columns of the merged weights are the forget weights' columns. -/
theorem wcat_F (κ : Fin 1280) (k : Fin 10) (j : Fin 128) : wcat Uf Ui κ (mcolF k j) = Uf (ix2 κ (col k j)) := by
  unfold wcat
  rw [dif_pos (show (mcolF k j).val < 1280 by have := j.isLt; have := k.isLt; show 128 * k.val + j.val < 1280; omega)]

/-- Column `1280 + j` of the merged weights is row `j` of the input-output-update weights, -/
theorem wcat_I (κ : Fin 1280) (j : Fin 128) : wcat Uf Ui κ (mcolI j) = Ui (ix2 (colI j) κ) := by
  unfold wcat
  rw [dif_neg (show ¬(mcolI j).val < 1280 by show ¬(1280 + j.val < 1280); omega)]
  exact congrArg (fun c => Ui (ix2 c κ)) (Fin.ext (by show 1280 + j.val - 1280 = j.val; omega))

/-- column `1280 + 128 + j` is row `128 + j`, -/
theorem wcat_O (κ : Fin 1280) (j : Fin 128) : wcat Uf Ui κ (mcolO j) = Ui (ix2 (colO j) κ) := by
  unfold wcat
  rw [dif_neg (show ¬(mcolO j).val < 1280 by show ¬(1280 + 128 + j.val < 1280); omega)]
  exact congrArg (fun c => Ui (ix2 c κ)) (Fin.ext (by show 1280 + 128 + j.val - 1280 = 128 + j.val; omega))

/-- and column `1280 + 256 + j` is row `256 + j`. -/
theorem wcat_U (κ : Fin 1280) (j : Fin 128) : wcat Uf Ui κ (mcolU j) = Ui (ix2 (colU j) κ) := by
  unfold wcat
  rw [dif_neg (show ¬(mcolU j).val < 1280 by show ¬(1280 + 256 + j.val < 1280); omega)]
  exact congrArg (fun c => Ui (ix2 c κ)) (Fin.ext (by show 1280 + 256 + j.val - 1280 = 256 + j.val; omega))

/-- At the entries a block holds, its new cell state is the specification's at the block's node. -/
theorem blkC_eq (t : Fin 10) (r : Fin 1000) (j : Fin 128) :
    blkC (fun r κ => hcat mh (node t r) κ) (wcat Uf Ui) (fun c => bfa (ix1 c)) (fun c => bia (ix2 (0 : Fin 1) c))
        (fun k r j => mc (ix3 (node t r) k j)) r j
      = cellC mh mc Uf bfa Ui bia (ix2 (node t r) j) := by
  unfold blkC
  simp only [wcat_I, wcat_U, wcat_F]
  rfl

/-- and its new hidden state likewise. -/
theorem blkH_eq (t : Fin 10) (r : Fin 1000) (j : Fin 128) :
    blkH (fun r κ => hcat mh (node t r) κ) (wcat Uf Ui) (fun c => bia (ix2 (0 : Fin 1) c)) (cellC mh mc Uf bfa Ui bia (ix2 (node t r) j)) r j
      = cellH mh mc Uf bfa Ui bia (ix2 (node t r) j) := by
  unfold blkH
  simp only [wcat_O]
  rfl

end AtTheArrays

end Cert.KernelIdeal.CellBlock

end
-- ==== Proof.CellPieces.lean ====
/-
  The kernel's two scratch buffers read back at an index, at the ideal values.

  The body fills the children scratch (1000 × 1280) by ten stores of 128-column bands, band k at columns
  128 k .. 128 k + 127, and the weight scratch (1280 × 1664) by two stores side by side, columns 0 .. 1279 and
  1280 .. 1663. The bands are disjoint, so the contents the stores leave read, at column 128 k + j, band k's stored
  value at j: every store made after band k's misses that column, and band k's own store holds it. Each stored value
  is the loaded one: on the extended reals a change of float format is the identity, a shape cast to the same shape is
  the identity, and a slab [1, 1000, 128] cast to [1000, 128] reads (0, r, j) at (r, j). A load through the whole
  buffer reads the contents as they are. Last, slab k of a five-slab input block reads the block at (k, r, j).
-/
import proofs.«181788_g52183852646691_cont_8to1_c_618_27_alg».proof.Proof.Gen.KernelIdeal.Skeleton
import Idealize.ShloMosaic.Lib.Pipeline.FrameBody
import Idealize.ShloMosaic.Lib.Pipeline.Value
import Idealize.ShloMosaic.Lib.ValueIdx
import Idealize.ShloMosaic.Lib.ValueLayout

noncomputable section

namespace Cert.KernelIdeal.CellPieces

open Cert.KernelIdeal Cert.KernelIdeal.Gen Idealize.ShloMosaic Idealize.ShloMosaic.ValueIdx

/-! ## A column band stored into a matrix, read back at an index -/

section Band
variable {n0 n1 m : Nat} {e : EltTy}

/-- The last store wrote the band of columns `o .. o + m - 1`: at column `o + j` the buffer reads the stored value at `j`. -/
theorem canon_band_hit (o : Nat)
    (inb : ∀ a, (![0, o] : Fin 2 → Nat) a + (⟨2, ![n0, m]⟩ : Shape).size a ≤ (⟨2, ![n0, n1]⟩ : Shape).size a)
    (p : (⟨2, ![n0, m]⟩ : Shape).Idx → Elt Ideal e) (L : List (View.Piece (Elt Ideal) ⟨2, ![n0, n1]⟩ e))
    (r : Fin n0) (j : Fin m) (c : Fin n1) (hc : c.val = o + j.val) :
    View.canon ((⟨Rect.unit ![0, o] (⟨2, ![n0, m]⟩ : Shape).size inb, p⟩ : View.Piece (Elt Ideal) ⟨2, ![n0, n1]⟩ e) :: L) (ix2 r c)
      = p (ix2 r j) := by
  have hx : ix2 r c = (Rect.unit (s := ⟨2, ![n0, n1]⟩) ![0, o] (⟨2, ![n0, m]⟩ : Shape).size inb).emb (ix2 r j) :=
    funext fun ax => Fin.ext (by
      match ax with
      | ⟨0, _⟩ => show r.val = 0 + 1 * r.val; omega
      | ⟨1, _⟩ => show c.val = o + 1 * j.val; omega)
  rw [hx]
  exact View.canon_cons_emb (Rect.unit (s := ⟨2, ![n0, n1]⟩) ![0, o] (⟨2, ![n0, m]⟩ : Shape).size inb) p L (ix2 r j)

/-- A column outside the last store's band reads what the earlier stores left. -/
theorem canon_band_miss (o : Nat)
    (inb : ∀ a, (![0, o] : Fin 2 → Nat) a + (⟨2, ![n0, m]⟩ : Shape).size a ≤ (⟨2, ![n0, n1]⟩ : Shape).size a)
    (p : (⟨2, ![n0, m]⟩ : Shape).Idx → Elt Ideal e) (L : List (View.Piece (Elt Ideal) ⟨2, ![n0, n1]⟩ e))
    (r : Fin n0) (c : Fin n1) (hc : c.val < o ∨ o + m ≤ c.val) :
    View.canon ((⟨Rect.unit ![0, o] (⟨2, ![n0, m]⟩ : Shape).size inb, p⟩ : View.Piece (Elt Ideal) ⟨2, ![n0, n1]⟩ e) :: L) (ix2 r c)
      = View.canon L (ix2 r c) := by
  refine View.canon_cons_of_not_mem _ L fun hmem => ?_
  have h1 : o ≤ c.val ∧ c.val < o + m :=
    (Rect.mem_set_unit (s := ⟨2, ![n0, n1]⟩) (off := ![0, o]) (size := (⟨2, ![n0, m]⟩ : Shape).size) (inb := inb)
      (i := ix2 r c)).mp hmem 1
  omega

end Band

/-! ## The children scratch: ten bands of 128 columns -/

/-- The scratch the ten band stores leave (the last store first) reads, at row `r` and a column `c = 128 k + j`,
    band `k`'s stored value at `(r, j)`: every later store's band lies off that column, and band `k`'s own store
    holds it. -/
theorem bands_apply_of_eq
    (inb0 : ∀ a, (![0, 0] : Fin 2 → Nat) a + S1000x128.size a ≤ S1000x1280.size a)
    (inb1 : ∀ a, (![0, 128] : Fin 2 → Nat) a + S1000x128.size a ≤ S1000x1280.size a)
    (inb2 : ∀ a, (![0, 256] : Fin 2 → Nat) a + S1000x128.size a ≤ S1000x1280.size a)
    (inb3 : ∀ a, (![0, 384] : Fin 2 → Nat) a + S1000x128.size a ≤ S1000x1280.size a)
    (inb4 : ∀ a, (![0, 512] : Fin 2 → Nat) a + S1000x128.size a ≤ S1000x1280.size a)
    (inb5 : ∀ a, (![0, 640] : Fin 2 → Nat) a + S1000x128.size a ≤ S1000x1280.size a)
    (inb6 : ∀ a, (![0, 768] : Fin 2 → Nat) a + S1000x128.size a ≤ S1000x1280.size a)
    (inb7 : ∀ a, (![0, 896] : Fin 2 → Nat) a + S1000x128.size a ≤ S1000x1280.size a)
    (inb8 : ∀ a, (![0, 1024] : Fin 2 → Nat) a + S1000x128.size a ≤ S1000x1280.size a)
    (inb9 : ∀ a, (![0, 1152] : Fin 2 → Nat) a + S1000x128.size a ≤ S1000x1280.size a)
    (p0 p1 p2 p3 p4 p5 p6 p7 p8 p9 : FVec Ideal S1000x128 .bf16) (r : Fin 1000) (j : Fin 128)
    (c : Fin 1280) (k : Nat) (hk : k < 10) (hc : c.val = 128 * k + j.val) :
    View.canon ([⟨Rect.unit ![0, 1152] S1000x128.size inb9, p9⟩, ⟨Rect.unit ![0, 1024] S1000x128.size inb8, p8⟩,
        ⟨Rect.unit ![0, 896] S1000x128.size inb7, p7⟩, ⟨Rect.unit ![0, 768] S1000x128.size inb6, p6⟩,
        ⟨Rect.unit ![0, 640] S1000x128.size inb5, p5⟩, ⟨Rect.unit ![0, 512] S1000x128.size inb4, p4⟩,
        ⟨Rect.unit ![0, 384] S1000x128.size inb3, p3⟩, ⟨Rect.unit ![0, 256] S1000x128.size inb2, p2⟩,
        ⟨Rect.unit ![0, 128] S1000x128.size inb1, p1⟩, ⟨Rect.unit ![0, 0] S1000x128.size inb0, p0⟩] :
          List (View.Piece (Elt Ideal) S1000x1280 .bf16))
        (ix2 r c)
      = (![p0, p1, p2, p3, p4, p5, p6, p7, p8, p9] ⟨k, hk⟩) (ix2 r j) := by
  have hj := j.isLt
  interval_cases k <;>
    repeat (first
      | refine (canon_band_miss _ _ _ _ r c (by omega)).trans ?_
      | exact canon_band_hit _ _ _ _ r j c (by omega))

/-- The same with the column written out and the band a `Fin 10`. -/
theorem bands_apply
    (inb0 : ∀ a, (![0, 0] : Fin 2 → Nat) a + S1000x128.size a ≤ S1000x1280.size a)
    (inb1 : ∀ a, (![0, 128] : Fin 2 → Nat) a + S1000x128.size a ≤ S1000x1280.size a)
    (inb2 : ∀ a, (![0, 256] : Fin 2 → Nat) a + S1000x128.size a ≤ S1000x1280.size a)
    (inb3 : ∀ a, (![0, 384] : Fin 2 → Nat) a + S1000x128.size a ≤ S1000x1280.size a)
    (inb4 : ∀ a, (![0, 512] : Fin 2 → Nat) a + S1000x128.size a ≤ S1000x1280.size a)
    (inb5 : ∀ a, (![0, 640] : Fin 2 → Nat) a + S1000x128.size a ≤ S1000x1280.size a)
    (inb6 : ∀ a, (![0, 768] : Fin 2 → Nat) a + S1000x128.size a ≤ S1000x1280.size a)
    (inb7 : ∀ a, (![0, 896] : Fin 2 → Nat) a + S1000x128.size a ≤ S1000x1280.size a)
    (inb8 : ∀ a, (![0, 1024] : Fin 2 → Nat) a + S1000x128.size a ≤ S1000x1280.size a)
    (inb9 : ∀ a, (![0, 1152] : Fin 2 → Nat) a + S1000x128.size a ≤ S1000x1280.size a)
    (p0 p1 p2 p3 p4 p5 p6 p7 p8 p9 : FVec Ideal S1000x128 .bf16) (r : Fin 1000) (k : Fin 10) (j : Fin 128) :
    View.canon ([⟨Rect.unit ![0, 1152] S1000x128.size inb9, p9⟩, ⟨Rect.unit ![0, 1024] S1000x128.size inb8, p8⟩,
        ⟨Rect.unit ![0, 896] S1000x128.size inb7, p7⟩, ⟨Rect.unit ![0, 768] S1000x128.size inb6, p6⟩,
        ⟨Rect.unit ![0, 640] S1000x128.size inb5, p5⟩, ⟨Rect.unit ![0, 512] S1000x128.size inb4, p4⟩,
        ⟨Rect.unit ![0, 384] S1000x128.size inb3, p3⟩, ⟨Rect.unit ![0, 256] S1000x128.size inb2, p2⟩,
        ⟨Rect.unit ![0, 128] S1000x128.size inb1, p1⟩, ⟨Rect.unit ![0, 0] S1000x128.size inb0, p0⟩] :
          List (View.Piece (Elt Ideal) S1000x1280 .bf16))
        (ix2 r ⟨128 * k.val + j.val, by have := k.isLt; have := j.isLt; omega⟩)
      = (![p0, p1, p2, p3, p4, p5, p6, p7, p8, p9] k) (ix2 r j) :=
  bands_apply_of_eq inb0 inb1 inb2 inb3 inb4 inb5 inb6 inb7 inb8 inb9 p0 p1 p2 p3 p4 p5 p6 p7 p8 p9 r j _ k.val k.isLt rfl

/-! ## The weight scratch: two matrices side by side -/

/-- Columns `0 .. 1279` of the weight scratch hold the first matrix: the later store's band starts at column 1280. -/
theorem weights_apply_left
    (inbA : ∀ a, (![0, 0] : Fin 2 → Nat) a + S1280x1280.size a ≤ S1280x1664.size a)
    (inbB : ∀ a, (![0, 1280] : Fin 2 → Nat) a + S1280x384.size a ≤ S1280x1664.size a)
    (q0 : FVec Ideal S1280x1280 .bf16) (q1 : FVec Ideal S1280x384 .bf16) (κ : Fin 1280) (b : Fin 1280) :
    View.canon ([⟨Rect.unit ![0, 1280] S1280x384.size inbB, q1⟩, ⟨Rect.unit ![0, 0] S1280x1280.size inbA, q0⟩] :
          List (View.Piece (Elt Ideal) S1280x1664 .bf16))
        (ix2 κ ⟨b.val, by have := b.isLt; omega⟩)
      = q0 (ix2 κ b) := by
  have hb := b.isLt
  refine (canon_band_miss _ _ _ _ κ _ (by show (b.val : Nat) < 1280 ∨ _; omega)).trans ?_
  exact canon_band_hit _ _ _ _ κ b _ (by show (b.val : Nat) = 0 + b.val; omega)

/-- Columns `1280 .. 1663` hold the second matrix. -/
theorem weights_apply_right
    (inbA : ∀ a, (![0, 0] : Fin 2 → Nat) a + S1280x1280.size a ≤ S1280x1664.size a)
    (inbB : ∀ a, (![0, 1280] : Fin 2 → Nat) a + S1280x384.size a ≤ S1280x1664.size a)
    (q0 : FVec Ideal S1280x1280 .bf16) (q1 : FVec Ideal S1280x384 .bf16) (κ : Fin 1280) (b : Fin 384) :
    View.canon ([⟨Rect.unit ![0, 1280] S1280x384.size inbB, q1⟩, ⟨Rect.unit ![0, 0] S1280x1280.size inbA, q0⟩] :
          List (View.Piece (Elt Ideal) S1280x1664 .bf16))
        (ix2 κ ⟨1280 + b.val, by have := b.isLt; omega⟩)
      = q1 (ix2 κ b) :=
  canon_band_hit _ _ _ _ κ b _ rfl

/-! ## The stored payloads are the loaded values

On the extended reals a change of float format is the identity, and a shape cast to the same shape is the identity; a
slab `[1, 1000, 128]` cast to `[1000, 128]` reads `(0, r, j)` at `(r, j)`. -/

/-- A slab with its unit axis dropped, narrowed, and cast to its own shape, read at `(r, j)`. -/
theorem slabPayload_apply (s : Vec Ideal S1x1000x128 .f32) (h1 : S1x1000x128.ShapeCasts S1000x128)
    (h2 : FTy.bits .bf16 < FTy.bits .f32) (h3 : S1000x128.ShapeCasts S1000x128) (r : Fin 1000) (j : Fin 128) :
    shapeCast S1000x128 (truncf (F := Ideal) .bf16 (shapeCast S1000x128 s h1 : FVec Ideal S1000x128 .f32) h2) h3 (ix2 r j)
      = s (ix3 (0 : Fin 1) r j) := by
  rw [shapeCast_self, truncf_apply]
  exact shapeCast_1ab_ab_apply s h1 r j

theorem pay4_apply (s : Vec Ideal S1x1000x128 .f32) (r : Fin 1000) (j : Fin 128) :
    k0_pay4 (F := Ideal) s (ix2 r j) = s (ix3 (0 : Fin 1) r j) := slabPayload_apply s _ _ _ r j
theorem pay5_apply (s : Vec Ideal S1x1000x128 .f32) (r : Fin 1000) (j : Fin 128) :
    k0_pay5 (F := Ideal) s (ix2 r j) = s (ix3 (0 : Fin 1) r j) := slabPayload_apply s _ _ _ r j
theorem pay6_apply (s : Vec Ideal S1x1000x128 .f32) (r : Fin 1000) (j : Fin 128) :
    k0_pay6 (F := Ideal) s (ix2 r j) = s (ix3 (0 : Fin 1) r j) := slabPayload_apply s _ _ _ r j
theorem pay7_apply (s : Vec Ideal S1x1000x128 .f32) (r : Fin 1000) (j : Fin 128) :
    k0_pay7 (F := Ideal) s (ix2 r j) = s (ix3 (0 : Fin 1) r j) := slabPayload_apply s _ _ _ r j
theorem pay9_apply (s : Vec Ideal S1x1000x128 .f32) (r : Fin 1000) (j : Fin 128) :
    k0_pay9 (F := Ideal) (k0_pay8 s) (ix2 r j) = s (ix3 (0 : Fin 1) r j) := slabPayload_apply s _ _ _ r j
theorem pay10_apply (s : Vec Ideal S1x1000x128 .f32) (r : Fin 1000) (j : Fin 128) :
    k0_pay10 (F := Ideal) s (ix2 r j) = s (ix3 (0 : Fin 1) r j) := slabPayload_apply s _ _ _ r j
theorem pay11_apply (s : Vec Ideal S1x1000x128 .f32) (r : Fin 1000) (j : Fin 128) :
    k0_pay11 (F := Ideal) s (ix2 r j) = s (ix3 (0 : Fin 1) r j) := slabPayload_apply s _ _ _ r j
theorem pay12_apply (s : Vec Ideal S1x1000x128 .f32) (r : Fin 1000) (j : Fin 128) :
    k0_pay12 (F := Ideal) s (ix2 r j) = s (ix3 (0 : Fin 1) r j) := slabPayload_apply s _ _ _ r j
theorem pay13_apply (s : Vec Ideal S1x1000x128 .f32) (r : Fin 1000) (j : Fin 128) :
    k0_pay13 (F := Ideal) s (ix2 r j) = s (ix3 (0 : Fin 1) r j) := slabPayload_apply s _ _ _ r j
theorem pay15_apply (s : Vec Ideal S1x1000x128 .f32) (r : Fin 1000) (j : Fin 128) :
    k0_pay15 (F := Ideal) (k0_pay14 s) (ix2 r j) = s (ix3 (0 : Fin 1) r j) := slabPayload_apply s _ _ _ r j

/-- The first weight matrix, narrowed and cast to its own shape. -/
theorem pay2_apply (x : Vec Ideal S1280x1280 .f32) (a b : Fin 1280) :
    k0_pay2 (F := Ideal) x (ix2 a b) = x (ix2 a b) := by
  unfold k0_pay2
  show shapeCast S1280x1280 (truncf (F := Ideal) .bf16 x bitsLt_bf16_f32) shapeCasts_S1280x1280_S1280x1280 (ix2 a b) = _
  rw [shapeCast_self, truncf_apply]

/-- The second weight matrix, cast to its own shape, narrowed, and cast again. -/
theorem pay3_apply (x : Vec Ideal S1280x384 .f32) (a : Fin 1280) (b : Fin 384) :
    k0_pay3 (F := Ideal) x (ix2 a b) = x (ix2 a b) := by
  unfold k0_pay3
  show shapeCast S1280x384 (truncf (F := Ideal) .bf16 (shapeCast S1280x384 x shapeCasts_S1280x384_S1280x384 : FVec Ideal S1280x384 .f32)
      bitsLt_bf16_f32) shapeCasts_S1280x384_S1280x384 (ix2 a b) = _
  rw [shapeCast_self, truncf_apply, shapeCast_self]

/-! ## A slab of an input block -/

/-- Slab `k` of a five-slab block, loaded whole, reads the block at `(k, r, j)`. -/
theorem ld_slab (x : Vec Ideal S5x1000x128 .f32) (k : Nat) (hk : k < 5)
    (inb : ∀ a, (![k, 0, 0] : Fin 3 → Nat) a + S1x1000x128.size a ≤ S5x1000x128.size a) (r : Fin 1000) (j : Fin 128) :
    View.ld x (Rect.unit ![k, 0, 0] S1x1000x128.size inb) (ix3 (0 : Fin 1) r j) = x (ix3 ⟨k, hk⟩ r j) := by
  show x ((Rect.unit (s := S5x1000x128) ![k, 0, 0] S1x1000x128.size inb).idx (ix3 (0 : Fin 1) r j)) = _
  refine congrArg x (funext fun ax => Fin.ext ?_)
  match ax with
  | ⟨0, _⟩ => show k + 1 * 0 = k; omega
  | ⟨1, _⟩ => show 0 + 1 * r.val = r.val; omega
  | ⟨2, _⟩ => show 0 + 1 * j.val = j.val; omega

/-! ## The two scratch buffers read back whole, in the loaded values -/

/-- The offsets `(0, 0)` are the zero offsets. -/
theorem zeros2 : (![0, 0] : Fin 2 → Nat) = fun _ => 0 :=
  funext fun ax => match ax with | ⟨0, _⟩ => rfl | ⟨1, _⟩ => rfl

/-- Two families of ten functions that agree member by member, each at its own argument, agree at every member. -/
theorem vec10_congr {α β γ : Type} (f0 f1 f2 f3 f4 f5 f6 f7 f8 f9 : α → γ) (g0 g1 g2 g3 g4 g5 g6 g7 g8 g9 : β → γ)
    (x : α) (y : β) (h0 : f0 x = g0 y) (h1 : f1 x = g1 y) (h2 : f2 x = g2 y) (h3 : f3 x = g3 y) (h4 : f4 x = g4 y)
    (h5 : f5 x = g5 y) (h6 : f6 x = g6 y) (h7 : f7 x = g7 y) (h8 : f8 x = g8 y) (h9 : f9 x = g9 y) (k : Fin 10) :
    (![f0, f1, f2, f3, f4, f5, f6, f7, f8, f9] k) x = (![g0, g1, g2, g3, g4, g5, g6, g7, g8, g9] k) y := by
  obtain ⟨k, hk⟩ := k
  interval_cases k
  exacts [h0, h1, h2, h3, h4, h5, h6, h7, h8, h9]

/-- The children scratch after the ten band stores, loaded whole: at row `r` and column `128 k + j` it holds child
    `k`'s slab at `(0, r, j)`. -/
theorem bands_read {sg : RefSig} {κ : Kind} {sp : Space} (v : View sg κ sp S1000x1280 .bf16)
    (s0 s1 s2 s3 s4 s5 s6 s7 s8 s9 : Vec Ideal S1x1000x128 .f32)
    (inb0 : ∀ a, (![0, 0] : Fin 2 → Nat) a + S1000x128.size a ≤ S1000x1280.size a)
    (inb1 : ∀ a, (![0, 128] : Fin 2 → Nat) a + S1000x128.size a ≤ S1000x1280.size a)
    (inb2 : ∀ a, (![0, 256] : Fin 2 → Nat) a + S1000x128.size a ≤ S1000x1280.size a)
    (inb3 : ∀ a, (![0, 384] : Fin 2 → Nat) a + S1000x128.size a ≤ S1000x1280.size a)
    (inb4 : ∀ a, (![0, 512] : Fin 2 → Nat) a + S1000x128.size a ≤ S1000x1280.size a)
    (inb5 : ∀ a, (![0, 640] : Fin 2 → Nat) a + S1000x128.size a ≤ S1000x1280.size a)
    (inb6 : ∀ a, (![0, 768] : Fin 2 → Nat) a + S1000x128.size a ≤ S1000x1280.size a)
    (inb7 : ∀ a, (![0, 896] : Fin 2 → Nat) a + S1000x128.size a ≤ S1000x1280.size a)
    (inb8 : ∀ a, (![0, 1024] : Fin 2 → Nat) a + S1000x128.size a ≤ S1000x1280.size a)
    (inb9 : ∀ a, (![0, 1152] : Fin 2 → Nat) a + S1000x128.size a ≤ S1000x1280.size a)
    (inbW : ∀ a, (![0, 0] : Fin 2 → Nat) a + S1000x1280.size a ≤ S1000x1280.size a)
    (r : Fin 1000) (k : Fin 10) (j : Fin 128) :
    v.readCov ([⟨Rect.unit ![0, 1152] S1000x128.size inb9, k0_pay15 (F := Ideal) (k0_pay14 s9)⟩,
        ⟨Rect.unit ![0, 1024] S1000x128.size inb8, k0_pay13 (F := Ideal) s8⟩,
        ⟨Rect.unit ![0, 896] S1000x128.size inb7, k0_pay12 (F := Ideal) s7⟩,
        ⟨Rect.unit ![0, 768] S1000x128.size inb6, k0_pay11 (F := Ideal) s6⟩,
        ⟨Rect.unit ![0, 640] S1000x128.size inb5, k0_pay10 (F := Ideal) s5⟩,
        ⟨Rect.unit ![0, 512] S1000x128.size inb4, k0_pay9 (F := Ideal) (k0_pay8 s4)⟩,
        ⟨Rect.unit ![0, 384] S1000x128.size inb3, k0_pay7 (F := Ideal) s3⟩,
        ⟨Rect.unit ![0, 256] S1000x128.size inb2, k0_pay6 (F := Ideal) s2⟩,
        ⟨Rect.unit ![0, 128] S1000x128.size inb1, k0_pay5 (F := Ideal) s1⟩,
        ⟨Rect.unit ![0, 0] S1000x128.size inb0, k0_pay4 (F := Ideal) s0⟩] :
          List (View.Piece (Elt Ideal) S1000x1280 .bf16))
        (Rect.unit ![0, 0] S1000x1280.size inbW).toLoadRect
        (ix2 r ⟨128 * k.val + j.val, by have := k.isLt; have := j.isLt; omega⟩)
      = (![s0, s1, s2, s3, s4, s5, s6, s7, s8, s9] k) (ix3 (0 : Fin 1) r j) := by
  rw [View.readCov_eq_canon']
  show View.ld (View.canon _) (Rect.unit ![0, 0] S1000x1280.size inbW) (ix2 r _) = _
  rw [View.ld_unit_zero zeros2 inbW, bands_apply]
  exact vec10_congr _ _ _ _ _ _ _ _ _ _ _ _ _ _ _ _ _ _ _ _ _ _ (pay4_apply s0 r j) (pay5_apply s1 r j) (pay6_apply s2 r j)
    (pay7_apply s3 r j) (pay9_apply s4 r j) (pay10_apply s5 r j) (pay11_apply s6 r j) (pay12_apply s7 r j)
    (pay13_apply s8 r j) (pay15_apply s9 r j) k

/-- The weight scratch after its two stores holds the first loaded matrix in columns `0 .. 1279` … -/
theorem wcat_canon_left (y4 : Vec Ideal S1280x1280 .f32) (y6 : Vec Ideal S1280x384 .f32)
    (inbA : ∀ a, (![0, 0] : Fin 2 → Nat) a + S1280x1280.size a ≤ S1280x1664.size a)
    (inbB : ∀ a, (![0, 1280] : Fin 2 → Nat) a + S1280x384.size a ≤ S1280x1664.size a) (κ : Fin 1280) (b : Fin 1280) :
    View.canon ([⟨Rect.unit ![0, 1280] S1280x384.size inbB, k0_pay3 (F := Ideal) y6⟩,
        ⟨Rect.unit ![0, 0] S1280x1280.size inbA, k0_pay2 (F := Ideal) y4⟩] : List (View.Piece (Elt Ideal) S1280x1664 .bf16))
        (ix2 κ ⟨b.val, by have := b.isLt; omega⟩)
      = y4 (ix2 κ b) := by
  rw [weights_apply_left, pay2_apply]

/-- … and the second in columns `1280 .. 1663`. -/
theorem wcat_canon_right (y4 : Vec Ideal S1280x1280 .f32) (y6 : Vec Ideal S1280x384 .f32)
    (inbA : ∀ a, (![0, 0] : Fin 2 → Nat) a + S1280x1280.size a ≤ S1280x1664.size a)
    (inbB : ∀ a, (![0, 1280] : Fin 2 → Nat) a + S1280x384.size a ≤ S1280x1664.size a) (κ : Fin 1280) (b : Fin 384) :
    View.canon ([⟨Rect.unit ![0, 1280] S1280x384.size inbB, k0_pay3 (F := Ideal) y6⟩,
        ⟨Rect.unit ![0, 0] S1280x1280.size inbA, k0_pay2 (F := Ideal) y4⟩] : List (View.Piece (Elt Ideal) S1280x1664 .bf16))
        (ix2 κ ⟨1280 + b.val, by have := b.isLt; omega⟩)
      = y6 (ix2 κ b) := by
  rw [weights_apply_right, pay3_apply]

/-- The same two through a whole load after the stores. -/
theorem wcat_read_left {sg : RefSig} {κ' : Kind} {sp : Space} (v : View sg κ' sp S1280x1664 .bf16)
    (y4 : Vec Ideal S1280x1280 .f32) (y6 : Vec Ideal S1280x384 .f32)
    (inbA : ∀ a, (![0, 0] : Fin 2 → Nat) a + S1280x1280.size a ≤ S1280x1664.size a)
    (inbB : ∀ a, (![0, 1280] : Fin 2 → Nat) a + S1280x384.size a ≤ S1280x1664.size a)
    (inbW : ∀ a, (![0, 0] : Fin 2 → Nat) a + S1280x1664.size a ≤ S1280x1664.size a) (κ : Fin 1280) (b : Fin 1280) :
    v.readCov ([⟨Rect.unit ![0, 1280] S1280x384.size inbB, k0_pay3 (F := Ideal) y6⟩,
        ⟨Rect.unit ![0, 0] S1280x1280.size inbA, k0_pay2 (F := Ideal) y4⟩] : List (View.Piece (Elt Ideal) S1280x1664 .bf16))
        (Rect.unit ![0, 0] S1280x1664.size inbW).toLoadRect (ix2 κ ⟨b.val, by have := b.isLt; omega⟩)
      = y4 (ix2 κ b) := by
  rw [View.readCov_eq_canon']
  show View.ld (View.canon _) (Rect.unit ![0, 0] S1280x1664.size inbW) (ix2 κ _) = _
  rw [View.ld_unit_zero zeros2 inbW, wcat_canon_left]

theorem wcat_read_right {sg : RefSig} {κ' : Kind} {sp : Space} (v : View sg κ' sp S1280x1664 .bf16)
    (y4 : Vec Ideal S1280x1280 .f32) (y6 : Vec Ideal S1280x384 .f32)
    (inbA : ∀ a, (![0, 0] : Fin 2 → Nat) a + S1280x1280.size a ≤ S1280x1664.size a)
    (inbB : ∀ a, (![0, 1280] : Fin 2 → Nat) a + S1280x384.size a ≤ S1280x1664.size a)
    (inbW : ∀ a, (![0, 0] : Fin 2 → Nat) a + S1280x1664.size a ≤ S1280x1664.size a) (κ : Fin 1280) (b : Fin 384) :
    v.readCov ([⟨Rect.unit ![0, 1280] S1280x384.size inbB, k0_pay3 (F := Ideal) y6⟩,
        ⟨Rect.unit ![0, 0] S1280x1280.size inbA, k0_pay2 (F := Ideal) y4⟩] : List (View.Piece (Elt Ideal) S1280x1664 .bf16))
        (Rect.unit ![0, 0] S1280x1664.size inbW).toLoadRect (ix2 κ ⟨1280 + b.val, by have := b.isLt; omega⟩)
      = y6 (ix2 κ b) := by
  rw [View.readCov_eq_canon']
  show View.ld (View.canon _) (Rect.unit ![0, 0] S1280x1664.size inbW) (ix2 κ _) = _
  rw [View.ld_unit_zero zeros2 inbW, wcat_canon_right]

end Cert.KernelIdeal.CellPieces

end
-- ==== Proof.IdealValue.lean ====
/-
  The kernel's value at the ideal instance: what each grid point leaves in the two output buffers, entry by
  entry, is the specification's new cell state and new hidden state of the point's nodes. Row `r` of point `t`'s
  block is node `1000 t + r`: the children scratch read back is that node's children laid side by side, the weight
  scratch the two weight matrices side by side, so the stored values are one block of the cell at those entries.
-/
import proofs.«181788_g52183852646691_cont_8to1_c_618_27_alg».proof.Proof.IdealFrame
import proofs.«181788_g52183852646691_cont_8to1_c_618_27_alg».proof.Proof.IdealBlocks
import proofs.«181788_g52183852646691_cont_8to1_c_618_27_alg».proof.Proof.CellBlock
import proofs.«181788_g52183852646691_cont_8to1_c_618_27_alg».proof.Proof.CellPieces

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.CellPayload Cert.KernelIdeal.CellBlock Cert.CellSpec
open Idealize.ShloMosaic.ValueIdx

variable (m : (ℓ : Loc nD τ sig) → Buf (Elt Ideal) ℓ)

/-- The six argument arrays on core `c`, as functions into the extended reals. -/
abbrev aH (c : Dev nD) : (⟨3, ![10000, 10, 128]⟩ : Shape).Idx → EReal := m ((c : Thread nD τ).loc main_arg0)
abbrev aC (c : Dev nD) : (⟨3, ![10000, 10, 128]⟩ : Shape).Idx → EReal := m ((c : Thread nD τ).loc main_arg1)
abbrev aUf (c : Dev nD) : (⟨2, ![1280, 1280]⟩ : Shape).Idx → EReal := m ((c : Thread nD τ).loc main_arg2)
abbrev aBf (c : Dev nD) : (⟨1, ![1280]⟩ : Shape).Idx → EReal := m ((c : Thread nD τ).loc main_arg3)
abbrev aUi (c : Dev nD) : (⟨2, ![384, 1280]⟩ : Shape).Idx → EReal := m ((c : Thread nD τ).loc main_arg4)
abbrev aBi (c : Dev nD) : (⟨2, ![1, 384]⟩ : Shape).Idx → EReal := m ((c : Thread nD τ).loc main_arg5)

/-- Node `1000 t + r`: row `r` of point `t`'s block. -/
abbrev nodeAt (t : Fin cfg0.N) (r : Fin 1000) : Fin 10000 := ⟨1000 * t.val + r.val, by have := t_lt t; have := r.isLt; omega⟩

open Cert.KernelIdeal.CellPieces

theorem hz2 : (![0, 0] : Fin 2 → ℕ) = fun _ => 0 := funext fun a => by fin_cases a <;> rfl

/-- A property of each of ten things holds of all. -/
theorem forall_fin10 {P : Fin 10 → Prop} (h0 : P 0) (h1 : P 1) (h2 : P 2) (h3 : P 3) (h4 : P 4) (h5 : P 5) (h6 : P 6) (h7 : P 7) (h8 : P 8) (h9 : P 9) : ∀ k, P k := by
  intro k; fin_cases k <;> assumption

/-- A flattened column is its child's band and its feature. -/
theorem col_child_feat (κ : Fin 1280) : col (childOf κ) (featOf κ) = κ := Fin.ext (Nat.div_add_mod κ.val 128)

/-- The flattened children at a band's column are that child's states. -/
theorem hcat_col (mh : (⟨3, ![10000, 10, 128]⟩ : Shape).Idx → EReal) (n : Fin 10000) (k : Fin 10) (j : Fin 128) :
    hcat mh n (col k j) = mh (ix3 n k j) := by
  unfold hcat
  have hk : childOf (col k j) = k := Fin.ext (by show (128 * k.val + j.val) / 128 = k.val; have := j.isLt; omega)
  have hj : featOf (col k j) = j := Fin.ext (by show (128 * k.val + j.val) % 128 = j.val; have := j.isLt; omega)
  rw [hk, hj]

/-- One child's slab of a block, loaded through its whole memref. -/
theorem slabRead (arg : Memref sig .tc .vmem S5x1000x128 .f32) (harg : arg.IsWhole) (x : Vec Ideal S5x1000x128 .f32) (k : Nat) (hk : k < 5)
    (inb : ∀ a, ![k, 0, 0] a + S1x1000x128.size a ≤ S5x1000x128.size a) (r : Fin 1000) (j : Fin 128) :
    View.readAt (Elt Ideal) arg.view (Rect.unit (s := S5x1000x128) ![k, 0, 0] S1x1000x128.size inb).toLoadRect (harg.unread x) (ix3 (0 : Fin 1) r j) = x (ix3 ⟨k, hk⟩ r j) := by
  rw [View.readAt_eq_ld, harg.read_unread]
  exact ld_slab x k hk inb r j

/-! ## The found pieces, read back -/

set_option maxHeartbeats 4000000 in
/-- What the later run's cell-state pieces read back as, entry by entry: one block of the cell, for blocks known entry by entry. -/
theorem restC_apply (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i) (x0 x1 x2 x3 : Vec Ideal S5x1000x128 .f32) (x4 : Vec Ideal S1280x1280 .f32) (x5 : Vec Ideal S1x1280 .f32) (x6 : Vec Ideal S1280x384 .f32) (x7 : Vec Ideal S1x384 .f32) (xw : Vec Ideal S1280x1664 .bf16)
    (a : Fin 1000 → Fin 1280 → EReal) (w : Fin 1280 → Fin 1664 → EReal) (bf : Fin 1280 → EReal) (bi : Fin 384 → EReal) (cc : Fin 10 → Fin 1000 → Fin 128 → EReal)
    (hlo : ∀ (k : Fin 5) (r : Fin 1000) (j : Fin 128), x0 (ix3 k r j) = a r (col ⟨k.val, by have := k.isLt; omega⟩ j)) (hhi : ∀ (k : Fin 5) (r : Fin 1000) (j : Fin 128), x1 (ix3 k r j) = a r (col ⟨5 + k.val, by have := k.isLt; omega⟩ j))
    (hbf : ∀ c', x5 (ix2 (0 : Fin 1) c') = bf c') (hbi : ∀ c', x7 (ix2 (0 : Fin 1) c') = bi c')
    (hclo : ∀ (k : Fin 5) (r : Fin 1000) (j : Fin 128), x2 (ix3 k r j) = cc ⟨k.val, by have := k.isLt; omega⟩ r j) (hchi : ∀ (k : Fin 5) (r : Fin 1000) (j : Fin 128), x3 (ix3 k r j) = cc ⟨5 + k.val, by have := k.isLt; omega⟩ r j)
    (hw : ∀ κ c', xw (ix2 κ c') = w κ c') (r : Fin 1000) (j : Fin 128) :
    VO9.read (Elt Ideal) (VO9.writes (Elt Ideal) VO9.junk (runRest (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw).2.1) (ix2 r j)
      = blkC a w bf bi cc r j := by
  rw [View.read_writes_eq_canon _ _ _ (cover9_rest c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw)]
  unfold runRest
  dsimp only
  sl_unfold_words
  refine (congrFun (View.canon_unit_zero (S := S1000x128) hz2 _ _) (ix2 r j)).trans ?_
  refine payC_of _ _ _ _ _ _ _ _ _ _ _ _ _ _ a w bf bi cc ?ha ?hw ?hbf ?hbi ?hcc r j
  case ha =>
    intro r κ
    obtain ⟨k, j, rfl⟩ : ∃ (k : Fin 10) (j : Fin 128), κ = col k j := ⟨childOf κ, featOf κ, (col_child_feat κ).symm⟩
    refine (bands_read _ _ _ _ _ _ _ _ _ _ _ _ _ _ _ _ _ _ _ _ _ _ r k j).trans ?_
    revert j; revert k
    refine forall_fin10 ?_ ?_ ?_ ?_ ?_ ?_ ?_ ?_ ?_ ?_
    · exact fun j => (slabRead _ harg1 x0 0 (by decide) _ r j).trans (hlo 0 r j)
    · exact fun j => (slabRead _ harg1 x0 1 (by decide) _ r j).trans (hlo 1 r j)
    · exact fun j => (slabRead _ harg1 x0 2 (by decide) _ r j).trans (hlo 2 r j)
    · exact fun j => (slabRead _ harg1 x0 3 (by decide) _ r j).trans (hlo 3 r j)
    · exact fun j => (slabRead _ harg1 x0 4 (by decide) _ r j).trans (hlo 4 r j)
    · exact fun j => (slabRead _ harg2 x1 0 (by decide) _ r j).trans (hhi 0 r j)
    · exact fun j => (slabRead _ harg2 x1 1 (by decide) _ r j).trans (hhi 1 r j)
    · exact fun j => (slabRead _ harg2 x1 2 (by decide) _ r j).trans (hhi 2 r j)
    · exact fun j => (slabRead _ harg2 x1 3 (by decide) _ r j).trans (hhi 3 r j)
    · exact fun j => (slabRead _ harg2 x1 4 (by decide) _ r j).trans (hhi 4 r j)
  case hw =>
    intro κ c'
    rw [View.readAt_eq_ld, harg12.read_unread, View.ld_unit_zero (S := S1280x1664) hz2]
    exact hw κ c'
  case hbf =>
    intro c'
    rw [View.readAt_eq_ld, harg6.read_unread, View.ld_unit_zero (S := S1x1280) hz2]
    exact hbf c'
  case hbi =>
    intro c'
    rw [View.readAt_eq_ld, harg8.read_unread, View.ld_unit_zero (S := S1x384) hz2]
    exact hbi c'
  case hcc =>
    refine forall_fin10 ?_ ?_ ?_ ?_ ?_ ?_ ?_ ?_ ?_ ?_
    · exact fun r j => (slabRead _ harg3 x2 0 (by decide) _ r j).trans (hclo 0 r j)
    · exact fun r j => (slabRead _ harg3 x2 1 (by decide) _ r j).trans (hclo 1 r j)
    · exact fun r j => (slabRead _ harg3 x2 2 (by decide) _ r j).trans (hclo 2 r j)
    · exact fun r j => (slabRead _ harg3 x2 3 (by decide) _ r j).trans (hclo 3 r j)
    · exact fun r j => (slabRead _ harg3 x2 4 (by decide) _ r j).trans (hclo 4 r j)
    · exact fun r j => (slabRead _ harg4 x3 0 (by decide) _ r j).trans (hchi 0 r j)
    · exact fun r j => (slabRead _ harg4 x3 1 (by decide) _ r j).trans (hchi 1 r j)
    · exact fun r j => (slabRead _ harg4 x3 2 (by decide) _ r j).trans (hchi 2 r j)
    · exact fun r j => (slabRead _ harg4 x3 3 (by decide) _ r j).trans (hchi 3 r j)
    · exact fun r j => (slabRead _ harg4 x3 4 (by decide) _ r j).trans (hchi 4 r j)

set_option maxHeartbeats 4000000 in
/-- What the later run's hidden-state pieces read back as, entry by entry: one block of the cell, for blocks known entry by entry. -/
theorem restH_apply (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : ¬isFirst i) (x0 x1 x2 x3 : Vec Ideal S5x1000x128 .f32) (x4 : Vec Ideal S1280x1280 .f32) (x5 : Vec Ideal S1x1280 .f32) (x6 : Vec Ideal S1280x384 .f32) (x7 : Vec Ideal S1x384 .f32) (xw : Vec Ideal S1280x1664 .bf16)
    (a : Fin 1000 → Fin 1280 → EReal) (w : Fin 1280 → Fin 1664 → EReal) (bf : Fin 1280 → EReal) (bi : Fin 384 → EReal) (cc : Fin 10 → Fin 1000 → Fin 128 → EReal)
    (hlo : ∀ (k : Fin 5) (r : Fin 1000) (j : Fin 128), x0 (ix3 k r j) = a r (col ⟨k.val, by have := k.isLt; omega⟩ j)) (hhi : ∀ (k : Fin 5) (r : Fin 1000) (j : Fin 128), x1 (ix3 k r j) = a r (col ⟨5 + k.val, by have := k.isLt; omega⟩ j))
    (hbf : ∀ c', x5 (ix2 (0 : Fin 1) c') = bf c') (hbi : ∀ c', x7 (ix2 (0 : Fin 1) c') = bi c')
    (hclo : ∀ (k : Fin 5) (r : Fin 1000) (j : Fin 128), x2 (ix3 k r j) = cc ⟨k.val, by have := k.isLt; omega⟩ r j) (hchi : ∀ (k : Fin 5) (r : Fin 1000) (j : Fin 128), x3 (ix3 k r j) = cc ⟨5 + k.val, by have := k.isLt; omega⟩ r j)
    (hw : ∀ κ c', xw (ix2 κ c') = w κ c') (r : Fin 1000) (j : Fin 128) :
    VO8.read (Elt Ideal) (VO8.writes (Elt Ideal) VO8.junk (runRest (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw).1) (ix2 r j)
      = blkH a w bi (blkC a w bf bi cc r j) r j := by
  rw [View.read_writes_eq_canon _ _ _ (cover8_rest c i arg1 harg1 arg2 harg2 arg3 harg3 arg4 harg4 arg5 harg5 arg6 harg6 arg7 harg7 arg8 harg8 arg9 harg9 arg10 harg10 arg11 harg11 arg12 harg12 hc x0 x1 x2 x3 x4 x5 x6 x7 xw)]
  unfold runRest
  dsimp only
  sl_unfold_words
  refine (congrFun (View.canon_unit_zero (S := S1000x128) hz2 _ _) (ix2 r j)).trans ?_
  refine (payH_of _ _ _ _ a w bi ?ha ?hw ?hbi r j).trans (congrArg (fun v => blkH a w bi v r j) ?_)
  case ha =>
    intro r κ
    obtain ⟨k, j, rfl⟩ : ∃ (k : Fin 10) (j : Fin 128), κ = col k j := ⟨childOf κ, featOf κ, (col_child_feat κ).symm⟩
    refine (bands_read _ _ _ _ _ _ _ _ _ _ _ _ _ _ _ _ _ _ _ _ _ _ r k j).trans ?_
    revert j; revert k
    refine forall_fin10 ?_ ?_ ?_ ?_ ?_ ?_ ?_ ?_ ?_ ?_
    · exact fun j => (slabRead _ harg1 x0 0 (by decide) _ r j).trans (hlo 0 r j)
    · exact fun j => (slabRead _ harg1 x0 1 (by decide) _ r j).trans (hlo 1 r j)
    · exact fun j => (slabRead _ harg1 x0 2 (by decide) _ r j).trans (hlo 2 r j)
    · exact fun j => (slabRead _ harg1 x0 3 (by decide) _ r j).trans (hlo 3 r j)
    · exact fun j => (slabRead _ harg1 x0 4 (by decide) _ r j).trans (hlo 4 r j)
    · exact fun j => (slabRead _ harg2 x1 0 (by decide) _ r j).trans (hhi 0 r j)
    · exact fun j => (slabRead _ harg2 x1 1 (by decide) _ r j).trans (hhi 1 r j)
    · exact fun j => (slabRead _ harg2 x1 2 (by decide) _ r j).trans (hhi 2 r j)
    · exact fun j => (slabRead _ harg2 x1 3 (by decide) _ r j).trans (hhi 3 r j)
    · exact fun j => (slabRead _ harg2 x1 4 (by decide) _ r j).trans (hhi 4 r j)
  case hw =>
    intro κ c'
    rw [View.readAt_eq_ld, harg12.read_unread, View.ld_unit_zero (S := S1280x1664) hz2]
    exact hw κ c'
  case hbi =>
    intro c'
    rw [View.readAt_eq_ld, harg8.read_unread, View.ld_unit_zero (S := S1x384) hz2]
    exact hbi c'
  refine payC_of _ _ _ _ _ _ _ _ _ _ _ _ _ _ a w bf bi cc ?ha ?hw ?hbf ?hbi ?hcc r j
  case ha =>
    intro r κ
    obtain ⟨k, j, rfl⟩ : ∃ (k : Fin 10) (j : Fin 128), κ = col k j := ⟨childOf κ, featOf κ, (col_child_feat κ).symm⟩
    refine (bands_read _ _ _ _ _ _ _ _ _ _ _ _ _ _ _ _ _ _ _ _ _ _ r k j).trans ?_
    revert j; revert k
    refine forall_fin10 ?_ ?_ ?_ ?_ ?_ ?_ ?_ ?_ ?_ ?_
    · exact fun j => (slabRead _ harg1 x0 0 (by decide) _ r j).trans (hlo 0 r j)
    · exact fun j => (slabRead _ harg1 x0 1 (by decide) _ r j).trans (hlo 1 r j)
    · exact fun j => (slabRead _ harg1 x0 2 (by decide) _ r j).trans (hlo 2 r j)
    · exact fun j => (slabRead _ harg1 x0 3 (by decide) _ r j).trans (hlo 3 r j)
    · exact fun j => (slabRead _ harg1 x0 4 (by decide) _ r j).trans (hlo 4 r j)
    · exact fun j => (slabRead _ harg2 x1 0 (by decide) _ r j).trans (hhi 0 r j)
    · exact fun j => (slabRead _ harg2 x1 1 (by decide) _ r j).trans (hhi 1 r j)
    · exact fun j => (slabRead _ harg2 x1 2 (by decide) _ r j).trans (hhi 2 r j)
    · exact fun j => (slabRead _ harg2 x1 3 (by decide) _ r j).trans (hhi 3 r j)
    · exact fun j => (slabRead _ harg2 x1 4 (by decide) _ r j).trans (hhi 4 r j)
  case hw =>
    intro κ c'
    rw [View.readAt_eq_ld, harg12.read_unread, View.ld_unit_zero (S := S1280x1664) hz2]
    exact hw κ c'
  case hbf =>
    intro c'
    rw [View.readAt_eq_ld, harg6.read_unread, View.ld_unit_zero (S := S1x1280) hz2]
    exact hbf c'
  case hbi =>
    intro c'
    rw [View.readAt_eq_ld, harg8.read_unread, View.ld_unit_zero (S := S1x384) hz2]
    exact hbi c'
  case hcc =>
    refine forall_fin10 ?_ ?_ ?_ ?_ ?_ ?_ ?_ ?_ ?_ ?_
    · exact fun r j => (slabRead _ harg3 x2 0 (by decide) _ r j).trans (hclo 0 r j)
    · exact fun r j => (slabRead _ harg3 x2 1 (by decide) _ r j).trans (hclo 1 r j)
    · exact fun r j => (slabRead _ harg3 x2 2 (by decide) _ r j).trans (hclo 2 r j)
    · exact fun r j => (slabRead _ harg3 x2 3 (by decide) _ r j).trans (hclo 3 r j)
    · exact fun r j => (slabRead _ harg3 x2 4 (by decide) _ r j).trans (hclo 4 r j)
    · exact fun r j => (slabRead _ harg4 x3 0 (by decide) _ r j).trans (hchi 0 r j)
    · exact fun r j => (slabRead _ harg4 x3 1 (by decide) _ r j).trans (hchi 1 r j)
    · exact fun r j => (slabRead _ harg4 x3 2 (by decide) _ r j).trans (hchi 2 r j)
    · exact fun r j => (slabRead _ harg4 x3 3 (by decide) _ r j).trans (hchi 3 r j)
    · exact fun r j => (slabRead _ harg4 x3 4 (by decide) _ r j).trans (hchi 4 r j)

set_option maxHeartbeats 4000000 in
/-- What the first run's cell-state pieces read back as, entry by entry: one block of the cell, for blocks known entry by entry. -/
theorem firstC_apply (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec Ideal S5x1000x128 .f32) (x4 : Vec Ideal S1280x1280 .f32) (x5 : Vec Ideal S1x1280 .f32) (x6 : Vec Ideal S1280x384 .f32) (x7 : Vec Ideal S1x384 .f32)
    (a : Fin 1000 → Fin 1280 → EReal) (w : Fin 1280 → Fin 1664 → EReal) (bf : Fin 1280 → EReal) (bi : Fin 384 → EReal) (cc : Fin 10 → Fin 1000 → Fin 128 → EReal)
    (hlo : ∀ (k : Fin 5) (r : Fin 1000) (j : Fin 128), x0 (ix3 k r j) = a r (col ⟨k.val, by have := k.isLt; omega⟩ j)) (hhi : ∀ (k : Fin 5) (r : Fin 1000) (j : Fin 128), x1 (ix3 k r j) = a r (col ⟨5 + k.val, by have := k.isLt; omega⟩ j))
    (hbf : ∀ c', x5 (ix2 (0 : Fin 1) c') = bf c') (hbi : ∀ c', x7 (ix2 (0 : Fin 1) c') = bi c')
    (hclo : ∀ (k : Fin 5) (r : Fin 1000) (j : Fin 128), x2 (ix3 k r j) = cc ⟨k.val, by have := k.isLt; omega⟩ r j) (hchi : ∀ (k : Fin 5) (r : Fin 1000) (j : Fin 128), x3 (ix3 k r j) = cc ⟨5 + k.val, by have := k.isLt; omega⟩ r j)
    (hw4 : ∀ κ (b : Fin 1280), x4 (ix2 κ b) = w κ ⟨b.val, by have := b.isLt; omega⟩) (hw6 : ∀ κ (b : Fin 384), x6 (ix2 κ b) = w κ ⟨1280 + b.val, by have := b.isLt; omega⟩) (r : Fin 1000) (j : Fin 128) :
    VO9.read (Elt Ideal) (VO9.writes (Elt Ideal) VO9.junk (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).2.1) (ix2 r j)
      = blkC a w bf bi cc r j := by
  rw [View.read_writes_eq_canon _ _ _ (cover9_first c i arg1 harg1 arg2 harg2 arg3 harg3 arg4 harg4 arg5 harg5 arg6 harg6 arg7 harg7 arg8 harg8 arg9 harg9 arg10 harg10 arg11 harg11 arg12 harg12 hc x0 x1 x2 x3 x4 x5 x6 x7)]
  unfold runFirst
  dsimp only
  sl_unfold_words
  refine (congrFun (View.canon_unit_zero (S := S1000x128) hz2 _ _) (ix2 r j)).trans ?_
  refine payC_of _ _ _ _ _ _ _ _ _ _ _ _ _ _ a w bf bi cc ?ha ?hw ?hbf ?hbi ?hcc r j
  case ha =>
    intro r κ
    obtain ⟨k, j, rfl⟩ : ∃ (k : Fin 10) (j : Fin 128), κ = col k j := ⟨childOf κ, featOf κ, (col_child_feat κ).symm⟩
    refine (bands_read _ _ _ _ _ _ _ _ _ _ _ _ _ _ _ _ _ _ _ _ _ _ r k j).trans ?_
    revert j; revert k
    refine forall_fin10 ?_ ?_ ?_ ?_ ?_ ?_ ?_ ?_ ?_ ?_
    · exact fun j => (slabRead _ harg1 x0 0 (by decide) _ r j).trans (hlo 0 r j)
    · exact fun j => (slabRead _ harg1 x0 1 (by decide) _ r j).trans (hlo 1 r j)
    · exact fun j => (slabRead _ harg1 x0 2 (by decide) _ r j).trans (hlo 2 r j)
    · exact fun j => (slabRead _ harg1 x0 3 (by decide) _ r j).trans (hlo 3 r j)
    · exact fun j => (slabRead _ harg1 x0 4 (by decide) _ r j).trans (hlo 4 r j)
    · exact fun j => (slabRead _ harg2 x1 0 (by decide) _ r j).trans (hhi 0 r j)
    · exact fun j => (slabRead _ harg2 x1 1 (by decide) _ r j).trans (hhi 1 r j)
    · exact fun j => (slabRead _ harg2 x1 2 (by decide) _ r j).trans (hhi 2 r j)
    · exact fun j => (slabRead _ harg2 x1 3 (by decide) _ r j).trans (hhi 3 r j)
    · exact fun j => (slabRead _ harg2 x1 4 (by decide) _ r j).trans (hhi 4 r j)
  case hw =>
    intro κ c'
    by_cases h : c'.val < 1280
    · obtain ⟨b, hb⟩ : ∃ b : Fin 1280, c' = ⟨b.val, by have := b.isLt; omega⟩ := ⟨⟨c'.val, h⟩, rfl⟩
      rw [hb]
      refine (wcat_read_left _ _ _ _ _ _ κ b).trans ?_
      rw [View.readAt_eq_ld, harg5.read_unread, View.ld_unit_zero (S := S1280x1280) hz2]
      exact hw4 κ b
    · obtain ⟨b, hb⟩ : ∃ b : Fin 384, c' = ⟨1280 + b.val, by have := b.isLt; omega⟩ :=
        ⟨⟨c'.val - 1280, by have := c'.isLt; omega⟩, Fin.ext (by show c'.val = 1280 + (c'.val - 1280); omega)⟩
      rw [hb]
      refine (wcat_read_right _ _ _ _ _ _ κ b).trans ?_
      rw [View.readAt_eq_ld, harg7.read_unread, View.ld_unit_zero (S := S1280x384) hz2]
      exact hw6 κ b
  case hbf =>
    intro c'
    rw [View.readAt_eq_ld, harg6.read_unread, View.ld_unit_zero (S := S1x1280) hz2]
    exact hbf c'
  case hbi =>
    intro c'
    rw [View.readAt_eq_ld, harg8.read_unread, View.ld_unit_zero (S := S1x384) hz2]
    exact hbi c'
  case hcc =>
    refine forall_fin10 ?_ ?_ ?_ ?_ ?_ ?_ ?_ ?_ ?_ ?_
    · exact fun r j => (slabRead _ harg3 x2 0 (by decide) _ r j).trans (hclo 0 r j)
    · exact fun r j => (slabRead _ harg3 x2 1 (by decide) _ r j).trans (hclo 1 r j)
    · exact fun r j => (slabRead _ harg3 x2 2 (by decide) _ r j).trans (hclo 2 r j)
    · exact fun r j => (slabRead _ harg3 x2 3 (by decide) _ r j).trans (hclo 3 r j)
    · exact fun r j => (slabRead _ harg3 x2 4 (by decide) _ r j).trans (hclo 4 r j)
    · exact fun r j => (slabRead _ harg4 x3 0 (by decide) _ r j).trans (hchi 0 r j)
    · exact fun r j => (slabRead _ harg4 x3 1 (by decide) _ r j).trans (hchi 1 r j)
    · exact fun r j => (slabRead _ harg4 x3 2 (by decide) _ r j).trans (hchi 2 r j)
    · exact fun r j => (slabRead _ harg4 x3 3 (by decide) _ r j).trans (hchi 3 r j)
    · exact fun r j => (slabRead _ harg4 x3 4 (by decide) _ r j).trans (hchi 4 r j)

set_option maxHeartbeats 4000000 in
/-- What the first run's hidden-state pieces read back as, entry by entry: one block of the cell, for blocks known entry by entry. -/
theorem firstH_apply (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec Ideal S5x1000x128 .f32) (x4 : Vec Ideal S1280x1280 .f32) (x5 : Vec Ideal S1x1280 .f32) (x6 : Vec Ideal S1280x384 .f32) (x7 : Vec Ideal S1x384 .f32)
    (a : Fin 1000 → Fin 1280 → EReal) (w : Fin 1280 → Fin 1664 → EReal) (bf : Fin 1280 → EReal) (bi : Fin 384 → EReal) (cc : Fin 10 → Fin 1000 → Fin 128 → EReal)
    (hlo : ∀ (k : Fin 5) (r : Fin 1000) (j : Fin 128), x0 (ix3 k r j) = a r (col ⟨k.val, by have := k.isLt; omega⟩ j)) (hhi : ∀ (k : Fin 5) (r : Fin 1000) (j : Fin 128), x1 (ix3 k r j) = a r (col ⟨5 + k.val, by have := k.isLt; omega⟩ j))
    (hbf : ∀ c', x5 (ix2 (0 : Fin 1) c') = bf c') (hbi : ∀ c', x7 (ix2 (0 : Fin 1) c') = bi c')
    (hclo : ∀ (k : Fin 5) (r : Fin 1000) (j : Fin 128), x2 (ix3 k r j) = cc ⟨k.val, by have := k.isLt; omega⟩ r j) (hchi : ∀ (k : Fin 5) (r : Fin 1000) (j : Fin 128), x3 (ix3 k r j) = cc ⟨5 + k.val, by have := k.isLt; omega⟩ r j)
    (hw4 : ∀ κ (b : Fin 1280), x4 (ix2 κ b) = w κ ⟨b.val, by have := b.isLt; omega⟩) (hw6 : ∀ κ (b : Fin 384), x6 (ix2 κ b) = w κ ⟨1280 + b.val, by have := b.isLt; omega⟩) (r : Fin 1000) (j : Fin 128) :
    VO8.read (Elt Ideal) (VO8.writes (Elt Ideal) VO8.junk (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).1) (ix2 r j)
      = blkH a w bi (blkC a w bf bi cc r j) r j := by
  rw [View.read_writes_eq_canon _ _ _ (cover8_first c i arg1 harg1 arg2 harg2 arg3 harg3 arg4 harg4 arg5 harg5 arg6 harg6 arg7 harg7 arg8 harg8 arg9 harg9 arg10 harg10 arg11 harg11 arg12 harg12 hc x0 x1 x2 x3 x4 x5 x6 x7)]
  unfold runFirst
  dsimp only
  sl_unfold_words
  refine (congrFun (View.canon_unit_zero (S := S1000x128) hz2 _ _) (ix2 r j)).trans ?_
  refine (payH_of _ _ _ _ a w bi ?ha ?hw ?hbi r j).trans (congrArg (fun v => blkH a w bi v r j) ?_)
  case ha =>
    intro r κ
    obtain ⟨k, j, rfl⟩ : ∃ (k : Fin 10) (j : Fin 128), κ = col k j := ⟨childOf κ, featOf κ, (col_child_feat κ).symm⟩
    refine (bands_read _ _ _ _ _ _ _ _ _ _ _ _ _ _ _ _ _ _ _ _ _ _ r k j).trans ?_
    revert j; revert k
    refine forall_fin10 ?_ ?_ ?_ ?_ ?_ ?_ ?_ ?_ ?_ ?_
    · exact fun j => (slabRead _ harg1 x0 0 (by decide) _ r j).trans (hlo 0 r j)
    · exact fun j => (slabRead _ harg1 x0 1 (by decide) _ r j).trans (hlo 1 r j)
    · exact fun j => (slabRead _ harg1 x0 2 (by decide) _ r j).trans (hlo 2 r j)
    · exact fun j => (slabRead _ harg1 x0 3 (by decide) _ r j).trans (hlo 3 r j)
    · exact fun j => (slabRead _ harg1 x0 4 (by decide) _ r j).trans (hlo 4 r j)
    · exact fun j => (slabRead _ harg2 x1 0 (by decide) _ r j).trans (hhi 0 r j)
    · exact fun j => (slabRead _ harg2 x1 1 (by decide) _ r j).trans (hhi 1 r j)
    · exact fun j => (slabRead _ harg2 x1 2 (by decide) _ r j).trans (hhi 2 r j)
    · exact fun j => (slabRead _ harg2 x1 3 (by decide) _ r j).trans (hhi 3 r j)
    · exact fun j => (slabRead _ harg2 x1 4 (by decide) _ r j).trans (hhi 4 r j)
  case hw =>
    intro κ c'
    by_cases h : c'.val < 1280
    · obtain ⟨b, hb⟩ : ∃ b : Fin 1280, c' = ⟨b.val, by have := b.isLt; omega⟩ := ⟨⟨c'.val, h⟩, rfl⟩
      rw [hb]
      refine (wcat_read_left _ _ _ _ _ _ κ b).trans ?_
      rw [View.readAt_eq_ld, harg5.read_unread, View.ld_unit_zero (S := S1280x1280) hz2]
      exact hw4 κ b
    · obtain ⟨b, hb⟩ : ∃ b : Fin 384, c' = ⟨1280 + b.val, by have := b.isLt; omega⟩ :=
        ⟨⟨c'.val - 1280, by have := c'.isLt; omega⟩, Fin.ext (by show c'.val = 1280 + (c'.val - 1280); omega)⟩
      rw [hb]
      refine (wcat_read_right _ _ _ _ _ _ κ b).trans ?_
      rw [View.readAt_eq_ld, harg7.read_unread, View.ld_unit_zero (S := S1280x384) hz2]
      exact hw6 κ b
  case hbi =>
    intro c'
    rw [View.readAt_eq_ld, harg8.read_unread, View.ld_unit_zero (S := S1x384) hz2]
    exact hbi c'
  refine payC_of _ _ _ _ _ _ _ _ _ _ _ _ _ _ a w bf bi cc ?ha ?hw ?hbf ?hbi ?hcc r j
  case ha =>
    intro r κ
    obtain ⟨k, j, rfl⟩ : ∃ (k : Fin 10) (j : Fin 128), κ = col k j := ⟨childOf κ, featOf κ, (col_child_feat κ).symm⟩
    refine (bands_read _ _ _ _ _ _ _ _ _ _ _ _ _ _ _ _ _ _ _ _ _ _ r k j).trans ?_
    revert j; revert k
    refine forall_fin10 ?_ ?_ ?_ ?_ ?_ ?_ ?_ ?_ ?_ ?_
    · exact fun j => (slabRead _ harg1 x0 0 (by decide) _ r j).trans (hlo 0 r j)
    · exact fun j => (slabRead _ harg1 x0 1 (by decide) _ r j).trans (hlo 1 r j)
    · exact fun j => (slabRead _ harg1 x0 2 (by decide) _ r j).trans (hlo 2 r j)
    · exact fun j => (slabRead _ harg1 x0 3 (by decide) _ r j).trans (hlo 3 r j)
    · exact fun j => (slabRead _ harg1 x0 4 (by decide) _ r j).trans (hlo 4 r j)
    · exact fun j => (slabRead _ harg2 x1 0 (by decide) _ r j).trans (hhi 0 r j)
    · exact fun j => (slabRead _ harg2 x1 1 (by decide) _ r j).trans (hhi 1 r j)
    · exact fun j => (slabRead _ harg2 x1 2 (by decide) _ r j).trans (hhi 2 r j)
    · exact fun j => (slabRead _ harg2 x1 3 (by decide) _ r j).trans (hhi 3 r j)
    · exact fun j => (slabRead _ harg2 x1 4 (by decide) _ r j).trans (hhi 4 r j)
  case hw =>
    intro κ c'
    by_cases h : c'.val < 1280
    · obtain ⟨b, hb⟩ : ∃ b : Fin 1280, c' = ⟨b.val, by have := b.isLt; omega⟩ := ⟨⟨c'.val, h⟩, rfl⟩
      rw [hb]
      refine (wcat_read_left _ _ _ _ _ _ κ b).trans ?_
      rw [View.readAt_eq_ld, harg5.read_unread, View.ld_unit_zero (S := S1280x1280) hz2]
      exact hw4 κ b
    · obtain ⟨b, hb⟩ : ∃ b : Fin 384, c' = ⟨1280 + b.val, by have := b.isLt; omega⟩ :=
        ⟨⟨c'.val - 1280, by have := c'.isLt; omega⟩, Fin.ext (by show c'.val = 1280 + (c'.val - 1280); omega)⟩
      rw [hb]
      refine (wcat_read_right _ _ _ _ _ _ κ b).trans ?_
      rw [View.readAt_eq_ld, harg7.read_unread, View.ld_unit_zero (S := S1280x384) hz2]
      exact hw6 κ b
  case hbf =>
    intro c'
    rw [View.readAt_eq_ld, harg6.read_unread, View.ld_unit_zero (S := S1x1280) hz2]
    exact hbf c'
  case hbi =>
    intro c'
    rw [View.readAt_eq_ld, harg8.read_unread, View.ld_unit_zero (S := S1x384) hz2]
    exact hbi c'
  case hcc =>
    refine forall_fin10 ?_ ?_ ?_ ?_ ?_ ?_ ?_ ?_ ?_ ?_
    · exact fun r j => (slabRead _ harg3 x2 0 (by decide) _ r j).trans (hclo 0 r j)
    · exact fun r j => (slabRead _ harg3 x2 1 (by decide) _ r j).trans (hclo 1 r j)
    · exact fun r j => (slabRead _ harg3 x2 2 (by decide) _ r j).trans (hclo 2 r j)
    · exact fun r j => (slabRead _ harg3 x2 3 (by decide) _ r j).trans (hclo 3 r j)
    · exact fun r j => (slabRead _ harg3 x2 4 (by decide) _ r j).trans (hclo 4 r j)
    · exact fun r j => (slabRead _ harg4 x3 0 (by decide) _ r j).trans (hchi 0 r j)
    · exact fun r j => (slabRead _ harg4 x3 1 (by decide) _ r j).trans (hchi 1 r j)
    · exact fun r j => (slabRead _ harg4 x3 2 (by decide) _ r j).trans (hchi 2 r j)
    · exact fun r j => (slabRead _ harg4 x3 3 (by decide) _ r j).trans (hchi 3 r j)
    · exact fun r j => (slabRead _ harg4 x3 4 (by decide) _ r j).trans (hchi 4 r j)

/-! ## The blocks' entries are the argument arrays' -/

section AtPoint

variable (c : Dev nD) (t : Fin cfg0.N)

theorem hlo_at (k : Fin 5) (r : Fin 1000) (j : Fin 128) :
    hLo m c t (ix3 k r j) = hcat (aH m c) (nodeAt t r) (col ⟨k.val, by have := k.isLt; omega⟩ j) :=
  (hLo_apply m c t k r j).trans (hcat_col (aH m c) (nodeAt t r) ⟨k.val, by have := k.isLt; omega⟩ j).symm
theorem hhi_at (k : Fin 5) (r : Fin 1000) (j : Fin 128) :
    hHi m c t (ix3 k r j) = hcat (aH m c) (nodeAt t r) (col ⟨5 + k.val, by have := k.isLt; omega⟩ j) :=
  (hHi_apply m c t k r j).trans (hcat_col (aH m c) (nodeAt t r) ⟨5 + k.val, by have := k.isLt; omega⟩ j).symm
theorem clo_at (k : Fin 5) (r : Fin 1000) (j : Fin 128) :
    cLo m c t (ix3 k r j) = aC m c (ix3 (nodeAt t r) (⟨k.val, by have := k.isLt; omega⟩ : Fin 10) j) := cLo_apply m c t k r j
theorem chi_at (k : Fin 5) (r : Fin 1000) (j : Fin 128) :
    cHi m c t (ix3 k r j) = aC m c (ix3 (nodeAt t r) (⟨5 + k.val, by have := k.isLt; omega⟩ : Fin 10) j) := cHi_apply m c t k r j
theorem bf_at (c' : Fin 1280) : bF m c t (ix2 (0 : Fin 1) c') = aBf m c (ix1 c') := bF_apply m c t c'
theorem bi_at (c' : Fin 384) : bI m c t (ix2 (0 : Fin 1) c') = aBi m c (ix2 (0 : Fin 1) c') := bI_apply m c t c'
theorem w4_at (κ : Fin 1280) (b : Fin 1280) :
    wF m c t (ix2 κ b) = wcat (aUf m c) (aUi m c) κ ⟨b.val, by have := b.isLt; omega⟩ :=
  (wF_apply m c t κ b).trans (by unfold wcat; rw [dif_pos (show b.val < 1280 from b.isLt)])
theorem w6_at (κ : Fin 1280) (b : Fin 384) :
    wI m c t (ix2 κ b) = wcat (aUf m c) (aUi m c) κ ⟨1280 + b.val, by have := b.isLt; omega⟩ :=
  (wI_apply m c t κ b).trans (by
    unfold wcat
    rw [dif_neg (show ¬(1280 + b.val < 1280) by omega)]
    exact congrArg (fun q => aUi m c (ix2 q κ)) (Fin.ext (by show b.val = 1280 + b.val - 1280; omega)))

end AtPoint

set_option maxHeartbeats 4000000 in
/-- The first run's weight-scratch pieces read back as the two loaded matrices side by side. -/
theorem firstW_apply (c : Dev nD) (i : grid0.Coords) (arg1 : Memref sig .tc .vmem S5x1000x128 .f32) (harg1 : arg1.IsWhole) (arg2 : Memref sig .tc .vmem S5x1000x128 .f32) (harg2 : arg2.IsWhole) (arg3 : Memref sig .tc .vmem S5x1000x128 .f32) (harg3 : arg3.IsWhole) (arg4 : Memref sig .tc .vmem S5x1000x128 .f32) (harg4 : arg4.IsWhole) (arg5 : Memref sig .tc .vmem S1280x1280 .f32) (harg5 : arg5.IsWhole) (arg6 : Memref sig .tc .vmem S1x1280 .f32) (harg6 : arg6.IsWhole) (arg7 : Memref sig .tc .vmem S1280x384 .f32) (harg7 : arg7.IsWhole) (arg8 : Memref sig .tc .vmem S1x384 .f32) (harg8 : arg8.IsWhole) (arg9 : Memref sig .tc .vmem S1000x128 .f32) (harg9 : arg9.IsWhole) (arg10 : Memref sig .tc .vmem S1000x128 .f32) (harg10 : arg10.IsWhole) (arg11 : Memref sig .tc .vmem S1000x1280 .bf16) (harg11 : arg11.IsWhole) (arg12 : Memref sig .tc .vmem S1280x1664 .bf16) (harg12 : arg12.IsWhole) (hc : isFirst i) (x0 x1 x2 x3 : Vec Ideal S5x1000x128 .f32) (x4 : Vec Ideal S1280x1280 .f32) (x5 : Vec Ideal S1x1280 .f32) (x6 : Vec Ideal S1280x384 .f32) (x7 : Vec Ideal S1x384 .f32)
    (w : Fin 1280 → Fin 1664 → EReal)
    (hw4 : ∀ κ (b : Fin 1280), x4 (ix2 κ b) = w κ ⟨b.val, by have := b.isLt; omega⟩) (hw6 : ∀ κ (b : Fin 384), x6 (ix2 κ b) = w κ ⟨1280 + b.val, by have := b.isLt; omega⟩)
    (κ : Fin 1280) (c' : Fin 1664) :
    View.canon (runFirst (F := Ideal) c i arg1 harg1 arg2 harg2 arg3 harg3 arg4 harg4 arg5 harg5 arg6 harg6 arg7 harg7 arg8 harg8 arg9 harg9 arg10 harg10 arg11 harg11 arg12 harg12 hc x0 x1 x2 x3 x4 x5 x6 x7).2.2.2.1 (ix2 κ c') = w κ c' := by
  unfold runFirst
  dsimp only
  sl_unfold_words
  by_cases h : c'.val < 1280
  · obtain ⟨b, hb⟩ : ∃ b : Fin 1280, c' = ⟨b.val, by have := b.isLt; omega⟩ := ⟨⟨c'.val, h⟩, rfl⟩
    rw [hb]
    refine (wcat_canon_left _ _ _ _ κ b).trans ?_
    rw [View.readAt_eq_ld, harg5.read_unread, View.ld_unit_zero (S := S1280x1280) hz2]
    exact hw4 κ b
  · obtain ⟨b, hb⟩ : ∃ b : Fin 384, c' = ⟨1280 + b.val, by have := b.isLt; omega⟩ :=
      ⟨⟨c'.val - 1280, by have := c'.isLt; omega⟩, Fin.ext (by show c'.val = 1280 + (c'.val - 1280); omega)⟩
    rw [hb]
    refine (wcat_canon_right _ _ _ _ κ b).trans ?_
    rw [View.readAt_eq_ld, harg7.read_unread, View.ld_unit_zero (S := S1280x384) hz2]
    exact hw6 κ b

/-- The weight scratch after the first point: the two weight matrices side by side. -/
theorem Wc_apply (c : Dev nD) (κ : Fin 1280) (c' : Fin 1664) :
    Wc (F := Ideal) m c (ix2 κ c') = wcat (aUf m c) (aUi m c) κ c' := by
  unfold Wc
  rw [View.read_writes_junk_apply_eq_canon]
  exact firstW_apply c _ _ _ _ _ _ _ _ _ _ _ _ _ _ _ _ _ _ _ _ _ _ _ _ _ _ _ _ _ _ _ _ _ _ (wcat (aUf m c) (aUi m c)) (w4_at m c tZ) (w6_at m c tZ) κ c'

/-! ## What each point leaves, entry by entry -/

/-- What point `t` leaves in the cell-state output's buffer, entry by entry. -/
theorem outsC_apply (c : Dev nD) (t : Fin cfg0.N) (r : Fin 1000) (j : Fin 128) :
    (outs (F := Ideal) m c t).2 (ix2 r j)
      = cellC (aH m c) (aC m c) (aUf m c) (aBf m c) (aUi m c) (aBi m c) (ix2 (nodeAt t r) j) := by
  by_cases hz : t.val = 0
  · rw [outs_first m c t hz]; dsimp only
    refine (firstC_apply c _ _ _ _ _ _ _ _ _ _ _ _ _ _ _ _ _ _ _ _ _ _ _ _ _ _ _ _ _ _ _ _ _ _ (fun r κ => hcat (aH m c) (nodeAt t r) κ) (wcat (aUf m c) (aUi m c)) (fun c' => aBf m c (ix1 c')) (fun c' => aBi m c (ix2 (0 : Fin 1) c')) (fun k r j => aC m c (ix3 (nodeAt t r) k j)) (hlo_at m c t) (hhi_at m c t) (bf_at m c t) (bi_at m c t) (clo_at m c t) (chi_at m c t) (w4_at m c t) (w6_at m c t) r j).trans ?_
    exact blkC_eq (aH m c) (aC m c) (aUf m c) (aBf m c) (aUi m c) (aBi m c) ⟨t.val, t_lt t⟩ r j
  · rw [outs_rest m c t hz]; dsimp only
    refine (restC_apply c _ _ _ _ _ _ _ _ _ _ _ _ _ _ _ _ _ _ _ _ _ _ _ _ _ _ _ _ _ _ _ _ _ _ _ (fun r κ => hcat (aH m c) (nodeAt t r) κ) (wcat (aUf m c) (aUi m c)) (fun c' => aBf m c (ix1 c')) (fun c' => aBi m c (ix2 (0 : Fin 1) c')) (fun k r j => aC m c (ix3 (nodeAt t r) k j)) (hlo_at m c t) (hhi_at m c t) (bf_at m c t) (bi_at m c t) (clo_at m c t) (chi_at m c t) (Wc_apply m c) r j).trans ?_
    exact blkC_eq (aH m c) (aC m c) (aUf m c) (aBf m c) (aUi m c) (aBi m c) ⟨t.val, t_lt t⟩ r j

/-- What point `t` leaves in the hidden-state output's buffer, entry by entry. -/
theorem outsH_apply (c : Dev nD) (t : Fin cfg0.N) (r : Fin 1000) (j : Fin 128) :
    (outs (F := Ideal) m c t).1 (ix2 r j)
      = cellH (aH m c) (aC m c) (aUf m c) (aBf m c) (aUi m c) (aBi m c) (ix2 (nodeAt t r) j) := by
  by_cases hz : t.val = 0
  · rw [outs_first m c t hz]; dsimp only
    refine (firstH_apply c _ _ _ _ _ _ _ _ _ _ _ _ _ _ _ _ _ _ _ _ _ _ _ _ _ _ _ _ _ _ _ _ _ _ (fun r κ => hcat (aH m c) (nodeAt t r) κ) (wcat (aUf m c) (aUi m c)) (fun c' => aBf m c (ix1 c')) (fun c' => aBi m c (ix2 (0 : Fin 1) c')) (fun k r j => aC m c (ix3 (nodeAt t r) k j)) (hlo_at m c t) (hhi_at m c t) (bf_at m c t) (bi_at m c t) (clo_at m c t) (chi_at m c t) (w4_at m c t) (w6_at m c t) r j).trans ?_
    exact (congrArg (fun v => blkH _ _ _ v r j) (blkC_eq (aH m c) (aC m c) (aUf m c) (aBf m c) (aUi m c) (aBi m c) ⟨t.val, t_lt t⟩ r j)).trans (blkH_eq (aH m c) (aC m c) (aUf m c) (aBf m c) (aUi m c) (aBi m c) ⟨t.val, t_lt t⟩ r j)
  · rw [outs_rest m c t hz]; dsimp only
    refine (restH_apply c _ _ _ _ _ _ _ _ _ _ _ _ _ _ _ _ _ _ _ _ _ _ _ _ _ _ _ _ _ _ _ _ _ _ _ (fun r κ => hcat (aH m c) (nodeAt t r) κ) (wcat (aUf m c) (aUi m c)) (fun c' => aBf m c (ix1 c')) (fun c' => aBi m c (ix2 (0 : Fin 1) c')) (fun k r j => aC m c (ix3 (nodeAt t r) k j)) (hlo_at m c t) (hhi_at m c t) (bf_at m c t) (bi_at m c t) (clo_at m c t) (chi_at m c t) (Wc_apply m c) r j).trans ?_
    exact (congrArg (fun v => blkH _ _ _ v r j) (blkC_eq (aH m c) (aC m c) (aUf m c) (aBf m c) (aUi m c) (aBi m c) ⟨t.val, t_lt t⟩ r j)).trans (blkH_eq (aH m c) (aC m c) (aUf m c) (aBf m c) (aUi m c) (aBi m c) ⟨t.val, t_lt t⟩ r j)

end Cert.KernelIdeal.Cell

end
-- ==== Proof.IdealFinal.lean ====
/-
  From blocks to the arrays, and the value run.

  Each of the ten grid points writes one block of a thousand rows into each output array: point `t` writes rows
  `1000 t` to `1000 t + 999`, all 128 features. Entry `(r, j)` of the block point `t` writes is the specification's
  value at node `1000 t + r`, feature `j`; the element of the array that entry is written to has row
  `t * 1000 + 1 * r` and column `0 * 128 + 1 * j`, the same index. So what every point writes back is the block, at
  that point, of ONE function of the six argument arrays: the specification's new hidden state for the first output,
  its new cell state for the second. Row `i` of an array lies in the block of point `i / 1000`, so the ten blocks
  cover the array and it ends holding that function everywhere. The six argument arrays end as launched.
-/
import proofs.«181788_g52183852646691_cont_8to1_c_618_27_alg».proof.Proof.IdealValue
import Idealize.ShloMosaic.Lib.Pipeline.Value

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CellSpec
open Idealize.ShloMosaic.ValueIdx

variable (m : (ℓ : Loc nD τ sig) → Buf (Elt Ideal) ℓ) (ρ : Dev nD → PrngReg)

/-- The two output windows' printed index maps, decided over the grid: point `t` writes block `(t, 0)`. -/
theorem out_index : ∀ t : Fin cfg0.N,
    win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The hidden-state output (window 8) -/

/-- Row `r`, feature `j` of what point `t` leaves in the hidden-state output's buffer is the specification at the array index
    that entry of point `t`'s block sits at: row `1000 t + r`, feature `j`. -/
theorem entry8 (c : Dev nD) (t : Fin cfg0.N) (r : Fin 1000) (j : Fin 128) :
    (outs (F := Ideal) m c t).1 (ix2 r j) = cellH (aH m c) (aC m c) (aUf m c) (aBf m c) (aUi m c) (aBi m c) (((cfg0.win 8).blk t).view.emb (ix2 r j)) := by
  rw [outsH_apply]
  obtain ⟨e80, e81, e90, e91⟩ := out_index t
  congr 1
  funext a; apply Fin.ext
  match a with
  | ⟨0, _⟩ => show 1000 * t.val + r.val = win0_8.index t (0 : Fin 2) * 1000 + 1 * r.val; omega
  | ⟨1, _⟩ => show j.val = win0_8.index t (1 : Fin 2) * 128 + 1 * j.val; omega

/-- WHAT POINT `t` WRITES BACK through window 8 is block `t` of the specification's new hidden state. -/
theorem flushed8_eq (c : Dev nD) (t : Fin cfg0.N) :
    (dats m 0 c).flushed 8 t = ((cfg0.win 8).blk t).view.read (Elt Ideal) (cellH (aH m c) (aC m c) (aUf m c) (aBf m c) (aUi m c) (aBi m c)) := by
  show (cfg0.win 8).cut (grid0.coords t) ((dats m 0 c).after 8 t) = _
  rw [after8]
  funext y
  obtain ⟨r, j, rfl⟩ : ∃ (r : Fin 1000) (j : Fin 128), y = ix2 r j := ⟨y 0, y 1, eq_ix2 y⟩
  exact entry8 m c t r j

/-- An index of the array is in point `t`'s block of window 8 iff each coordinate is in the block's range on its axis. -/
theorem mem_blk8 (t : Fin cfg0.N) (i : S10000x128.Idx) :
    i ∈ ((cfg0.win 8).blk t).view.set ↔ ∀ a : Fin 2, win0_8.index t a * S1000x128.size a ≤ (i a).val ∧ (i a).val < win0_8.index t a * S1000x128.size a + S1000x128.size a := by
  show i ∈ ((View.whole main_v0_0).slice (win0_8.rect t)).set ↔ _
  rw [View.set_slice_whole, Rect.mem_set_unit]
  exact Iff.rfl

/-- The ten blocks of window 8 tile its array: row `i 0` lies in the block of point `(i 0) / 1000`. -/
theorem cover8 (i : S10000x128.Idx) : ∃ t : Fin cfg0.N, (cfg0.win 8).flush t = true ∧ i ∈ ((cfg0.win 8).blk t).view.set := by
  have hi0 : (i 0).val < 10000 := idx2_lt0 i
  have hi1 : (i 1).val < 128 := idx2_lt1 i
  have hN : (i 0).val / 1000 < cfg0.N := by rw [show cfg0.N = 10 from N_0]; omega
  obtain ⟨e80, e81, e90, e91⟩ := out_index ⟨(i 0).val / 1000, hN⟩
  refine ⟨⟨(i 0).val / 1000, hN⟩, flush0_8 _, ?_⟩
  rw [mem_blk8]
  intro a
  match a with
  | ⟨0, _⟩ => show win0_8.index ⟨(i 0).val / 1000, hN⟩ (0 : Fin 2) * 1000 ≤ (i 0).val ∧ (i 0).val < win0_8.index ⟨(i 0).val / 1000, hN⟩ (0 : Fin 2) * 1000 + 1000; rw [e80]; show (i 0).val / 1000 * 1000 ≤ (i 0).val ∧ (i 0).val < (i 0).val / 1000 * 1000 + 1000; omega
  | ⟨1, _⟩ => show win0_8.index ⟨(i 0).val / 1000, hN⟩ (1 : Fin 2) * 128 ≤ (i 1).val ∧ (i 1).val < win0_8.index ⟨(i 0).val / 1000, hN⟩ (1 : Fin 2) * 128 + 128; rw [e81]; omega

/-- THE ARRAY of window 8 after the run is the specification's new hidden state of the six argument arrays. -/
theorem final8 (c : Dev nD) : (dats m 0 c).arrAt 8 cfg0.N = cellH (aH m c) (aC m c) (aUf m c) (aBf m c) (aUi m c) (aBi m c) :=
  (dats m 0 c).arrAt_eq_of_cover 8 (cellH (aH m c) (aC m c) (aUf m c) (aBf m c) (aUi m c) (aBi m c)) (fun t _ => flushed8_eq m c t) cover8

/-! ## The cell-state output (window 9) -/

/-- Row `r`, feature `j` of what point `t` leaves in the cell-state output's buffer is the specification at the array index
    that entry of point `t`'s block sits at: row `1000 t + r`, feature `j`. -/
theorem entry9 (c : Dev nD) (t : Fin cfg0.N) (r : Fin 1000) (j : Fin 128) :
    (outs (F := Ideal) m c t).2 (ix2 r j) = cellC (aH m c) (aC m c) (aUf m c) (aBf m c) (aUi m c) (aBi m c) (((cfg0.win 9).blk t).view.emb (ix2 r j)) := by
  rw [outsC_apply]
  obtain ⟨e80, e81, e90, e91⟩ := out_index t
  congr 1
  funext a; apply Fin.ext
  match a with
  | ⟨0, _⟩ => show 1000 * t.val + r.val = win0_9.index t (0 : Fin 2) * 1000 + 1 * r.val; omega
  | ⟨1, _⟩ => show j.val = win0_9.index t (1 : Fin 2) * 128 + 1 * j.val; omega

/-- WHAT POINT `t` WRITES BACK through window 9 is block `t` of the specification's new cell state. -/
theorem flushed9_eq (c : Dev nD) (t : Fin cfg0.N) :
    (dats m 0 c).flushed 9 t = ((cfg0.win 9).blk t).view.read (Elt Ideal) (cellC (aH m c) (aC m c) (aUf m c) (aBf m c) (aUi m c) (aBi m c)) := by
  show (cfg0.win 9).cut (grid0.coords t) ((dats m 0 c).after 9 t) = _
  rw [after9]
  funext y
  obtain ⟨r, j, rfl⟩ : ∃ (r : Fin 1000) (j : Fin 128), y = ix2 r j := ⟨y 0, y 1, eq_ix2 y⟩
  exact entry9 m c t r j

/-- An index of the array is in point `t`'s block of window 9 iff each coordinate is in the block's range on its axis. -/
theorem mem_blk9 (t : Fin cfg0.N) (i : S10000x128.Idx) :
    i ∈ ((cfg0.win 9).blk t).view.set ↔ ∀ a : Fin 2, win0_9.index t a * S1000x128.size a ≤ (i a).val ∧ (i a).val < win0_9.index t a * S1000x128.size a + S1000x128.size a := by
  show i ∈ ((View.whole main_v0_1).slice (win0_9.rect t)).set ↔ _
  rw [View.set_slice_whole, Rect.mem_set_unit]
  exact Iff.rfl

/-- The ten blocks of window 9 tile its array: row `i 0` lies in the block of point `(i 0) / 1000`. -/
theorem cover9 (i : S10000x128.Idx) : ∃ t : Fin cfg0.N, (cfg0.win 9).flush t = true ∧ i ∈ ((cfg0.win 9).blk t).view.set := by
  have hi0 : (i 0).val < 10000 := idx2_lt0 i
  have hi1 : (i 1).val < 128 := idx2_lt1 i
  have hN : (i 0).val / 1000 < cfg0.N := by rw [show cfg0.N = 10 from N_0]; omega
  obtain ⟨e80, e81, e90, e91⟩ := out_index ⟨(i 0).val / 1000, hN⟩
  refine ⟨⟨(i 0).val / 1000, hN⟩, flush0_9 _, ?_⟩
  rw [mem_blk9]
  intro a
  match a with
  | ⟨0, _⟩ => show win0_9.index ⟨(i 0).val / 1000, hN⟩ (0 : Fin 2) * 1000 ≤ (i 0).val ∧ (i 0).val < win0_9.index ⟨(i 0).val / 1000, hN⟩ (0 : Fin 2) * 1000 + 1000; rw [e90]; show (i 0).val / 1000 * 1000 ≤ (i 0).val ∧ (i 0).val < (i 0).val / 1000 * 1000 + 1000; omega
  | ⟨1, _⟩ => show win0_9.index ⟨(i 0).val / 1000, hN⟩ (1 : Fin 2) * 128 ≤ (i 1).val ∧ (i 1).val < win0_9.index ⟨(i 0).val / 1000, hN⟩ (1 : Fin 2) * 128 + 128; rw [e91]; omega

/-- THE ARRAY of window 9 after the run is the specification's new cell state of the six argument arrays. -/
theorem final9 (c : Dev nD) : (dats m 0 c).arrAt 9 cfg0.N = cellC (aH m c) (aC m c) (aUf m c) (aBf m c) (aUi m c) (aBi m c) :=
  (dats m 0 c).arrAt_eq_of_cover 9 (cellC (aH m c) (aC m c) (aUf m c) (aBf m c) (aUi m c) (aBi m c)) (fun t _ => flushed9_eq m c t) cover9

/-! ## The run, read -/

/-- THE VALUE RUN: from any launch memory every weakly fair execution of @main terminates with the two result arrays
    holding the specification's new hidden state and new cell state of the six argument arrays, and those arrays as
    launched. -/
theorem run_value : θ_run defs (onTc (τ := τ) (main (F := Ideal))) ⟨m, fun _ => 0, ρ⟩ (fun r => ∀ c : Dev nD,
      r.2.mem ((c.tc : Thread nD τ).loc main_v0_0) = cellH (aH m c) (aC m c) (aUf m c) (aBf m c) (aUi m c) (aBi m c)
      ∧ r.2.mem ((c.tc : Thread nD τ).loc main_v0_1) = cellC (aH m c) (aC m c) (aUf m c) (aBf m c) (aUi m c) (aBi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 8).trans (final8 m c),
     ((h c).1 9).trans (final9 m c),
     ((h c).2 main_arg0 (Pipeline.mem_restRefs_of main_arg0 rfl (by decide))).trans (V_main_arg0 m c),
     ((h c).2 main_arg1 (Pipeline.mem_restRefs_of main_arg1 rfl (by decide))).trans (V_main_arg1 m c),
     ((h c).1 4).trans (((dats m 0 c).arrAt_in 4 rfl _).trans ((A_eq m c 4).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c),
     ((h c).1 7).trans (((dats m 0 c).arrAt_in 7 rfl _).trans ((A_eq m c 7).trans (V_main_arg5 m c)))⟩) (run_main m ρ)

end Cert.KernelIdeal.Cell

end
-- ==== Proof.RefSide.lean ====
/-
  The reference's side of the value claim. Imported here are the generated run of the reference's @main and its
  read-at-an-index lemmas; what is written by hand below them is that the run's two result terms are the
  cell's functions of the argument arrays, index by index.

  The reading goes stage by stage. The flattened mailbox at (n, κ) is the mailbox at (n, κ / 128, κ % 128); each of
  the two contractions is a sum over κ of a flattened-mailbox entry times a weight entry; the quotient
  1 / (1 + e^(-x)) with the word of 1 for both ones is the logistic function; the reduction over the ten children
  starts from the word of 0, so it is the plain sum; and the reshape back to (n, k, j) reads column 128 k + j.
-/
import proofs.«181788_g52183852646691_cont_8to1_c_618_27_alg».proof.Proof.Gen.ReferenceIdeal.Run
import proofs.«181788_g52183852646691_cont_8to1_c_618_27_alg».proof.Proof.Gen.ReferenceIdeal.Read
import proofs.«181788_g52183852646691_cont_8to1_c_618_27_alg».proof.Proof.CellSpec
import Idealize.ShloMosaic.Lib.ValueIdx
import Idealize.ShloMosaic.PureOps.Ideal.Laws

noncomputable section

namespace Cert.RefSide

open Cert.ReferenceIdeal Cert.ReferenceIdeal.Read Idealize.ShloMosaic Idealize.ShloMosaic.ValueIdx Cert.CellSpec

/-! ## The constant 1 and the logistic function -/

/-- The single-precision word 0x3F800000 denotes the extended real 1. -/
theorem one_word : Ideal.ofBits .f32 0x3F800000#32 = 1 := by
  simp [Ideal.ofBits, Ideal.ieee, -EReal.coe_mul]; norm_num

/-- 1 / (1 + e^(-x)), both ones spelt by their word, is the logistic function of x. -/
theorem sigmoid_eq (x : EReal) :
    Ideal.div (Ideal.ofBits .f32 0x3F800000#32) (Ideal.ofBits .f32 0x3F800000#32 + Ideal.exp (-x)) = Ideal.logistic x := by
  rw [one_word]; rfl

variable (x0 x1 : (⟨S10000x10x128, .f32⟩ : BufTy).Contents (Elt Ideal)) (x2 : (⟨S1280x1280, .f32⟩ : BufTy).Contents (Elt Ideal))
  (x3 : (⟨S1280, .f32⟩ : BufTy).Contents (Elt Ideal)) (x4 : (⟨S384x1280, .f32⟩ : BufTy).Contents (Elt Ideal))
  (x5 : (⟨S1x384, .f32⟩ : BufTy).Contents (Elt Ideal))

/-! ## The flattened mailbox -/

/-- Row-major position n · 1280 + κ of the flattened array is position (n, κ / 128, κ % 128) of the mailbox. -/
theorem idx0 (n : Fin 10000) (κ : Fin 1280) : idx_main_v0 (ix2 n κ) = ix3 n (childOf κ) (featOf κ) :=
  funext fun a => Fin.ext (by
    have hn := n.isLt; have hk := κ.isLt
    match a with
    | ⟨0, _⟩ => show (n.val * 1280 + κ.val) / 1280 = n.val; omega
    | ⟨1, _⟩ => show (n.val * 1280 + κ.val) / 128 % 10 = κ.val / 128; omega
    | ⟨2, _⟩ => show (n.val * 1280 + κ.val) % 128 = κ.val % 128; omega)

/-- The first reshape at (n, κ) is the children's hidden states of node n, flattened, at κ. -/
theorem hcat_read (n : Fin 10000) (κ : Fin 1280) : val_main_v0 (F := Ideal) x0 (ix2 n κ) = hcat x0 n κ := by
  rw [val_main_v0_apply, idx0]; rfl

/-! ## The input / output / update pre-activations -/

/-- The left operand of the second contraction is read at (n, k). -/
theorem lidx15 (n : Fin 10000) (c : Fin 384) (k : Fin 1280) : lidx_main_v15 (ix2 n c) k = ix2 n k :=
  funext fun a => Fin.ext (by match a with | ⟨0, _⟩ => rfl | ⟨1, _⟩ => rfl)

/-- Its right operand, the transposed weight at (k, c), is the weight at (c, k). -/
theorem ridx15 (n : Fin 10000) (c : Fin 384) (k : Fin 1280) : idx_main_v14 (ridx_main_v15 (ix2 n c) k) = ix2 c k :=
  funext fun a => Fin.ext (by match a with | ⟨0, _⟩ => rfl | ⟨1, _⟩ => rfl)

/-- The bias row broadcast over the nodes is read at (0, c). -/
theorem idx16 (n : Fin 10000) (c : Fin 384) : idx_main_v16 (ix2 n c) = ix2 (0 : Fin 1) c :=
  funext fun a => Fin.ext (by match a with | ⟨0, _⟩ => rfl | ⟨1, _⟩ => rfl)

/-- The biased second contraction at (n, c) is Σ_κ hcat n κ · U_iou (c, κ) + b_iou (0, c). -/
theorem iou_read (n : Fin 10000) (c : Fin 384) : val_main_v17 (F := Ideal) x0 x4 x5 (ix2 n c) = iou x0 x4 x5 n c := by
  rw [val_main_v17_apply, val_main_v15_apply, val_main_v16_apply, idx16]
  unfold iou
  refine congrArg (· + _) (Finset.sum_congr rfl fun k _ => ?_)
  rw [lidx15, hcat_read, val_main_v14_apply, ridx15]

/-! ## The forget gates -/

/-- The left operand of the first contraction is read at (n, k). -/
theorem lidx1 (n : Fin 10000) (c : Fin 1280) (k : Fin 1280) : lidx_main_v1 (ix2 n c) k = ix2 n k :=
  funext fun a => Fin.ext (by match a with | ⟨0, _⟩ => rfl | ⟨1, _⟩ => rfl)

/-- Its right operand is read at (k, c). -/
theorem ridx1 (n : Fin 10000) (c : Fin 1280) (k : Fin 1280) : ridx_main_v1 (ix2 n c) k = ix2 k c :=
  funext fun a => Fin.ext (by match a with | ⟨0, _⟩ => rfl | ⟨1, _⟩ => rfl)

/-- The bias vector, broadcast to a row and then over the nodes, is read at c. -/
theorem idx3 (n : Fin 10000) (c : Fin 1280) : idx_main_v2 (idx_main_v3 (ix2 n c)) = ix1 c :=
  funext fun a => Fin.ext (by match a with | ⟨0, _⟩ => rfl)

/-- The gate array at (n, c) is σ (Σ_κ hcat n κ · U_f (κ, c) + b_f c). -/
theorem fgate_read (n : Fin 10000) (c : Fin 1280) : val_main_v10 (F := Ideal) x0 x2 x3 (ix2 n c) = fgate x0 x2 x3 n c := by
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply, idx3]
  unfold fgate
  rw [Ideal.hostDivf_def, Ideal.ofBits_def, Ideal.addf_def, Ideal.hostUnary_exp_def, Ideal.hostNegf_def, Ideal.negf_def,
    Ideal.addf_def, sigmoid_eq]
  refine congrArg (fun s => Ideal.logistic (s + _)) (Finset.sum_congr rfl fun k _ => ?_)
  rw [lidx1, hcat_read, ridx1]

/-! ## The gated sum of the children's cell states -/

/-- The k-th summand of the reduction at (n, j) is read at (n, k, j). -/
theorem idx13 (n : Fin 10000) (j : Fin 128) (k : Fin 10) : idx_main_v13 (ix2 n j) k = ix3 n k j :=
  funext fun a => Fin.ext (by match a with | ⟨0, _⟩ => rfl | ⟨1, _⟩ => rfl | ⟨2, _⟩ => rfl)

/-- Row-major position (n · 10 + k) · 128 + j of the gate array is its position (n, 128 k + j). -/
theorem idx11 (n : Fin 10000) (k : Fin 10) (j : Fin 128) : idx_main_v11 (ix3 n k j) = ix2 n (col k j) :=
  funext fun a => Fin.ext (by
    have hn := n.isLt; have hk := k.isLt; have hj := j.isLt
    match a with
    | ⟨0, _⟩ => show ((n.val * 10 + k.val) * 128 + j.val) / 1280 = n.val; omega
    | ⟨1, _⟩ => show ((n.val * 10 + k.val) * 128 + j.val) % 1280 = 128 * k.val + j.val; omega)

/-- The reduction at (n, j) is Σ_k f n (128 k + j) · mailbox_c (n, k, j): its initial value is 0. -/
theorem cred_read (n : Fin 10000) (j : Fin 128) :
    val_main_v13 (F := Ideal) x0 x1 x2 x3 (ix2 n j) = Cert.CellSpec.cred x0 x1 x2 x3 n j := by
  rw [val_main_v13_apply, val_main_cst_1_apply, Ideal.ofBits_def, Ideal.ofBits_zero_f32, zero_add]
  unfold Cert.CellSpec.cred
  refine Finset.sum_congr rfl fun k _ => ?_
  rw [val_main_v12_apply, val_main_v11_apply, idx13, idx11, fgate_read, Ideal.mulf_def]

/-! ## The new states -/

/-- The three slices read columns j, 128 + j and 256 + j. -/
theorem idx18 (n : Fin 10000) (j : Fin 128) : idx_main_v18 (ix2 n j) = ix2 n (colI j) :=
  funext fun a => Fin.ext (by match a with | ⟨0, _⟩ => rfl | ⟨1, _⟩ => rfl)
theorem idx19 (n : Fin 10000) (j : Fin 128) : idx_main_v19 (ix2 n j) = ix2 n (colO j) :=
  funext fun a => Fin.ext (by match a with | ⟨0, _⟩ => rfl | ⟨1, _⟩ => rfl)
theorem idx20 (n : Fin 10000) (j : Fin 128) : idx_main_v20 (ix2 n j) = ix2 n (colU j) :=
  funext fun a => Fin.ext (by match a with | ⟨0, _⟩ => rfl | ⟨1, _⟩ => rfl)

/-- The new cell state at (n, j): σ (iou n j) · tanh (iou n (256 + j)) + cred n j. -/
theorem c_read (n : Fin 10000) (j : Fin 128) :
    val_main_v35 (F := Ideal) x0 x1 x2 x3 x4 x5 (ix2 n j) = cellC x0 x1 x2 x3 x4 x5 (ix2 n j) := by
  rw [val_main_v35_apply, val_main_v34_apply, val_main_v26_apply, val_main_v25_apply, val_main_cst_3_apply, val_main_v24_apply,
    val_main_v23_apply, val_main_cst_2_apply, val_main_v22_apply, val_main_v21_apply, val_main_v18_apply, idx18, iou_read,
    val_main_v33_apply, val_main_v20_apply, idx20, iou_read, cred_read]
  rw [Ideal.hostDivf_def, Ideal.ofBits_def, Ideal.addf_def, Ideal.hostUnary_exp_def, Ideal.hostNegf_def, Ideal.negf_def,
    Ideal.addf_def, Ideal.mulf_def, Ideal.hostUnary_tanh_def, sigmoid_eq]
  rfl

/-- The new hidden state at (n, j): σ (iou n (128 + j)) · tanh (c n j). -/
theorem h_read (n : Fin 10000) (j : Fin 128) :
    val_main_v37 (F := Ideal) x0 x1 x2 x3 x4 x5 (ix2 n j) = cellH x0 x1 x2 x3 x4 x5 (ix2 n j) := by
  rw [val_main_v37_apply, val_main_v32_apply, val_main_v31_apply, val_main_cst_5_apply, val_main_v30_apply,
    val_main_v29_apply, val_main_cst_4_apply, val_main_v28_apply, val_main_v27_apply, val_main_v19_apply, idx19, iou_read,
    val_main_v36_apply, c_read]
  rw [Ideal.hostDivf_def, Ideal.ofBits_def, Ideal.addf_def, Ideal.hostUnary_exp_def, Ideal.hostNegf_def, Ideal.negf_def,
    Ideal.mulf_def, Ideal.hostUnary_tanh_def, sigmoid_eq]
  rfl

/-- The reference's new cell state is the cell's, as functions of the six argument arrays. -/
theorem ref_c (x0 x1 : (⟨S10000x10x128, .f32⟩ : BufTy).Contents (Elt Ideal)) (x2 : (⟨S1280x1280, .f32⟩ : BufTy).Contents (Elt Ideal))
    (x3 : (⟨S1280, .f32⟩ : BufTy).Contents (Elt Ideal)) (x4 : (⟨S384x1280, .f32⟩ : BufTy).Contents (Elt Ideal))
    (x5 : (⟨S1x384, .f32⟩ : BufTy).Contents (Elt Ideal)) :
    val_main_v35 (F := Ideal) x0 x1 x2 x3 x4 x5 = Cert.CellSpec.cellC x0 x1 x2 x3 x4 x5 := by
  funext i
  obtain ⟨n, j, rfl⟩ : ∃ (n : Fin 10000) (j : Fin 128), i = ix2 n j := ⟨i 0, i 1, eq_ix2 i⟩
  exact c_read x0 x1 x2 x3 x4 x5 n j

/-- The reference's new hidden state is the cell's. -/
theorem ref_h (x0 x1 : (⟨S10000x10x128, .f32⟩ : BufTy).Contents (Elt Ideal)) (x2 : (⟨S1280x1280, .f32⟩ : BufTy).Contents (Elt Ideal))
    (x3 : (⟨S1280, .f32⟩ : BufTy).Contents (Elt Ideal)) (x4 : (⟨S384x1280, .f32⟩ : BufTy).Contents (Elt Ideal))
    (x5 : (⟨S1x384, .f32⟩ : BufTy).Contents (Elt Ideal)) :
    val_main_v37 (F := Ideal) x0 x1 x2 x3 x4 x5 = Cert.CellSpec.cellH x0 x1 x2 x3 x4 x5 := by
  funext i
  obtain ⟨n, j, rfl⟩ : ∃ (n : Fin 10000) (j : Fin 128), i = ix2 n j := ⟨i 0, i 1, eq_ix2 i⟩
  exact h_read x0 x1 x2 x3 x4 x5 n j

end Cert.RefSide

end
-- ==== Proof.lean ====
/-
  A fused child-sum TreeLSTM cell against its plain formulation.
  For every node the ten children's hidden states, laid side by side, go through two linear maps: one gives a
  forget gate per child and feature, the other the input, output and update pre-activations; the new cell state
  is  σ(i) · tanh(u) + Σ_k f_k · c_k  and the new hidden state  σ(o) · tanh(c).
  The kernel computes a thousand nodes per grid point: it assembles the children side by side in one scratch
  buffer and, at the first point only, the two weight matrices side by side in another, takes ONE product of the
  two, and splits its columns into the gates; the plain formulation takes the two products separately, spells the
  logistic function out as 1 / (1 + e^(-x)), and sums the gated child states with a reduction from zero. On the
  extended reals these are the same sums and products entry by entry: the single product's columns are the two
  products' columns, a change of float format is the identity, the logistic function is that quotient by
  definition, and the kernel's left-to-right sum of ten products is the reduction's sum (addition there is
  associative and commutative; no cancellation or distribution is used, so finiteness of the inputs is never
  needed).
  The three frames: the reference's is its run with the results dropped; the two kernel programs' is the run of
  the one region, whose ten windows include two pairs reading one array each, held by halves.
-/
import proofs.«181788_g52183852646691_cont_8to1_c_618_27_alg».proof.Defs
import proofs.«181788_g52183852646691_cont_8to1_c_618_27_alg».proof.Proof.KernelFrame
import proofs.«181788_g52183852646691_cont_8to1_c_618_27_alg».proof.Proof.IdealFinal
import proofs.«181788_g52183852646691_cont_8to1_c_618_27_alg».proof.Proof.RefSide
import proofs.«181788_g52183852646691_cont_8to1_c_618_27_alg».proof.Proof.Gen.Pre_finite_inputs
import Idealize.ShloMosaic.Adequacy
import Idealize.ShloMosaic.Init

noncomputable section

namespace Cert.Proof

open Idealize.ShloMosaic Idealize.SL.Sem Cert.CellSpec Cert.KernelIdeal.Cell

theorem frame_kernel : Cert.frame_Kernel (hKernel := Cert.Kernel.Gen.facts) (hPre_finite_inputs := Cert.Pre_finite_inputs.Gen.facts) :=
  fun m ρ _ => Cert.Kernel.Cell.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Cell.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the new hidden state and the new cell state of the specification at the kernel's
    argument arrays: the kernel by its value run, the reference by its run read one operation at a time, the
    arguments agreeing. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => cellH (aH m c) (aC m c) (aUf m c) (aBf m c) (aUi m c) (aBi m c), fun c => cellC (aH m c) (aC m c) (aUf m c) (aBf m c) (aUi m c) (aBi m c), run_value m ρ, ?_⟩
  refine (θ_run Cert.ReferenceIdeal.defs _ _).mono (fun _ h c => ⟨?_, ?_, (h c).2.2⟩) (Cert.ReferenceIdeal.Value.run (F := Ideal) m' ρ')
  · obtain ⟨e0, e1, e2, e3, e4, e5⟩ := hagree c
    rw [(h c).1, Cert.ReferenceIdeal.Read.val_main_v37_eq, Cert.RefSide.ref_h, e0, e1, e2, e3, e4, e5]
  · obtain ⟨e0, e1, e2, e3, e4, e5⟩ := hagree c
    rw [(h c).2.1, Cert.ReferenceIdeal.Read.val_main_v35_eq, Cert.RefSide.ref_c, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
